-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S8x128x128 : Shape := ⟨3, ![8, 128, 128]⟩
abbrev S640000 : Shape := ⟨1, ![640000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_
  bcast_S_S640000 : S_.BroadcastsInDim S640000 (![] : Fin 0 → Fin S640000.rank)
  reducesTo_S640000_S_d0 : S640000.ReducesTo [0] S_

variable [Facts]

def fn {F : FTy → Type} [FloatOps F] (main_arg0 : FVec F S50000x128 .f32) (main_arg1 : FVec F S8x128x128 .f32) (main_arg2 : IVec S640000 32) (main_arg3 : IVec S640000 32) (main_arg4 : IVec S640000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S8x128x128 .f32 := Host.absf main_arg1
  let main_cst_0 : FVec F S_ .f32 := constant S_ .f32 0x7F800000#32
  let main_v5 : FVec F S8x128x128 .f32 := broadcastInDim S8x128x128 ![] bcast_S_S8x128x128 main_cst_0
  let main_v6 : IVec S8x128x128 1 := cmpf .olt main_v4 main_v5
  let main_c_1 : IVec S_ 1 := constantI S_ 1 1#1
  let main_v7 : IVec S_ 1 := (fun x v => Host.reduce IntOp.andi x v reducesTo_S8x128x128_S_d0_1_2 h_S_) main_v6 main_c_1
  let main_v8 : IVec S_ 1 := andi main_v3 main_v7
  let main_c_2 : IVec S_ 32 := constantI S_ 32 0#32
  let main_v9 : IVec S640000 32 := broadcastInDim S640000 ![] bcast_S_S640000 main_c_2
  let main_v10 : IVec S640000 1 := cmpi .sge main_arg2 main_v9
  let main_c_3 : IVec S_ 32 := constantI S_ 32 8#32
  let main_v11 : IVec S640000 32 := broadcastInDim S640000 ![] bcast_S_S640000 main_c_3
  let main_v12 : IVec S640000 1 := cmpi .slt main_arg2 main_v11
  let main_v13 : IVec S640000 1 := andi main_v10 main_v12
  let main_c_4 : IVec S_ 1 := constantI S_ 1 1#1
  let main_v14 : IVec S_ 1 := (fun x v => Host.reduce IntOp.andi x v reducesTo_S640000_S_d0 h_S_) main_v13 main_c_4
  let main_v15 : IVec S_ 1 := andi main_v8 main_v14
  main_v15
-- ==== Kernel.lean ====
abbrev S50000x128 : Shape := ⟨2, ![50000, 128]⟩
abbrev S8x128x128 : Shape := ⟨3, ![8, 128, 128]⟩
abbrev S640000 : Shape := ⟨1, ![640000]⟩
abbrev S_ : Shape := ⟨0, ![]⟩
abbrev S640000x1 : Shape := ⟨2, ![640000, 1]⟩
abbrev S8 : Shape := ⟨1, ![8]⟩
abbrev S1x640000 : Shape := ⟨2, ![1, 640000]⟩
abbrev S8x1 : Shape := ⟨2, ![8, 1]⟩
abbrev S8x640000 : Shape := ⟨2, ![8, 640000]⟩
abbrev S1 : Shape := ⟨1, ![1]⟩
abbrev S7 : Shape := ⟨1, ![7]⟩
abbrev S640000x128 : Shape := ⟨2, ![640000, 128]⟩
abbrev S720000x128 : Shape := ⟨2, ![720000, 128]⟩
abbrev S720000 : Shape := ⟨1, ![720000]⟩
abbrev S72 : Shape := ⟨1, ![72]⟩
abbrev S72x1 : Shape := ⟨2, ![72, 1]⟩
abbrev S1x8 : Shape := ⟨2, ![1, 8]⟩
abbrev S72x8 : Shape := ⟨2, ![72, 8]⟩
abbrev S10000x128 : Shape := ⟨2, ![10000, 128]⟩
abbrev S1x128x128 : Shape := ⟨3, ![1, 128, 128]⟩
abbrev S128x128 : Shape := ⟨2, ![128, 128]⟩
abbrev S720000x1 : Shape := ⟨2, ![720000, 1]⟩

abbrev nBuf : Space → Nat
  | .hbm => 160
  | .vmem => 6
  | .smem => 1
  | _ => 0

abbrev hbmTy0_0 (i : Nat) : BufTy := match i % 128 with
  | 0 => ⟨S50000x128, .f32⟩
  | 1 => ⟨S8x128x128, .f32⟩
  | 2 => ⟨S640000, .i32⟩
  | 3 => ⟨S640000, .i32⟩
  | 4 => ⟨S640000, .i32⟩
  | 5 => ⟨S50000x128, .bf16⟩
  | 6 => ⟨S8x128x128, .bf16⟩
  | 7 => ⟨S640000, .i32⟩
  | 8 => ⟨S640000, .i32⟩
  | 9 => ⟨S640000, .i32⟩
  | 10 => ⟨S_, .i32⟩
  | 11 => ⟨S640000, .i32⟩
  | 12 => ⟨S640000, .i1⟩
  | 13 => ⟨S_, .i32⟩
  | 14 => ⟨S640000, .i32⟩
  | 15 => ⟨S640000, .i32⟩
  | 16 => ⟨S640000, .i32⟩
  | 17 => ⟨S640000x1, .i32⟩
  | 18 => ⟨S640000, .i32⟩
  | 19 => ⟨S_, .i32⟩
  | 20 => ⟨S640000, .i32⟩
  | 21 => ⟨S640000, .i1⟩
  | 22 => ⟨S_, .i32⟩
  | 23 => ⟨S640000, .i32⟩
  | 24 => ⟨S640000, .i32⟩
  | 25 => ⟨S640000, .i32⟩
  | 26 => ⟨S640000x1, .i32⟩
  | 27 => ⟨S640000, .i32⟩
  | 28 => ⟨S_, .i32⟩
  | 29 => ⟨S640000, .i32⟩
  | 30 => ⟨S640000, .i1⟩
  | 31 => ⟨S_, .i32⟩
  | 32 => ⟨S640000, .i32⟩
  | 33 => ⟨S640000, .i32⟩
  | 34 => ⟨S640000, .i32⟩
  | 35 => ⟨S640000x1, .i32⟩
  | 36 => ⟨S640000, .i32⟩
  | 37 => ⟨S8, .i32⟩
  | 38 => ⟨S1x640000, .i32⟩
  | 39 => ⟨S8x1, .i32⟩
  | 40 => ⟨S8x640000, .i32⟩
  | 41 => ⟨S8x640000, .i32⟩
  | 42 => ⟨S8x640000, .i1⟩
  | 43 => ⟨S8x640000, .i32⟩
  | 44 => ⟨S_, .i32⟩
  | 45 => ⟨S8, .i32⟩
  | 46 => ⟨S_, .i32⟩
  | 47 => ⟨S8, .i32⟩
  | 48 => ⟨S8, .i32⟩
  | 49 => ⟨S_, .i32⟩
  | 50 => ⟨S8, .i32⟩
  | 51 => ⟨S8, .i32⟩
  | 52 => ⟨S_, .i32⟩
  | 53 => ⟨S_, .i32⟩
  | 54 => ⟨S8, .i32⟩
  | 55 => ⟨S8, .i32⟩
  | 56 => ⟨S8, .i32⟩
  | 57 => ⟨S_, .i32⟩
  | 58 => ⟨S8, .i32⟩
  | 59 => ⟨S8, .i1⟩
  | 60 => ⟨S8, .i32⟩
  | 61 => ⟨S8, .i32⟩
  | 62 => ⟨S_, .i32⟩
  | 63 => ⟨S8, .i32⟩
  | 64 => ⟨S8, .i1⟩
  | 65 => ⟨S8, .i1⟩
  | 66 => ⟨S_, .i32⟩
  | 67 => ⟨S8, .i32⟩
  | 68 => ⟨S8, .i32⟩
  | 69 => ⟨S8, .i32⟩
  | 70 => ⟨S_, .i32⟩
  | 71 => ⟨S8, .i32⟩
  | 72 => ⟨S8, .i32⟩
  | 73 => ⟨S_, .i32⟩
  | 74 => ⟨S1, .i32⟩
  | 75 => ⟨S_, .i32⟩
  | 76 => ⟨S_, .i32⟩
  | 77 => ⟨S8, .i32⟩
  | 78 => ⟨S7, .i32⟩
  | 79 => ⟨S8, .i32⟩
  | 80 => ⟨S_, .i32⟩
  | 81 => ⟨S_, .i32⟩
  | 82 => ⟨S8, .i32⟩
  | 83 => ⟨S7, .i32⟩
  | 84 => ⟨S8, .i32⟩
  | 85 => ⟨S640000, .i32⟩
  | 86 => ⟨S_, .i32⟩
  | 87 => ⟨S640000, .i32⟩
  | 88 => ⟨S640000, .i1⟩
  | 89 => ⟨S_, .i32⟩
  | 90 => ⟨S640000, .i32⟩
  | 91 => ⟨S640000, .i32⟩
  | 92 => ⟨S640000, .i32⟩
  | 93 => ⟨S640000x1, .i32⟩
  | 94 => ⟨S640000, .i32⟩
  | 95 => ⟨S640000, .i32⟩
  | 96 => ⟨S_, .i32⟩
  | 97 => ⟨S640000, .i32⟩
  | 98 => ⟨S640000, .i1⟩
  | 99 => ⟨S_, .i32⟩
  | 100 => ⟨S640000, .i32⟩
  | 101 => ⟨S640000, .i32⟩
  | 102 => ⟨S640000, .i32⟩
  | 103 => ⟨S640000x1, .i32⟩
  | 104 => ⟨S640000, .i32⟩
  | 105 => ⟨S640000, .i32⟩
  | 106 => ⟨S_, .i32⟩
  | 107 => ⟨S640000, .i32⟩
  | 108 => ⟨S640000, .i1⟩
  | 109 => ⟨S_, .i32⟩
  | 110 => ⟨S640000, .i32⟩
  | 111 => ⟨S640000, .i32⟩
  | 112 => ⟨S640000, .i32⟩
  | 113 => ⟨S640000x1, .i32⟩
  | 114 => ⟨S640000x128, .bf16⟩
  | 115 => ⟨S_, .bf16⟩
  | 116 => ⟨S720000x128, .bf16⟩
  | 117 => ⟨S_, .i32⟩
  | 118 => ⟨S640000, .i32⟩
  | 119 => ⟨S640000, .i1⟩
  | 120 => ⟨S_, .i32⟩
  | 121 => ⟨S640000, .i32⟩
  | 122 => ⟨S640000, .i32⟩
  | 123 => ⟨S640000, .i32⟩
  | 124 => ⟨S640000x1, .i32⟩
  | 125 => ⟨S720000x128, .bf16⟩
  | 126 => ⟨S_, .i32⟩
  | 127 => ⟨S720000, .i32⟩
  | _ => ⟨S50000x128, .f32⟩

abbrev hbmTy0_1 (i : Nat) : BufTy := match i % 128 with
  | 0 => ⟨S_, .i32⟩
  | 1 => ⟨S640000, .i32⟩
  | 2 => ⟨S640000, .i1⟩
  | 3 => ⟨S_, .i32⟩
  | 4 => ⟨S640000, .i32⟩
  | 5 => ⟨S640000, .i32⟩
  | 6 => ⟨S640000, .i32⟩
  | 7 => ⟨S640000x1, .i32⟩
  | 8 => ⟨S720000, .i32⟩
  | 9 => ⟨S72, .i32⟩
  | 10 => ⟨S_, .i32⟩
  | 11 => ⟨S72, .i32⟩
  | 12 => ⟨S72, .i32⟩
  | 13 => ⟨S72x1, .i32⟩
  | 14 => ⟨S1x8, .i32⟩
  | 15 => ⟨S72x8, .i32⟩
  | 16 => ⟨S72x8, .i32⟩
  | 17 => ⟨S72x8, .i1⟩
  | 18 => ⟨S72x8, .i32⟩
  | 19 => ⟨S_, .i32⟩
  | 20 => ⟨S72, .i32⟩
  | 21 => ⟨S_, .i32⟩
  | 22 => ⟨S72, .i32⟩
  | 23 => ⟨S720000x128, .f32⟩
  | 24 => ⟨S_, .f32⟩
  | 25 => ⟨S50000x128, .f32⟩
  | 26 => ⟨S720000x1, .i32⟩
  | 27 => ⟨S50000x128, .f32⟩
  | 28 => ⟨S_, .f32⟩
  | 29 => ⟨S50000x128, .f32⟩
  | 30 => ⟨S50000x128, .f32⟩
  | 31 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .bf16⟩
  | .local _ .vmem, ⟨1, _⟩ => ⟨S10000x128, .bf16⟩
  | .local _ .vmem, ⟨2, _⟩ => ⟨S1x128x128, .bf16⟩
  | .local _ .vmem, ⟨3, _⟩ => ⟨S1x128x128, .bf16⟩
  | .local _ .vmem, ⟨4, _⟩ => ⟨S10000x128, .f32⟩
  | .local _ .vmem, ⟨5, _⟩ => ⟨S10000x128, .f32⟩
  | .local _ .smem, ⟨0, _⟩ => ⟨S72, .i32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1_0 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_c : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_0 : Ref sig .tc := ⟨.hbm, 66, rfl⟩
abbrev main_call1_v12 : Ref sig .tc := ⟨.hbm, 67, rfl⟩
abbrev main_call1_v13 : Ref sig .tc := ⟨.hbm, 68, rfl⟩
abbrev main_v36 : Ref sig .tc := ⟨.hbm, 69, rfl⟩
abbrev main_c_9 : Ref sig .tc := ⟨.hbm, 70, rfl⟩
abbrev main_v37 : Ref sig .tc := ⟨.hbm, 71, rfl⟩
abbrev main_v38 : Ref sig .tc := ⟨.hbm, 72, rfl⟩
abbrev main_c_10 : Ref sig .tc := ⟨.hbm, 73, rfl⟩
abbrev main_v39 : Ref sig .tc := ⟨.hbm, 74, rfl⟩
abbrev main_call2_call0_c : Ref sig .tc := ⟨.hbm, 75, rfl⟩
abbrev main_call2_call0_v0 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_call3_call0_c : Ref sig .tc := ⟨.hbm, 80, rfl⟩
abbrev main_call3_call0_v0 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_c_11 : Ref sig .tc := ⟨.hbm, 86, rfl⟩
abbrev main_v47 : Ref sig .tc := ⟨.hbm, 87, rfl⟩
abbrev main_v48 : Ref sig .tc := ⟨.hbm, 88, rfl⟩
abbrev main_c_12 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_c_13 : Ref sig .tc := ⟨.hbm, 96, rfl⟩
abbrev main_v55 : Ref sig .tc := ⟨.hbm, 97, rfl⟩
abbrev main_v56 : Ref sig .tc := ⟨.hbm, 98, rfl⟩
abbrev main_c_14 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_c_15 : Ref sig .tc := ⟨.hbm, 106, rfl⟩
abbrev main_v63 : Ref sig .tc := ⟨.hbm, 107, rfl⟩
abbrev main_v64 : Ref sig .tc := ⟨.hbm, 108, rfl⟩
abbrev main_c_16 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_cst : Ref sig .tc := ⟨.hbm, 115, rfl⟩
abbrev main_v70 : Ref sig .tc := ⟨.hbm, 116, rfl⟩
abbrev main_c_17 : Ref sig .tc := ⟨.hbm, 117, rfl⟩
abbrev main_v71 : Ref sig .tc := ⟨.hbm, 118, rfl⟩
abbrev main_v72 : Ref sig .tc := ⟨.hbm, 119, rfl⟩
abbrev main_c_18 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_c_19 : Ref sig .tc := ⟨.hbm, 126, rfl⟩
abbrev main_v78 : Ref sig .tc := ⟨.hbm, 127, rfl⟩
abbrev main_c_20 : Ref sig .tc := ⟨.hbm, 128, rfl⟩
abbrev main_v79 : Ref sig .tc := ⟨.hbm, 129, rfl⟩
abbrev main_v80 : Ref sig .tc := ⟨.hbm, 130, rfl⟩
abbrev main_c_21 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_c_22 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_c_23 : Ref sig .tc := ⟨.hbm, 147, rfl⟩
abbrev main_v95 : Ref sig .tc := ⟨.hbm, 148, rfl⟩
abbrev main_c_24 : Ref sig .tc := ⟨.hbm, 149, rfl⟩
abbrev main_v96 : Ref sig .tc := ⟨.hbm, 150, rfl⟩
abbrev main_v98 : Ref sig .tc := ⟨.hbm, 151, rfl⟩
abbrev main_cst_25 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_cst_26 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v97 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![72], ![false]⟩

abbrev pre0 : Pipeline.Prefetch sig := ⟨1, ![main_v97.idx], fun | 0 => main_v97.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  bcast_S640000_S1x640000_1 : S640000.BroadcastsInDim S1x640000 (![1] : Fin 1 → Fin S1x640000.rank)
  bcast_S8_S8x1_0 : S8.BroadcastsInDim S8x1 (![0] : Fin 1 → Fin S8x1.rank)
  bcast_S1x640000_S8x640000_0_1 : S1x640000.BroadcastsInDim S8x640000 (![0, 1] : Fin 2 → Fin S8x640000.rank)
  bcast_S8x1_S8x640000_0_1 : S8x1.BroadcastsInDim S8x640000 (![0, 1] : Fin 2 → Fin S8x640000.rank)
  natLt_1_32 : 1 < 32
  reducesTo_S8x640000_S8_d1 : S8x640000.ReducesTo [1] S8
  h_S_ : 0 < S_.numel
  bcast_S_S8 : S_.BroadcastsInDim S8 (![] : Fin 0 → Fin S8.rank)
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  slices_S8_S7_0 : S8.Slices ![0] S7
  concatenates_S1_S7_S8_d0 : Shape.Concatenates [S1, S7] S8 0
  bcast_S_S720000x128 : S_.BroadcastsInDim S720000x128 (![] : Fin 0 → Fin S720000x128.rank)
  bcast_S_S720000 : S_.BroadcastsInDim S720000 (![] : Fin 0 → Fin S720000.rank)
  bcast_S_S72 : S_.BroadcastsInDim S72 (![] : Fin 0 → Fin S72.rank)
  bcast_S72_S72x1_0 : S72.BroadcastsInDim S72x1 (![0] : Fin 1 → Fin S72x1.rank)
  bcast_S8_S1x8_1 : S8.BroadcastsInDim S1x8 (![1] : Fin 1 → Fin S1x8.rank)
  bcast_S72x1_S72x8_0_1 : S72x1.BroadcastsInDim S72x8 (![0, 1] : Fin 2 → Fin S72x8.rank)
  bcast_S1x8_S72x8_0_1 : S1x8.BroadcastsInDim S72x8 (![0, 1] : Fin 2 → Fin S72x8.rank)
  reducesTo_S72x8_S72_d1 : S72x8.ReducesTo [1] S72
  numel1_S1 : S1.numel = 1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  bcast_S_S50000x128 : S_.BroadcastsInDim S50000x128 (![] : Fin 0 → Fin S50000x128.rank)
  bcast_S720000_S720000x1_0 : S720000.BroadcastsInDim S720000x1 (![0] : Fin 1 → Fin S720000x1.rank)
  gather_S640000_S640000x1_S640000_n_0_n_n_0_1_1_wf : GatherDims.WF S640000 S640000x1 S640000 [] [0] [] [0] [] 1 ![1]
  gather_S8_S640000x1_S640000_n_0_n_n_0_1_1_wf : GatherDims.WF S8 S640000x1 S640000 [] [0] [] [0] [] 1 ![1]
  gather_S50000x128_S640000x1_S640000x128_1_0_n_n_0_1_1128_wf : GatherDims.WF S50000x128 S640000x1 S640000x128 [1] [0] [] [0] [] 1 ![1, 128]
  scatter_S720000x128_S640000x1_S640000x128_1_0_0_1_wf : ScatterDims.WF S720000x128 S640000x1 S640000x128 [1] [0] [0] 1
  scatter_S720000_S640000x1_S640000_n_0_0_1_wf : ScatterDims.WF S720000 S640000x1 S640000 [] [0] [0] 1
  dot_S10000x128_S128x128_S10000x128_1_0_0_1_n_n_wf : DotDims.WF S10000x128 S128x128 S10000x128 [1] [0] [0] [1] [] []
  scatter_S50000x128_S720000x1_S720000x128_1_0_0_1_wf : ScatterDims.WF S50000x128 S720000x1 S720000x128 [1] [0] [0] 1
  hrank0 : 0 < grid0.rank
  k0_off1_inb : ∀ i : grid0.Coords, ∀ a, (k0_off1 i) a + S1.size a ≤ S72.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S720000x128.size a
  hwx0_0 : ∀ i : grid0.Coords, EltTy.bits .bf16 = 32 ∨ (Rect.block (s := S720000x128) S10000x128.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S720000x128.size a
  hwx0_2 : ∀ i : grid0.Coords, EltTy.bits .f32 = 32 ∨ (Rect.block (s := S720000x128) S10000x128.size (cc0_transform_2 i) (hinb0_2 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S640000_S640000x1_S640000_n_0_n_n_0_1_1 : GatherDims S640000 S640000x1 S640000 where
  offsetDims := []
  collapsedSliceDims := [0]
  operandBatchingDims := []
  startIndicesBatchingDims := []
  startIndexMap := [0]
  indexVectorDim := 1
  sliceSizes := ![1]
  wf := gather_S640000_S640000x1_S640000_n_0_n_n_0_1_1_wf
def gather_S8_S640000x1_S640000_n_0_n_n_0_1_1 : GatherDims S8 S640000x1 S640000 where
  offsetDims := []
  collapsedSliceDims := [0]
  operandBatchingDims := []
  startIndicesBatchingDims := []
  startIndexMap := [0]
  indexVectorDim := 1
  sliceSizes := ![1]
  wf := gather_S8_S640000x1_S640000_n_0_n_n_0_1_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S720000x128_S640000x1_S640000x128_1_0_0_1 : ScatterDims S720000x128 S640000x1 S640000x128 where
  updateWindowDims := [1]
  insertedWindowDims := [0]
  scatterDimsToOperandDims := [0]
  indexVectorDim := 1
  wf := scatter_S720000x128_S640000x1_S640000x128_1_0_0_1_wf
def scatter_S720000_S640000x1_S640000_n_0_0_1 : ScatterDims S720000 S640000x1 S640000 where
  updateWindowDims := []
  insertedWindowDims := [0]
  scatterDimsToOperandDims := [0]
  indexVectorDim := 1
  wf := scatter_S720000_S640000x1_S640000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S50000x128_S720000x1_S720000x128_1_0_0_1 : ScatterDims S50000x128 S720000x1 S720000x128 where
  updateWindowDims := [1]
  insertedWindowDims := [0]
  scatterDimsToOperandDims := [0]
  indexVectorDim := 1
  wf := scatter_S50000x128_S720000x1_S720000x128_1_0_0_1_wf

abbrev spec0_0 : Pipeline.WinSpec sig grid0.rank :=
  Pipeline.WinSpec.ofSpec (Memref.whole main_v77) S10000x128.size reads0_0 false false 2 stage0_0 sem0_0 nbuf0_0 hstage0_0

abbrev spec0_1 : Pipeline.WinSpec sig grid0.rank :=
  Pipeline.WinSpec.ofSpec (Memref.whole main_v1) S1x128x128.size reads0_1 false false 2 stage0_1 sem0_1 nbuf0_1 hstage0_1

abbrev spec0_2 : Pipeline.WinSpec sig grid0.rank :=
  Pipeline.WinSpec.ofSpec (Memref.whole main_v98) S10000x128.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x128x128.size a ≤ S8x128x128.size a), EltTy.bits .bf16 = 32 ∨ (Rect.block (s := S8x128x128) S1x128x128.size (cc0_transform_1 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S50000x128 : Shape := ⟨2, ![50000, 128]⟩
abbrev S8x128x128 : Shape := ⟨3, ![8, 128, 128]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128x128 : Shape := ⟨3, ![1, 128, 128]⟩
abbrev S128x128 : Shape := ⟨2, ![128, 128]⟩

abbrev nBuf : Space → Nat
  | .hbm => 128
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S8x128x128, .f32⟩
  | .hbm, ⟨2, _⟩ => ⟨S640000, .i32⟩
  | .hbm, ⟨3, _⟩ => ⟨S640000, .i32⟩
  | .hbm, ⟨4, _⟩ => ⟨S640000, .i32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .f32⟩
  | .hbm, ⟨15, _⟩ => ⟨S640000x128, .f32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S640000x1, .i1⟩
  | .hbm, ⟨20, _⟩ => ⟨S_, .f32⟩
  | .hbm, ⟨21, _⟩ => ⟨S_, .f32⟩
  | .hbm, ⟨22, _⟩ => ⟨S640000x128, .i1⟩
  | .hbm, ⟨23, _⟩ => ⟨S640000x128, .f32⟩
  | .hbm, ⟨24, _⟩ => ⟨S640000x128, .f32⟩
  | .hbm, ⟨25, _⟩ => ⟨S1x128x128, .f32⟩
  | .hbm, ⟨26, _⟩ => ⟨S128x128, .f32⟩
  | .hbm, ⟨27, _⟩ => ⟨S640000x128, .f32⟩
  | .hbm, ⟨28, _⟩ => ⟨S640000x128, .f32⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S640000x1, .i1⟩
  | .hbm, ⟨33, _⟩ => ⟨S_, .f32⟩
  | .hbm, ⟨34, _⟩ => ⟨S_, .f32⟩
  | .hbm, ⟨35, _⟩ => ⟨S640000x128, .i1⟩
  | .hbm, ⟨36, _⟩ => ⟨S640000x128, .f32⟩
  | .hbm, ⟨37, _⟩ => ⟨S640000x128, .f32⟩
  | .hbm, ⟨38, _⟩ => ⟨S1x128x128, .f32⟩
  | .hbm, ⟨39, _⟩ => ⟨S128x128, .f32⟩
  | .hbm, ⟨40, _⟩ => ⟨S640000x128, .f32⟩
  | .hbm, ⟨41, _⟩ => ⟨S640000x128, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S640000x1, .i1⟩
  | .hbm, ⟨46, _⟩ => ⟨S_, .f32⟩
  | .hbm, ⟨47, _⟩ => ⟨S_, .f32⟩
  | .hbm, ⟨48, _⟩ => ⟨S640000x128, .i1⟩
  | .hbm, ⟨49, _⟩ => ⟨S640000x128, .f32⟩
  | .hbm, ⟨50, _⟩ => ⟨S640000x128, .f32⟩
  | .hbm, ⟨51, _⟩ => ⟨S1x128x128, .f32⟩
  | .hbm, ⟨52, _⟩ => ⟨S128x128, .f32⟩
  | .hbm, ⟨53, _⟩ => ⟨S640000x128, .f32⟩
  | .hbm, ⟨54, _⟩ => ⟨S640000x128, .f32⟩
  | .hbm, ⟨55, _⟩ => ⟨S_, .i32⟩
  | .hbm, ⟨56, _⟩ => ⟨S640000, .i32⟩
  | .hbm, ⟨57, _⟩ => ⟨S640000, .i1⟩
  | .hbm, ⟨58, _⟩ => ⟨S640000x1, .i1⟩
  | .hbm, ⟨59, _⟩ => ⟨S_, .f32⟩
  | .hbm, ⟨60, _⟩ => ⟨S_, .f32⟩
  | .hbm, ⟨61, _⟩ => ⟨S640000x128, .i1⟩
  | .hbm, ⟨62, _⟩ => ⟨S640000x128, .f32⟩
  | .hbm, ⟨63, _⟩ => ⟨S640000x128, .f32⟩
  | .hbm, ⟨64, _⟩ => ⟨S1x128x128, .f32⟩
  | .hbm, ⟨65, _⟩ => ⟨S128x128, .f32⟩
  | .hbm, ⟨66, _⟩ => ⟨S640000x128, .f32⟩
  | .hbm, ⟨67, _⟩ => ⟨S640000x128, .f32⟩
  | .hbm, ⟨68, _⟩ => ⟨S_, .i32⟩
  | .hbm, ⟨69, _⟩ => ⟨S640000, .i32⟩
  | .hbm, ⟨70, _⟩ => ⟨S640000, .i1⟩
  | .hbm, ⟨71, _⟩ => ⟨S640000x1, .i1⟩
  | .hbm, ⟨72, _⟩ => ⟨S_, .f32⟩
  | .hbm, ⟨73, _⟩ => ⟨S_, .f32⟩
  | .hbm, ⟨74, _⟩ => ⟨S640000x128, .i1⟩
  | .hbm, ⟨75, _⟩ => ⟨S640000x128, .f32⟩
  | .hbm, ⟨76, _⟩ => ⟨S640000x128, .f32⟩
  | .hbm, ⟨77, _⟩ => ⟨S1x128x128, .f32⟩
  | .hbm, ⟨78, _⟩ => ⟨S128x128, .f32⟩
  | .hbm, ⟨79, _⟩ => ⟨S640000x128, .f32⟩
  | .hbm, ⟨80, _⟩ => ⟨S640000x128, .f32⟩
  | .hbm, ⟨81, _⟩ => ⟨S_, .i32⟩
  | .hbm, ⟨82, _⟩ => ⟨S640000, .i32⟩
  | .hbm, ⟨83, _⟩ => ⟨S640000, .i1⟩
  | .hbm, ⟨84, _⟩ => ⟨S640000x1, .i1⟩
  | .hbm, ⟨85, _⟩ => ⟨S_, .f32⟩
  | .hbm, ⟨86, _⟩ => ⟨S_, .f32⟩
  | .hbm, ⟨87, _⟩ => ⟨S640000x128, .i1⟩
  | .hbm, ⟨88, _⟩ => ⟨S640000x128, .f32⟩
  | .hbm, ⟨89, _⟩ => ⟨S640000x128, .f32⟩
  | .hbm, ⟨90, _⟩ => ⟨S1x128x128, .f32⟩
  | .hbm, ⟨91, _⟩ => ⟨S128x128, .f32⟩
  | .hbm, ⟨92, _⟩ => ⟨S640000x128, .f32⟩
  | .hbm, ⟨93, _⟩ => ⟨S640000x128, .f32⟩
  | .hbm, ⟨94, _⟩ => ⟨S_, .i32⟩
  | .hbm, ⟨95, _⟩ => ⟨S640000, .i32⟩
  | .hbm, ⟨96, _⟩ => ⟨S640000, .i1⟩
  | .hbm, ⟨97, _⟩ => ⟨S640000x1, .i1⟩
  | .hbm, ⟨98, _⟩ => ⟨S_, .f32⟩
  | .hbm, ⟨99, _⟩ => ⟨S_, .f32⟩
  | .hbm, ⟨100, _⟩ => ⟨S640000x128, .i1⟩
  | .hbm, ⟨101, _⟩ => ⟨S640000x128, .f32⟩
  | .hbm, ⟨102, _⟩ => ⟨S640000x128, .f32⟩
  | .hbm, ⟨103, _⟩ => ⟨S1x128x128, .f32⟩
  | .hbm, ⟨104, _⟩ => ⟨S128x128, .f32⟩
  | .hbm, ⟨105, _⟩ => ⟨S640000x128, .f32⟩
  | .hbm, ⟨106, _⟩ => ⟨S640000x128, .f32⟩
  | .hbm, ⟨107, _⟩ => ⟨S_, .i32⟩
  | .hbm, ⟨108, _⟩ => ⟨S640000, .i32⟩
  | .hbm, ⟨109, _⟩ => ⟨S640000, .i1⟩
  | .hbm, ⟨110, _⟩ => ⟨S640000x1, .i1⟩
  | .hbm, ⟨111, _⟩ => ⟨S_, .f32⟩
  | .hbm, ⟨112, _⟩ => ⟨S_, .f32⟩
  | .hbm, ⟨113, _⟩ => ⟨S640000x128, .i1⟩
  | .hbm, ⟨114, _⟩ => ⟨S640000x128, .f32⟩
  | .hbm, ⟨115, _⟩ => ⟨S640000x128, .f32⟩
  | .hbm, ⟨116, _⟩ => ⟨S1x128x128, .f32⟩
  | .hbm, ⟨117, _⟩ => ⟨S128x128, .f32⟩
  | .hbm, ⟨118, _⟩ => ⟨S640000x128, .f32⟩
  | .hbm, ⟨119, _⟩ => ⟨S640000x128, .f32⟩
  | .hbm, ⟨120, _⟩ => ⟨S_, .f32⟩
  | .hbm, ⟨121, _⟩ => ⟨S50000x128, .f32⟩
  | .hbm, ⟨122, _⟩ => ⟨S640000x1, .i32⟩
  | .hbm, ⟨123, _⟩ => ⟨S50000x128, .f32⟩
  | .hbm, ⟨124, _⟩ => ⟨S_, .f32⟩
  | .hbm, ⟨125, _⟩ => ⟨S50000x128, .f32⟩
  | .hbm, ⟨126, _⟩ => ⟨S50000x128, .f32⟩
  | .hbm, ⟨127, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_8 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_9 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_10 : Ref sig .tc := ⟨.hbm, 72, rfl⟩
abbrev main_call4_v0 : Ref sig .tc := ⟨.hbm, 73, rfl⟩
abbrev main_call4_v1 : Ref sig .tc := ⟨.hbm, 74, rfl⟩
abbrev main_call4_v2 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_11 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_12 : Ref sig .tc := ⟨.hbm, 85, rfl⟩
abbrev main_call5_v0 : Ref sig .tc := ⟨.hbm, 86, rfl⟩
abbrev main_call5_v1 : Ref sig .tc := ⟨.hbm, 87, rfl⟩
abbrev main_call5_v2 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_c_13 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_14 : Ref sig .tc := ⟨.hbm, 98, rfl⟩
abbrev main_call6_v0 : Ref sig .tc := ⟨.hbm, 99, rfl⟩
abbrev main_call6_v1 : Ref sig .tc := ⟨.hbm, 100, rfl⟩
abbrev main_call6_v2 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_c_15 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_16 : Ref sig .tc := ⟨.hbm, 111, rfl⟩
abbrev main_call7_v0 : Ref sig .tc := ⟨.hbm, 112, rfl⟩
abbrev main_call7_v1 : Ref sig .tc := ⟨.hbm, 113, rfl⟩
abbrev main_call7_v2 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_17 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_cst_18 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S640000x1_S640000x128_0_1 : S640000x1.BroadcastsInDim S640000x128 (![0, 1] : Fin 2 → Fin S640000x128.rank)
  slices_S8x128x128_S1x128x128_0_0_0 : S8x128x128.Slices ![0, 0, 0] S1x128x128
  shapeCasts_S1x128x128_S128x128 : S1x128x128.ShapeCasts S128x128
  slices_S8x128x128_S1x128x128_1_0_0 : S8x128x128.Slices ![1, 0, 0] S1x128x128
  slices_S8x128x128_S1x128x128_2_0_0 : S8x128x128.Slices ![2, 0, 0] S1x128x128
  slices_S8x128x128_S1x128x128_3_0_0 : S8x128x128.Slices ![3, 0, 0] S1x128x128
  slices_S8x128x128_S1x128x128_4_0_0 : S8x128x128.Slices ![4, 0, 0] S1x128x128
  slices_S8x128x128_S1x128x128_5_0_0 : S8x128x128.Slices ![5, 0, 0] S1x128x128
  slices_S8x128x128_S1x128x128_6_0_0 : S8x128x128.Slices ![6, 0, 0] S1x128x128
  slices_S8x128x128_S1x128x128_7_0_0 : S8x128x128.Slices ![7, 0, 0] S1x128x128
  bcast_S_S50000x128 : S_.BroadcastsInDim S50000x128 (![] : Fin 0 → Fin S50000x128.rank)
  gather_S50000x128_S640000x1_S640000x128_1_0_n_n_0_1_1128_wf : GatherDims.WF S50000x128 S640000x1 S640000x128 [1] [0] [] [0] [] 1 ![1, 128]
  dot_S640000x128_S128x128_S640000x128_1_0_0_1_n_n_wf : DotDims.WF S640000x128 S128x128 S640000x128 [1] [0] [0] [1] [] []
  scatter_S50000x128_S640000x1_S640000x128_1_0_0_1_wf : ScatterDims.WF S50000x128 S640000x1 S640000x128 [1] [0] [0] 1

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

class Facts : Prop extends Facts₀ where

variable [Facts]
-- ==== Proof.KStages.lean ====
/-
  The host computation in front of the grouped matmul, stage by stage, as functions of the inputs. Edges are sorted by
  relation (a stable argsort of the relation ids); each relation's edges are counted, the counts rounded up to whole
  tiles of 10000 rows, and both lists of counts turned into exclusive running totals (where each relation's group
  starts among the sorted edges, and where its slab starts among the padded rows). The sorted edge at position i of
  relation r goes to row (start of r's slab) + (i − start of r's group). The gathered source rows and the destination
  ids are written to those rows of zero arrays; tile b of the padded rows is given the relation whose slab it lies in,
  found as the number of slabs starting at or before row 10000·b, less one.
-/
import proofs.«407377_j54400055771236_3_alg».proof.Proof.Gen.KernelIdeal

noncomputable section

namespace Cert.KernelIdeal.KStages

open Cert.KernelIdeal Cert.KernelIdeal.Gen Idealize.ShloMosaic

variable {F : FTy → Type} [FloatOps F]

/-- The sorting permutation's words: position i holds the edge that sorts to i. -/
def perm (ety : IVec S640000 32) : IVec S640000 32 :=
  (Host.sort2 S640000 0 comparator_i32_i32_d0 ety (iotaInDim S640000 32 0)).2

/-- An index vector as jnp hands it to a gather or scatter: a negative word has the extent added, and the vector is
    laid out as a column. -/
def wrapCol (ext : BitVec 32) (v : IVec S640000 32) : IVec S640000x1 32 :=
  broadcastInDim S640000x1 ![0] bcast_S640000_S640000x1_0
    (select (cmpi .slt v (broadcastInDim S640000 ![] bcast_S_S640000 (constantI S_ 32 0#32)))
      (addi v (broadcastInDim S640000 ![] bcast_S_S640000 (constantI S_ 32 ext))) v)

/-- A per-edge input read in sorted order. -/
def sorted (ety x : IVec S640000 32) : IVec S640000 32 :=
  Host.gather gather_S640000_S640000x1_S640000_n_0_n_n_0_1_1 x (wrapCol 640000#32 (perm ety))

/-- How many edges each relation has. -/
def counts (ety : IVec S640000 32) : IVec S8 32 :=
  Host.reduce IntOp.addi
    (extui 32 (cmpi .eq
      (broadcastInDim S8x640000 ![0, 1] bcast_S1x640000_S8x640000_0_1 (broadcastInDim S1x640000 ![1] bcast_S640000_S1x640000_1 ety))
      (broadcastInDim S8x640000 ![0, 1] bcast_S8x1_S8x640000_0_1 (broadcastInDim S8x1 ![0] bcast_S8_S8x1_0 (iotaInDim S8 32 0)))) natLt_1_32)
    (constantI S_ 32 0#32) reducesTo_S8x640000_S8_d1 h_S_

/-- jnp's floor division of a vector by the scalar 10000: the truncating quotient, less one where the signs differ and
    the remainder is not zero. -/
def floorDiv10000 (a : IVec S8 32) : IVec S8 32 :=
  select
    (andi
      (cmpi .ne (signi a) (broadcastInDim S8 ![] bcast_S_S8 (signi (id (constantI S_ 32 10000#32)))))
      (cmpi .ne (Host.remsi a (broadcastInDim S8 ![] bcast_S_S8 (id (constantI S_ 32 10000#32))))
        (broadcastInDim S8 ![] bcast_S_S8 (constantI S_ 32 0#32))))
    (subi (Host.divsi a (broadcastInDim S8 ![] bcast_S_S8 (id (constantI S_ 32 10000#32))))
      (broadcastInDim S8 ![] bcast_S_S8 (constantI S_ 32 1#32)))
    (Host.divsi a (broadcastInDim S8 ![] bcast_S_S8 (id (constantI S_ 32 10000#32))))

/-- Each count rounded up to a whole number of tiles: ⌊(count + 10000 − 1) / 10000⌋ · 10000. -/
def pcounts (ety : IVec S640000 32) : IVec S8 32 :=
  muli
    (floorDiv10000
      (subi (addi (counts ety) (broadcastInDim S8 ![] bcast_S_S8 (constantI S_ 32 10000#32)))
        (broadcastInDim S8 ![] bcast_S_S8 (constantI S_ 32 1#32))))
    (broadcastInDim S8 ![] bcast_S_S8 (constantI S_ 32 10000#32))

/-- The inclusive running total of eight words. -/
def cums (x : IVec S8 32) : IVec S8 32 :=
  Host.reduceWindow IntOp.addi ![8] ![1] ![7] ![0] x (broadcastInDim S_ ![] bcast_S_S_ (constantI S_ 32 0#32))
    reduceWindows_S8_S8_w8s1p7_0 h_S_

/-- The exclusive running total: a zero in front of the first seven inclusive totals. -/
def exStarts (x : IVec S8 32) : IVec S8 32 :=
  concatenate S8 0
    [⟨S1, broadcastInDim S1 ![] bcast_S_S1 (constantI S_ 32 0#32)⟩,
     ⟨S7, extractStridedSlice S7 ![0] (cums x) slices_S8_S7_0⟩] concatenates_S1_S7_S8_d0

/-- A table of eight words read at each sorted edge's relation. -/
def atRel (tab : IVec S8 32) (ety : IVec S640000 32) : IVec S640000 32 :=
  Host.gather gather_S8_S640000x1_S640000_n_0_n_n_0_1_1 tab (wrapCol 8#32 (sorted ety ety))

/-- The padded row of the sorted edge at each position. -/
def destW (ety : IVec S640000 32) : IVec S640000 32 :=
  addi (atRel (exStarts (pcounts ety)) ety) (subi (iotaInDim S640000 32 0) (atRel (exStarts (counts ety)) ety))

/-- The gathered source rows, in sorted order. -/
def xg (featb : Vec F S50000x128 .bf16) (ety src : IVec S640000 32) : Vec F S640000x128 .bf16 :=
  Host.gather gather_S50000x128_S640000x1_S640000x128_1_0_n_n_0_1_1128 featb (wrapCol 50000#32 (sorted ety src))

/-- The padded feature rows: zeros, with each sorted edge's source row written at its padded row. -/
def xpad (featb : Vec F S50000x128 .bf16) (ety src : IVec S640000 32) : Vec F S720000x128 .bf16 :=
  Host.scatter scatter_S720000x128_S640000x1_S640000x128_1_0_0_1 (fun _ b => b)
    (broadcastInDim S720000x128 ![] bcast_S_S720000x128 (constant S_ .bf16 0x0000#16))
    (wrapCol 720000#32 (destW ety)) (xg featb ety src)

/-- The padded destination ids: zeros, with each sorted edge's destination written at its padded row. -/
def dpad (ety dst : IVec S640000 32) : IVec S720000 32 :=
  Host.scatter scatter_S720000_S640000x1_S640000_n_0_0_1 (fun _ b => b)
    (broadcastInDim S720000 ![] bcast_S_S720000 (constantI S_ 32 0#32))
    (wrapCol 720000#32 (destW ety)) (sorted ety dst)

/-- Each tile's relation from the slab starts `ps`: the number of slabs starting at or before row 10000·b, less one. -/
def brel (ps : IVec S8 32) : IVec S72 32 :=
  subi
    (Host.reduce IntOp.addi
      (extui 32 (cmpi .sge
        (broadcastInDim S72x8 ![0, 1] bcast_S72x1_S72x8_0_1 (broadcastInDim S72x1 ![0] bcast_S72_S72x1_0
          (muli (iotaInDim S72 32 0) (broadcastInDim S72 ![] bcast_S_S72 (constantI S_ 32 10000#32)))))
        (broadcastInDim S72x8 ![0, 1] bcast_S1x8_S72x8_0_1 (broadcastInDim S1x8 ![1] bcast_S8_S1x8_1 ps))) natLt_1_32)
      (constantI S_ 32 0#32) reducesTo_S72x8_S72_d1 h_S_)
    (broadcastInDim S72 ![] bcast_S_S72 (constantI S_ 32 1#32))

end Cert.KernelIdeal.KStages

end
-- ==== Proof.LibGroups.lean ====
/-
  GROUPS OF A SORTED LABELLING, AND THEIR PADDED SLABS. n items carry labels below R; σ lists the items in an order in
  which the labels never decrease. Then the items of label r occupy the positions from (the number of items of smaller
  label) on, as many as there are. Give label r a slab of T·⌈cnt r / T⌉ slots, the slabs laid end to end: the item at
  sorted position i goes to slot (start of its label's slab) + (its rank inside its label). That placement is injective,
  stays below the total slab length, and the slab a slot's tile of T slots lies in is found by counting the slabs that
  start at or before the tile.
-/
import Idealize.ShloMosaic.Lib.StableHlo.Predicate
import Mathlib.Order.Interval.Finset.Fin
import Mathlib.Algebra.BigOperators.Ring.Finset
import Mathlib.Algebra.Order.BigOperators.Group.Finset

open scoped BigOperators

namespace Idealize.ShloMosaic.Groups

/-- How many items carry label `r`. -/
def cnt {n : Nat} (t : Fin n → Nat) (r : Nat) : Nat := (Finset.univ.filter fun e : Fin n => t e = r).card

/-- The exclusive running total of `c`. -/
def starts (c : Nat → Nat) (r : Nat) : Nat := ∑ r' ∈ Finset.range r, c r'

/-- `c` rounded up to a multiple of `T`, as the program computes it: ⌊(c + T − 1) / T⌋ · T. -/
def padded (T c : Nat) : Nat := (c + T - 1) / T * T

/-- The slot of the item at sorted position `i`. -/
def dest {n : Nat} (T : Nat) (t : Fin n → Nat) (σ : Fin n → Fin n) (i : Fin n) : Nat :=
  starts (fun r => padded T (cnt t r)) (t (σ i)) + (i.val - starts (cnt t) (t (σ i)))

/-- The label whose slab the tile `b` (slots b·T … b·T + T − 1) lies in, as the program computes it: the number of
    slabs among the first `R` that start at or before b·T, less one. -/
def relOf (R T : Nat) (ps : Nat → Nat) (b : Nat) : Nat := ((Finset.range R).filter fun j => ps j ≤ b * T).card - 1

/-- The running total one step further adds the next term. -/
private theorem starts_succ (c : Nat → Nat) (r : Nat) : starts c (r + 1) = starts c r + c r := by
  unfold starts
  exact Finset.sum_range_succ _ _

/-- The running total of natural numbers never decreases. -/
private theorem starts_mono (c : Nat → Nat) {r r' : Nat} (h : r ≤ r') : starts c r ≤ starts c r' := by
  unfold starts
  exact Finset.sum_le_sum_of_subset (Finset.range_mono h)

/-- The running total of the class sizes counts the items of smaller label: the classes below r are disjoint and
    their union is {e | t e < r}. -/
private theorem starts_cnt_eq {n : Nat} (t : Fin n → Nat) (r : Nat) :
    starts (cnt t) r = (Finset.univ.filter fun e : Fin n => t e < r).card := by
  induction r with
  | zero => simp [starts]
  | succ r ih =>
    rw [starts_succ, ih]
    unfold cnt
    rw [← Finset.card_union_of_disjoint]
    · congr 1
      ext e
      simp only [Finset.mem_union, Finset.mem_filter, Finset.mem_univ, true_and]
      omega
    · rw [Finset.disjoint_filter]
      intro e _ h1 h2
      omega

theorem cnt_sum_le {n : Nat} (t : Fin n → Nat) (r : Nat) : starts (cnt t) r ≤ n := by
  rw [starts_cnt_eq]
  refine (Finset.card_filter_le _ _).trans ?_
  simp

/-- Listing the items through a bijection does not change how many have a label below r. -/
private theorem card_lt_comp {n : Nat} (t : Fin n → Nat) (σ : Fin n → Fin n) (hσ : Function.Bijective σ) (r : Nat) :
    (Finset.univ.filter fun j : Fin n => t (σ j) < r).card = (Finset.univ.filter fun e : Fin n => t e < r).card := by
  refine Finset.card_bij (fun j _ => σ j) ?_ ?_ ?_
  · intro j hj
    simpa using hj
  · intro a _ b _ hab
    exact hσ.1 hab
  · intro e he
    obtain ⟨j, rfl⟩ := hσ.2 e
    exact ⟨j, by simpa using he, rfl⟩

/-- A down-closed set of positions is an initial segment: a position outside it is at or above its cardinality. -/
private theorem card_le_of_not_mem {n : Nat} (S : Finset (Fin n)) (hS : ∀ a ∈ S, ∀ b : Fin n, b ≤ a → b ∈ S)
    (i : Fin n) (hi : i ∉ S) : S.card ≤ i.val := by
  have hsub : S ⊆ Finset.Iio i := by
    intro a ha
    rw [Finset.mem_Iio]
    by_contra hlt
    exact hi (hS a ha i (not_lt.mp hlt))
  have := Finset.card_le_card hsub
  rwa [Fin.card_Iio] at this

/-- A down-closed set of positions is an initial segment: a position inside it is below its cardinality. -/
private theorem lt_card_of_mem {n : Nat} (S : Finset (Fin n)) (hS : ∀ a ∈ S, ∀ b : Fin n, b ≤ a → b ∈ S)
    (i : Fin n) (hi : i ∈ S) : i.val < S.card := by
  have hsub : Finset.Iic i ⊆ S := by
    intro b hb
    rw [Finset.mem_Iic] at hb
    exact hS i hi b hb
  have := Finset.card_le_card hsub
  rw [Fin.card_Iic] at this
  omega

/-- The items of label r sit, in sorted order, from position `starts cnt r` on. -/
theorem group_pos {n : Nat} (t : Fin n → Nat) (σ : Fin n → Fin n) (hσ : Function.Bijective σ)
    (hmono : ∀ i j : Fin n, i ≤ j → t (σ i) ≤ t (σ j)) (i : Fin n) :
    starts (cnt t) (t (σ i)) ≤ i.val ∧ i.val < starts (cnt t) (t (σ i)) + cnt t (t (σ i)) := by
  have hdown : ∀ r : Nat, ∀ a ∈ (Finset.univ.filter fun j : Fin n => t (σ j) < r), ∀ b : Fin n, b ≤ a →
      b ∈ (Finset.univ.filter fun j : Fin n => t (σ j) < r) := by
    intro r a ha b hba
    simp only [Finset.mem_filter, Finset.mem_univ, true_and] at ha ⊢
    exact lt_of_le_of_lt (hmono b a hba) ha
  constructor
  · rw [starts_cnt_eq, ← card_lt_comp t σ hσ]
    refine card_le_of_not_mem _ (hdown _) i ?_
    simp
  · rw [← starts_succ, starts_cnt_eq, ← card_lt_comp t σ hσ]
    refine lt_card_of_mem _ (hdown _) i ?_
    simp

/-- Rounding up to a multiple of T does not go below the number. -/
private theorem le_padded (T c : Nat) (hT : 0 < T) : c ≤ padded T c := by
  unfold padded
  have h1 := Nat.div_add_mod (c + T - 1) T
  have h2 := Nat.mod_lt (c + T - 1) hT
  have h3 : (c + T - 1) / T * T = T * ((c + T - 1) / T) := Nat.mul_comm _ _
  omega

/-- Rounding up to a multiple of T adds at most T − 1. -/
private theorem padded_le (T c : Nat) : padded T c ≤ c + (T - 1) := by
  unfold padded
  have := Nat.div_mul_le_self (c + T - 1) T
  omega

/-- Every slab start is a multiple of T, being a sum of multiples of T. -/
private theorem dvd_padded_starts (T : Nat) (c : Nat → Nat) (r : Nat) :
    T ∣ starts (fun r' => padded T (c r')) r := by
  unfold starts
  refine Finset.dvd_sum ?_
  intro j _
  exact Dvd.intro_left _ rfl

/-- The slabs together exceed the items by at most T − 1 per label. -/
private theorem starts_padded_le (T : Nat) (c : Nat → Nat) (R : Nat) :
    starts (fun r => padded T (c r)) R ≤ starts c R + R * (T - 1) := by
  induction R with
  | zero => simp [starts]
  | succ R ih =>
    have e1 : starts (fun r => padded T (c r)) (R + 1) = starts (fun r => padded T (c r)) R + padded T (c R) :=
      starts_succ _ _
    have e2 : starts c (R + 1) = starts c R + c R := starts_succ _ _
    have e3 : (R + 1) * (T - 1) = R * (T - 1) + (T - 1) := Nat.add_one_mul _ _
    have e4 := padded_le T (c R)
    omega

/-- The slot of position i lies in the slab of its label: the rank inside the label is below the label's size, which
    the slab's length is at least. -/
private theorem dest_slab {n : Nat} (T : Nat) (hT : 0 < T) (t : Fin n → Nat) (σ : Fin n → Fin n)
    (hσ : Function.Bijective σ) (hmono : ∀ i j : Fin n, i ≤ j → t (σ i) ≤ t (σ j)) (i : Fin n) :
    starts (fun r => padded T (cnt t r)) (t (σ i)) ≤ dest T t σ i ∧
      dest T t σ i < starts (fun r => padded T (cnt t r)) (t (σ i) + 1) := by
  obtain ⟨h1, h2⟩ := group_pos t σ hσ hmono i
  have h3 := le_padded T (cnt t (t (σ i))) hT
  have e1 : starts (fun r => padded T (cnt t r)) (t (σ i) + 1)
      = starts (fun r => padded T (cnt t r)) (t (σ i)) + padded T (cnt t (t (σ i))) := starts_succ _ _
  unfold dest
  constructor <;> omega

theorem dest_inj {n : Nat} (T : Nat) (hT : 0 < T) (t : Fin n → Nat) (σ : Fin n → Fin n) (hσ : Function.Bijective σ)
    (hmono : ∀ i j : Fin n, i ≤ j → t (σ i) ≤ t (σ j)) : Function.Injective (dest T t σ) := by
  intro i j hij
  obtain ⟨hi1, hi2⟩ := dest_slab T hT t σ hσ hmono i
  obtain ⟨hj1, hj2⟩ := dest_slab T hT t σ hσ hmono j
  -- slabs of different labels are disjoint, so equal slots have equal labels
  have hr : t (σ i) = t (σ j) := by
    rcases Nat.lt_trichotomy (t (σ i)) (t (σ j)) with h | h | h
    · have := starts_mono (fun r => padded T (cnt t r)) (show t (σ i) + 1 ≤ t (σ j) from h)
      omega
    · exact h
    · have := starts_mono (fun r => padded T (cnt t r)) (show t (σ j) + 1 ≤ t (σ i) from h)
      omega
  -- inside one slab the slot determines the rank, and the rank the position
  obtain ⟨gi, _⟩ := group_pos t σ hσ hmono i
  obtain ⟨gj, _⟩ := group_pos t σ hσ hmono j
  have e1 : starts (fun r => padded T (cnt t r)) (t (σ i)) = starts (fun r => padded T (cnt t r)) (t (σ j)) := by
    rw [hr]
  have e2 : starts (cnt t) (t (σ i)) = starts (cnt t) (t (σ j)) := by rw [hr]
  unfold dest at hij
  apply Fin.ext
  omega

/-- Every slot is below the end of the last slab, which is at most n + R·(T − 1). -/
theorem dest_lt {n : Nat} (R T : Nat) (hT : 0 < T) (t : Fin n → Nat) (hR : ∀ e, t e < R) (σ : Fin n → Fin n)
    (hσ : Function.Bijective σ) (hmono : ∀ i j : Fin n, i ≤ j → t (σ i) ≤ t (σ j)) (i : Fin n) :
    dest T t σ i < starts (fun r => padded T (cnt t r)) R ∧ starts (fun r => padded T (cnt t r)) R ≤ n + R * (T - 1) := by
  obtain ⟨_, h2⟩ := dest_slab T hT t σ hσ hmono i
  have h3 := starts_mono (fun r => padded T (cnt t r)) (show t (σ i) + 1 ≤ R from hR (σ i))
  refine ⟨lt_of_lt_of_le h2 h3, ?_⟩
  exact (starts_padded_le T (cnt t) R).trans (Nat.add_le_add_right (cnt_sum_le t R) _)

/-- The tile a slot lies in belongs to the slot's item's label. -/
theorem relOf_dest {n : Nat} (R T : Nat) (hT : 0 < T) (t : Fin n → Nat) (hR : ∀ e, t e < R) (σ : Fin n → Fin n)
    (hσ : Function.Bijective σ) (hmono : ∀ i j : Fin n, i ≤ j → t (σ i) ≤ t (σ j)) (i : Fin n) :
    relOf R T (starts fun r => padded T (cnt t r)) (dest T t σ i / T) = t (σ i) := by
  obtain ⟨h1, h2⟩ := dest_slab T hT t σ hσ hmono i
  have hr : t (σ i) < R := hR (σ i)
  -- the label's slab starts at a multiple of T at or below the slot, hence at or below the tile's first slot
  have hlow : starts (fun r => padded T (cnt t r)) (t (σ i)) ≤ dest T t σ i / T * T :=
    calc starts (fun r => padded T (cnt t r)) (t (σ i))
        = starts (fun r => padded T (cnt t r)) (t (σ i)) / T * T :=
          (Nat.div_mul_cancel (dvd_padded_starts T (cnt t) (t (σ i)))).symm
      _ ≤ dest T t σ i / T * T := Nat.mul_le_mul_right _ (Nat.div_le_div_right h1)
  have hup : dest T t σ i / T * T ≤ dest T t σ i := Nat.div_mul_le_self _ _
  -- so the slabs starting at or before the tile are exactly those of the labels up to the item's
  have hfil : ((Finset.range R).filter fun j => starts (fun r => padded T (cnt t r)) j ≤ dest T t σ i / T * T)
      = Finset.range (t (σ i) + 1) := by
    ext j
    simp only [Finset.mem_filter, Finset.mem_range]
    constructor
    · rintro ⟨_, hj⟩
      by_contra hlt
      have := starts_mono (fun r => padded T (cnt t r)) (show t (σ i) + 1 ≤ j by omega)
      omega
    · intro hj
      refine ⟨by omega, ?_⟩
      have := starts_mono (fun r => padded T (cnt t r)) (show j ≤ t (σ i) by omega)
      omega
  unfold relOf
  rw [hfil, Finset.card_range]
  omega

/-- Whatever the slab starts are, as long as the first is 0, a tile's label is below R. -/
theorem relOf_lt (R T : Nat) (hR : 0 < R) (ps : Nat → Nat) (b : Nat) : relOf R T ps b < R := by
  unfold relOf
  have := Finset.card_filter_le (Finset.range R) (fun j => ps j ≤ b * T)
  rw [Finset.card_range] at this
  omega

end Idealize.ShloMosaic.Groups
-- ==== Proof.KInts.lean ====
/-
  The integer stages as natural numbers. The count of relation r is the number of edges whose relation word is r; the
  padded count is that number rounded up to a multiple of 10000; the exclusive running total of eight small words is
  the sum of the words before; a tile's relation word is the number of slab starts at or before its first row, less one.
  None of these additions, products or differences leaves the range of a 32-bit word: at most 640000 edges are counted,
  and the padded counts add up to at most 640000 + 8 · 9999.
-/
import proofs.«407377_j54400055771236_3_alg».proof.Proof.KStages
import proofs.«407377_j54400055771236_3_alg».proof.Proof.LibGroups
import Idealize.ShloMosaic.Lib.StableHlo.Predicate
import Idealize.ShloMosaic.Lib.ValueIdx
import Idealize.ShloMosaic.Lib.Pipeline.Value

open scoped BigOperators

noncomputable section

namespace Cert.KernelIdeal.KInts

open Cert.KernelIdeal Cert.KernelIdeal.Gen Cert.KernelIdeal.KStages
open Idealize.ShloMosaic Idealize.ShloMosaic.ValueIdx Idealize.ShloMosaic.Groups

/-- Edge e's relation word as a natural number. -/
def lab (ety : IVec S640000 32) (e : Fin 640000) : Nat := (ety (ix1 e)).toNat

/-- A table of eight words as a function on the naturals (zero past the end). -/
def natTab (x : IVec S8 32) (r : Nat) : Nat := if h : r < 8 then (x (ix1 (⟨r, h⟩ : Fin 8))).toNat else 0

/-- The rank-1 index written by cases on its one coordinate is the rank-1 index at that coordinate. -/
private theorem ix1_eq_ofFin {n : Nat} (p : Fin n) : ix1 p = Shape.Idx.ofFin p := by
  funext d
  match d with
  | ⟨0, _⟩ => rfl

/-- A word equals a small numeral exactly when its value is that number. -/
private theorem eq_ofNat_iff (a : BitVec 32) (k : Nat) (hk : k < 2 ^ 32) : a = BitVec.ofNat 32 k ↔ a.toNat = k := by
  constructor
  · intro h
    rw [h, BitVec.toNat_ofNat]
    exact Nat.mod_eq_of_lt hk
  · intro h
    apply BitVec.eq_of_toNat_eq
    rw [h, BitVec.toNat_ofNat]
    exact (Nat.mod_eq_of_lt hk).symm

open StableHlo.Predicate in
/-- The count of relation r is the number of edges labelled r. -/
theorem counts_toNat (ety : IVec S640000 32) (r : Fin 8) : (counts ety (ix1 r)).toNat = cnt (lab ety) r.val := by
  unfold counts
  refine (toNat_reduce_count_cols (by norm_num) _ natLt_1_32 reducesTo_S8x640000_S8_d1 h_S_ (ix1 r)).trans ?_
  unfold cnt
  refine congrArg Finset.card (Finset.filter_congr fun q _ => ?_)
  -- the mask at (r, q) compares edge q's relation word with the numeral r
  show IntOp.cmpi .eq
      (broadcastInDim S8x640000 ![0, 1] bcast_S1x640000_S8x640000_0_1 (broadcastInDim S1x640000 ![1] bcast_S640000_S1x640000_1 ety) (ij r q))
      (broadcastInDim S8x640000 ![0, 1] bcast_S8x1_S8x640000_0_1 (broadcastInDim S8x1 ![0] bcast_S8_S8x1_0 (iotaInDim S8 32 0)) (ij r q)) = 1#1 ↔ _
  rw [cmpi_eq_iff, bcast_cols, bcast_rows, iota_apply, eq_ofNat_iff _ _ (by have := r.isLt; omega)]
  unfold lab
  rw [ix1_eq_ofFin]

/-- jnp's floor division by 10000 of a word below 2³¹: the word is zero or has the divisor's sign, so no correction
    is made, and the truncating quotient of a non-negative word by a positive one is the quotient of the values. -/
private theorem floorDiv10000_toNat (a : IVec S8 32) (i : S8.Idx) (ha : (a i).toNat < 2 ^ 31) :
    (floorDiv10000 a i).toNat = (a i).toNat / 10000 := by
  have hcorner : ¬ IntOp.SDivCorner (a i) 10000#32 := by
    intro hc
    rcases hc with hc | ⟨_, hc⟩ <;> exact absurd hc (by decide)
  have hm : (a i).msb = false := BitVec.msb_eq_false_iff_two_mul_lt.mpr (by omega)
  have hm' : (10000#32 : BitVec 32).msb = false := by decide
  have hdiv : IntOp.divsi .host (a i) 10000#32 = a i / 10000#32 := by
    simp only [IntOp.divsi, if_neg hcorner, BitVec.sdiv_eq, hm, hm', BitVec.udiv_eq]
  have hrem : IntOp.remsi .host (a i) 10000#32 = a i % 10000#32 := by
    simp only [IntOp.remsi, if_neg hcorner, BitVec.srem_eq, hm, hm', BitVec.umod_eq]
  have hs : signi a i = if a i = 0#32 then 0#32 else 1#32 := by
    show (if a i = 0 then (0 : BitVec 32) else if (a i).msb then -1 else 1) = _
    rw [hm]
    rfl
  -- the condition of the correction (signs differ and the remainder is not zero) fails
  have hc : IntOp.andi (IntOp.cmpi .ne (signi a i) 1#32) (IntOp.cmpi .ne (IntOp.remsi .host (a i) 10000#32) 0#32) = 0#1 := by
    rw [hs, hrem]
    by_cases h0 : a i = 0#32
    · rw [h0]
      decide
    · rw [if_neg h0]
      show (IntOp.cmpi .ne 1#32 1#32) &&& _ = 0#1
      rw [show IntOp.cmpi .ne (1#32) (1#32) = 0#1 from by decide, BitVec.zero_and]
  -- the divisor's sign word is 1
  have h1 : ∀ j, signi (id (constantI S_ 32 10000#32)) j = 1#32 := fun j => by
    show (if (10000#32 : BitVec 32) = 0 then (0 : BitVec 32) else if (10000#32 : BitVec 32).msb then -1 else 1) = 1#32
    rfl
  show (Scalar.select (IntOp.andi (IntOp.cmpi .ne (signi a i) (signi (id (constantI S_ 32 10000#32)) _))
        (IntOp.cmpi .ne (IntOp.remsi .host (a i) 10000#32) 0#32))
      (IntOp.subi (IntOp.divsi .host (a i) 10000#32) 1#32) (IntOp.divsi .host (a i) 10000#32)).toNat = _
  rw [h1, hc, select_zero, hdiv, BitVec.toNat_udiv]
  rfl

/-- A class of edges has at most as many members as there are edges. -/
private theorem cnt_le (t : Fin 640000 → Nat) (r : Nat) : cnt t r ≤ 640000 := by
  unfold cnt
  refine (Finset.card_filter_le _ _).trans ?_
  rw [Finset.card_univ, Fintype.card_fin]

/-- The padded count is the count rounded up to a multiple of 10000. -/
theorem pcounts_toNat (ety : IVec S640000 32) (r : Fin 8) :
    (pcounts ety (ix1 r)).toNat = padded 10000 (cnt (lab ety) r.val) := by
  have hc := counts_toNat ety r
  have hle := cnt_le (lab ety) r.val
  -- the dividend count + 10000 − 1 does not wrap and stays below 2³¹
  have hav : (subi (addi (counts ety) (broadcastInDim S8 ![] bcast_S_S8 (constantI S_ 32 10000#32)))
      (broadcastInDim S8 ![] bcast_S_S8 (constantI S_ 32 1#32)) (ix1 r)).toNat = cnt (lab ety) r.val + 9999 := by
    show (counts ety (ix1 r) + 10000#32 - 1#32).toNat = _
    rw [BitVec.toNat_sub, BitVec.toNat_add, hc]
    simp only [BitVec.toNat_ofNat]
    omega
  show (floorDiv10000 _ (ix1 r) * 10000#32).toNat = _
  rw [BitVec.toNat_mul, floorDiv10000_toNat _ (ix1 r) (by rw [hav]; omega), hav]
  unfold padded
  simp only [BitVec.toNat_ofNat]
  omega

/-- The row-major position of a rank-1 index is its coordinate. -/
private theorem rowMajor_symm_rank1 {m : Nat} (n : Fin (⟨1, ![m]⟩ : Shape).numel) :
    (((⟨1, ![m]⟩ : Shape).rowMajor.symm n) 0).val = n.val := by
  have h := congrArg Fin.val ((⟨1, ![m]⟩ : Shape).rowMajor.apply_symm_apply n)
  rw [← h]
  generalize (⟨1, ![m]⟩ : Shape).rowMajor.symm n = y
  show _ = Shape.rankPi _ y
  simp [Shape.rankPi, Shape.prodPi]

/-- A table of eight words as a function on the naturals (the zero word past the end). -/
private def wordTab (x : IVec S8 32) (r : Nat) : BitVec 32 := if h : r < 8 then x (ix1 (⟨r, h⟩ : Fin 8)) else 0#32

private theorem natTab_eq (x : IVec S8 32) (r : Nat) : natTab x r = (wordTab x r).toNat := by
  unfold natTab wordTab
  split <;> rfl

/-- The inclusive running total at position k, as the fold over the eight window positions: window position n reads
    the table at k + n − 7 when that is not negative, and the padding's zero otherwise. -/
private theorem cums_apply (x : IVec S8 32) (k : Fin 8) :
    cums x (ix1 k) = (List.finRange 8).foldl
      (fun r n => r + (if 7 ≤ k.val + n.val then wordTab x (k.val + n.val - 7) else 0#32)) 0#32 := by
  unfold cums Host.reduceWindow
  refine List.foldl_ext _ _ _ fun r n _ => ?_
  show r + _ = r + _
  congr 1
  have hn : (((⟨1, ![8]⟩ : Shape).rowMajor.symm n) 0).val = n.val := rowMajor_symm_rank1 n
  have hn8 : n.val < 8 := n.isLt
  have hk8 := k.isLt
  split
  · rename_i hin
    have h0 : 7 ≤ k.val * 1 + (((⟨1, ![8]⟩ : Shape).rowMajor.symm n) 0).val
        ∧ k.val * 1 + (((⟨1, ![8]⟩ : Shape).rowMajor.symm n) 0).val - 7 < 8 := hin 0
    rw [hn] at h0
    have h7 : 7 ≤ k.val + n.val := by omega
    rw [if_pos h7]
    unfold wordTab
    rw [dif_pos (by omega)]
    congr 1
    funext a
    match a with
    | ⟨0, _⟩ =>
      refine Fin.ext ?_
      show k.val * 1 + (((⟨1, ![8]⟩ : Shape).rowMajor.symm n) 0).val - 7 = k.val + n.val - 7
      rw [hn]
      omega
  · rename_i hin
    have h7 : ¬ 7 ≤ k.val + n.val := by
      intro h7
      refine hin fun a => ?_
      match a with
      | ⟨0, _⟩ =>
        show 7 ≤ k.val * 1 + (((⟨1, ![8]⟩ : Shape).rowMajor.symm n) 0).val
          ∧ k.val * 1 + (((⟨1, ![8]⟩ : Shape).rowMajor.symm n) 0).val - 7 < 8
        rw [hn]
        omega
    rw [if_neg h7]
    rfl

/-- The first entry is the zero word in front. -/
private theorem exStarts_head (x : IVec S8 32) : exStarts x (ix1 (0 : Fin 8)) = 0#32 := by
  unfold exStarts
  refine (concatenate_pair_apply_left (0 : Fin S8.rank) _ _ concatenates_S1_S7_S8_d0 (ix1 (0 : Fin 8)) rfl
    (ix1 (0 : Fin 1)) ?_).trans rfl
  intro b
  match b with
  | ⟨0, _⟩ => rfl

/-- A later entry is the inclusive running total one position earlier. -/
private theorem exStarts_succ (x : IVec S8 32) (k : Nat) (hk : k + 1 < 8) :
    exStarts x (ix1 (⟨k + 1, hk⟩ : Fin 8)) = cums x (ix1 (⟨k, by omega⟩ : Fin 8)) := by
  unfold exStarts
  refine (concatenate_pair_apply_right (0 : Fin S8.rank) _ _ concatenates_S1_S7_S8_d0 (ix1 (⟨k + 1, hk⟩ : Fin 8)) rfl rfl
    (ix1 (⟨k, by omega⟩ : Fin 7)) ?_ ?_).trans ?_
  · intro b hb
    match b with
    | ⟨0, _⟩ => exact absurd rfl hb
  · rfl
  · show cums x _ = cums x _
    congr 1
    funext a
    match a with
    | ⟨0, _⟩ => exact Fin.ext (by show 0 + k = k; omega)

/-- The exclusive running total of eight words whose sum stays below 2³¹ is the sum of the words before. -/
theorem exStarts_toNat (x : IVec S8 32) (hx : starts (natTab x) 8 < 2 ^ 31) (r : Fin 8) :
    (exStarts x (ix1 r)).toNat = starts (natTab x) r.val := by
  match r with
  | ⟨0, _⟩ =>
    rw [show (⟨0, _⟩ : Fin 8) = 0 from rfl, exStarts_head]
    simp [starts]
  | ⟨k + 1, hk⟩ =>
    rw [exStarts_succ x k hk, cums_apply]
    have hl : List.finRange 8 = [0, 1, 2, 3, 4, 5, 6, 7] := by decide
    rw [hl]
    simp only [List.foldl_cons, List.foldl_nil]
    unfold starts at hx ⊢
    simp only [natTab_eq] at hx ⊢
    have hk7 : k < 7 := by omega
    interval_cases k <;> simp [Finset.sum_range_succ, BitVec.toNat_add] at hx ⊢ <;> omega

/-- Its first entry is zero, whatever the words. -/
theorem exStarts_zero (x : IVec S8 32) : exStarts x (ix1 (0 : Fin 8)) = 0#32 := by
  exact exStarts_head x

/-- The mask of the tile relation: bit (b, j) says slab j starts at or before row 10000·b. -/
private def slabMask (ps : IVec S8 32) : IVec S72x8 1 :=
  cmpi .sge
    (broadcastInDim S72x8 ![0, 1] bcast_S72x1_S72x8_0_1 (broadcastInDim S72x1 ![0] bcast_S72_S72x1_0
      (muli (iotaInDim S72 32 0) (broadcastInDim S72 ![] bcast_S_S72 (constantI S_ 32 10000#32)))))
    (broadcastInDim S72x8 ![0, 1] bcast_S1x8_S72x8_0_1 (broadcastInDim S1x8 ![1] bcast_S8_S1x8_1 ps))

/-- How many slabs start at or before row 10000·b, as the word the reduction returns. -/
private def slabCount (ps : IVec S8 32) (b : Fin 72) : BitVec 32 :=
  Host.reduce IntOp.addi (extui 32 (slabMask ps) natLt_1_32) (constantI S_ 32 0#32) reducesTo_S72x8_S72_d1 h_S_ (ix1 b)

private theorem brel_eq (ps : IVec S8 32) (b : Fin 72) : brel ps (ix1 b) = slabCount ps b - 1#32 := rfl

open StableHlo.Predicate in
private theorem slabMask_apply (ps : IVec S8 32) (b : Fin 72) (q : Fin 8) :
    slabMask ps (ij b q) = IntOp.cmpi .sge (BitVec.ofNat 32 b.val * 10000#32) (ps (ix1 q)) := by
  show IntOp.cmpi .sge
    (broadcastInDim S72x8 ![0, 1] bcast_S72x1_S72x8_0_1 (broadcastInDim S72x1 ![0] bcast_S72_S72x1_0
      (muli (iotaInDim S72 32 0) (broadcastInDim S72 ![] bcast_S_S72 (constantI S_ 32 10000#32)))) (ij b q))
    (broadcastInDim S72x8 ![0, 1] bcast_S1x8_S72x8_0_1 (broadcastInDim S1x8 ![1] bcast_S8_S1x8_1 ps) (ij b q)) = _
  rw [bcast_rows, bcast_cols, ix1_eq_ofFin]
  rfl

open StableHlo.Predicate in
/-- The reduction's word is the number of set mask bits in row b. -/
private theorem slabCount_toNat (ps : IVec S8 32) (b : Fin 72) :
    (slabCount ps b).toNat
      = (Finset.univ.filter fun q : Fin 8 => IntOp.cmpi .sge (BitVec.ofNat 32 b.val * 10000#32) (ps (ix1 q)) = 1#1).card := by
  unfold slabCount
  refine (toNat_reduce_count_cols (by norm_num) (slabMask ps) natLt_1_32 reducesTo_S72x8_S72_d1 h_S_ (ix1 b)).trans ?_
  refine congrArg Finset.card (Finset.filter_congr fun q _ => ?_)
  rw [show (ix1 b : S72.Idx) 0 = b from rfl, slabMask_apply]

/-- Row 10000·b as a word: the product does not wrap. -/
private theorem tileRow_toNat (b : Fin 72) : (BitVec.ofNat 32 b.val * 10000#32).toNat = b.val * 10000 := by
  have hb := b.isLt
  rw [BitVec.toNat_mul, BitVec.toNat_ofNat, BitVec.toNat_ofNat]
  omega

open StableHlo.Predicate in
/-- A first slab start of zero is at or before every tile's first row, so the count is at least one; it is at most
    the number of slabs. -/
private theorem slabCount_bounds (ps : IVec S8 32) (h0 : ps (ix1 (0 : Fin 8)) = 0#32) (b : Fin 72) :
    1 ≤ (slabCount ps b).toNat ∧ (slabCount ps b).toNat ≤ 8 := by
  have hb := b.isLt
  rw [slabCount_toNat]
  constructor
  · refine Finset.card_pos.mpr ⟨0, Finset.mem_filter.mpr ⟨Finset.mem_univ _, ?_⟩⟩
    rw [h0]
    refine (sge_iff_toNat (by rw [tileRow_toNat]; omega) (by decide)).mpr ?_
    exact Nat.zero_le _
  · refine (Finset.card_filter_le _ _).trans ?_
    rw [Finset.card_univ, Fintype.card_fin]

/-- Counting over the eight positions or over the naturals below eight is the same. -/
private theorem card_fin8_eq_range (p : Nat → Prop) [DecidablePred p] :
    (Finset.univ.filter fun q : Fin 8 => p q.val).card = ((Finset.range 8).filter p).card := by
  rw [Finset.card_filter, Finset.card_filter]
  exact Fin.sum_univ_eq_sum_range (fun j => if p j then 1 else 0) 8

open StableHlo.Predicate in
/-- A tile's relation word, for slab starts below 2³¹ the first of which is zero. -/
theorem brel_toNat (ps : IVec S8 32) (hps : ∀ r : Fin 8, (ps (ix1 r)).toNat < 2 ^ 31) (h0 : ps (ix1 (0 : Fin 8)) = 0#32)
    (b : Fin 72) : (brel ps (ix1 b)).toNat = relOf 8 10000 (natTab ps) b.val := by
  have hb := b.isLt
  obtain ⟨h1, h8⟩ := slabCount_bounds ps h0 b
  have hcount : (slabCount ps b).toNat = ((Finset.range 8).filter fun j => natTab ps j ≤ b.val * 10000).card := by
    rw [slabCount_toNat, ← card_fin8_eq_range]
    refine congrArg Finset.card (Finset.filter_congr fun q _ => ?_)
    rw [sge_iff_toNat (by rw [tileRow_toNat]; omega) (hps q), tileRow_toNat]
    unfold natTab
    rw [dif_pos q.isLt]
  rw [brel_eq, BitVec.toNat_sub]
  unfold relOf
  rw [← hcount]
  simp only [BitVec.toNat_ofNat]
  omega

/-- Whatever the other slab starts are, a first start of zero puts every tile's relation word below 8. -/
theorem brel_lt (ps : IVec S8 32) (h0 : ps (ix1 (0 : Fin 8)) = 0#32) (b : Fin 72) : (brel ps (ix1 b)).toNat < 8 := by
  obtain ⟨h1, h8⟩ := slabCount_bounds ps h0 b
  rw [brel_eq, BitVec.toNat_sub]
  simp only [BitVec.toNat_ofNat]
  omega

end Cert.KernelIdeal.KInts

end
-- ==== Proof.Spec.lean ====
/-
  What both programs compute, edge by edge. An edge e reads the node-feature row its source word names (a negative word
  has 50000 added, and the result is clamped into the table, as a gather does), multiplies it by the weight matrix its
  relation word names, and the product row is added into the row its destination word names. The output is the node
  features (times one) plus those sums.
-/
import Idealize.ShloMosaic.Lib.ValueIdx
import Idealize.ShloMosaic.Lib.StableHlo.Predicate
import Idealize.ShloMosaic.PureOps.Ideal.Laws

open scoped BigOperators

noncomputable section

namespace Cert.Spec

open Idealize.ShloMosaic Idealize.ShloMosaic.ValueIdx

/-- A source word as jnp normalises it: a negative word has the table's length added. -/
def wrapWord (ext w : BitVec 32) : BitVec 32 := if w.slt 0#32 then w + ext else w

/-- The node-feature row a source word names: normalised, read signed, clamped into [0, 49999]. -/
def rowOf (w : BitVec 32) : Fin 50000 := ⟨min (wrapWord 50000#32 w).toInt.toNat 49999, by omega⟩

/-- The relation a relation word names (total: words outside [0, 8) are folded in; they do not occur). -/
def relOf (w : BitVec 32) : Fin 8 := ⟨w.toNat % 8, Nat.mod_lt _ (by decide)⟩

theorem relOf_val {w : BitVec 32} (h : w.toNat < 8) : (relOf w).val = w.toNat := Nat.mod_eq_of_lt h

/-- Edge e's message, column j: its source row times its relation's weight matrix. -/
def edgeMsg (feat : (⟨2, ![50000, 128]⟩ : Shape).Idx → EReal) (W : (⟨3, ![8, 128, 128]⟩ : Shape).Idx → EReal)
    (ety src : IVec ⟨1, ![640000]⟩ 32) (e : Fin 640000) (j : Fin 128) : EReal :=
  ∑ k : Fin 128, feat (ix2 (rowOf (src (ix1 e))) k) * W (ix3 (relOf (ety (ix1 e))) k j)

end Cert.Spec

end
-- ==== Proof.LibArgsort.lean ====
/-
  AN ARGSORT IS A SORTING BIJECTION. jnp.argsort of a vector of 32-bit keys prints as a stable two-operand sort of the
  keys and an iota, compared by the keys alone with a signed less-than. Its second result holds, at position i, the
  position σ i the i-th smallest key came from; σ is a bijection of the positions; its first result is the keys read
  through σ; and the keys read through σ never decrease.
-/
import Idealize.ShloMosaic.Lib.SortFacts
import Idealize.ShloMosaic.Lib.ValueIdx
import Idealize.ShloMosaic.Lib.StableHlo.Predicate

namespace Idealize.ShloMosaic.Argsort

open Idealize.ShloMosaic Idealize.ShloMosaic.ValueIdx

/-- The rank-1 index written by cases on its one coordinate is the rank-1 index at that coordinate. -/
private theorem ix1_eq_ofFin {n : Nat} (p : Fin n) : ix1 p = Shape.Idx.ofFin p := by
  funext d
  match d with
  | ⟨0, _⟩ => rfl

/-- A signed less-than word is `1` exactly when the signed values are strictly ordered. -/
private theorem slt_one_iff (a b : BitVec 32) : IntOp.cmpi .slt a b = 1#1 ↔ a.toInt < b.toInt := by
  rw [← BitVec.slt_iff_toInt_lt]
  show BitVec.ofBool (a.slt b) = 1#1 ↔ a.slt b = true
  cases a.slt b <;> decide

/-- On a vector, the two-operand sort along axis 0 reads both operands through ONE self-map of the positions:
    the stable sorting permutation of the comparator on the pairs of their elements. -/
private theorem sort2_rank1 {n : Nat} {α β : Type} (cmp : α × β → α × β → BitVec 1)
    (x : (⟨1, ![n]⟩ : Shape).Idx → α) (y : (⟨1, ![n]⟩ : Shape).Idx → β) :
    Host.sort2 ⟨1, ![n]⟩ 0 cmp x y
      = (fun j => x (Shape.Idx.ofFin (sortedFrom (fun k k' =>
            cmp (x (Shape.Idx.ofFin k), y (Shape.Idx.ofFin k)) (x (Shape.Idx.ofFin k'), y (Shape.Idx.ofFin k')) == 1#1) (j 0))),
         fun j => y (Shape.Idx.ofFin (sortedFrom (fun k k' =>
            cmp (x (Shape.Idx.ofFin k), y (Shape.Idx.ofFin k)) (x (Shape.Idx.ofFin k'), y (Shape.Idx.ofFin k')) == 1#1) (j 0)))) := by
  unfold Host.sort2
  simp

/-- "Position `k`'s key is strictly below position `k'`'s" as a Boolean relation on positions. -/
private def keyBefore {n : Nat} (key : IVec ⟨1, ![n]⟩ 32) (k k' : Fin n) : Bool :=
  IntOp.cmpi .slt (key (Shape.Idx.ofFin k)) (key (Shape.Idx.ofFin k')) == 1#1

private theorem keyBefore_true {n : Nat} (key : IVec ⟨1, ![n]⟩ 32) (k k' : Fin n) :
    keyBefore key k k' = true ↔ (key (Shape.Idx.ofFin k)).toInt < (key (Shape.Idx.ofFin k')).toInt := by
  unfold keyBefore
  rw [beq_iff_eq]
  exact slt_one_iff _ _

private theorem keyBefore_false {n : Nat} (key : IVec ⟨1, ![n]⟩ 32) (k k' : Fin n) :
    keyBefore key k k' = false ↔ (key (Shape.Idx.ofFin k')).toInt ≤ (key (Shape.Idx.ofFin k)).toInt := by
  rw [← Bool.not_eq_true, keyBefore_true, not_lt]

/-- The stable sorting permutation under the strict order of the keys lists the keys in nondecreasing order:
    a strict order is asymmetric and its complement is transitive, so the sorted positions hold no inversion. -/
private theorem keyBefore_mono {n : Nat} (key : IVec ⟨1, ![n]⟩ 32) (i j : Fin n) (hij : i ≤ j) :
    (key (Shape.Idx.ofFin (sortedFrom (keyBefore key) i))).toInt
      ≤ (key (Shape.Idx.ofFin (sortedFrom (keyBefore key) j))).toInt := by
  rcases lt_or_eq_of_le hij with hlt | rfl
  · refine (keyBefore_false key _ _).mp (sortedFrom_noInversion (keyBefore key) (keyBefore key) ?_ (fun _ _ h => h) ?_ i j hlt)
    · intro a b h
      rw [keyBefore_true] at h
      rw [keyBefore_false]
      exact le_of_lt h
    · intro a b c h₁ h₂
      rw [keyBefore_false] at h₁ h₂ ⊢
      exact le_trans h₂ h₁
  · exact le_refl _

theorem argsort_perm {n : Nat} (hn : n ≤ 2 ^ 31)
    (cmp : BitVec 32 × BitVec 32 → BitVec 32 × BitVec 32 → BitVec 1)
    (hcmp : ∀ l r, cmp l r = IntOp.cmpi .slt l.1 r.1) (key : IVec ⟨1, ![n]⟩ 32) :
    ∃ σ : Fin n → Fin n, Function.Bijective σ ∧
      (∀ i : Fin n, (Host.sort2 ⟨1, ![n]⟩ 0 cmp key (iotaInDim ⟨1, ![n]⟩ 32 0)).2 (ix1 i) = BitVec.ofNat 32 (σ i).val) ∧
      (∀ i : Fin n, (Host.sort2 ⟨1, ![n]⟩ 0 cmp key (iotaInDim ⟨1, ![n]⟩ 32 0)).1 (ix1 i) = key (ix1 (σ i))) ∧
      (∀ i j : Fin n, i ≤ j → (key (ix1 (σ i))).toInt ≤ (key (ix1 (σ j))).toInt) := by
  have _ := hn
  -- the comparator on the pairs looks at the keys alone
  have hbefore : (fun k k' : Fin n =>
      cmp (key (Shape.Idx.ofFin k), iotaInDim ⟨1, ![n]⟩ 32 0 (Shape.Idx.ofFin k))
        (key (Shape.Idx.ofFin k'), iotaInDim ⟨1, ![n]⟩ 32 0 (Shape.Idx.ofFin k')) == 1#1) = keyBefore key := by
    funext k k'
    rw [hcmp]
    rfl
  have hsort := sort2_rank1 cmp key (iotaInDim ⟨1, ![n]⟩ 32 0)
  rw [hbefore] at hsort
  refine ⟨sortedFrom (keyBefore key), ⟨sortedFrom_injective _, sortedFrom_surjective _⟩, ?_, ?_, ?_⟩
  · intro i
    rw [hsort]
    rfl
  · intro i
    rw [hsort, ix1_eq_ofFin (sortedFrom (keyBefore key) i)]
    rfl
  · intro i j hij
    rw [ix1_eq_ofFin, ix1_eq_ofFin]
    exact keyBefore_mono key i j hij

end Idealize.ShloMosaic.Argsort
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.LibScatterSet.lean ====
/-
  ROWS WRITTEN. A host `stablehlo.scatter` whose body returns the update (`x.at[idx].set(v)`), at an [n × 1] column of
  row numbers, when no two update rows land on the same operand row: an operand row some update row lands on holds that
  update row, and an operand row no update row lands on keeps what it held. The scatter is a left fold over the update
  elements in row-major order; with landing rows pairwise distinct each operand element meets at most one update, so
  the order of the fold does not matter.
-/
import proofs.«407377_j54400055771236_3_alg».proof.Proof.LibGatherScatter

namespace Idealize.ShloMosaic.RowOps

open Idealize.ShloMosaic Idealize.ShloMosaic.ValueIdx Idealize.ShloMosaic.StableHlo.Predicate

/-! ## A fold of writes -/

/-- One step of a fold of writes: write `k` goes to position `g k` (nowhere when that is `none`) and leaves the
    value `v k` there. -/
private def writeStep {ι β α : Type} [DecidableEq ι] (g : β → Option ι) (v : β → α) (r : ι → α) (k : β) : ι → α :=
  match g k with
  | some i => fun i' => if i' = i then v k else r i'
  | none => r

/-- A write that goes to `i₀` leaves its value there. -/
private theorem writeStep_of_eq {ι β α : Type} [DecidableEq ι] (g : β → Option ι) (v : β → α) (r : ι → α) (k : β)
    (i₀ : ι) (h : g k = some i₀) : writeStep g v r k i₀ = v k := by
  unfold writeStep
  rw [h]
  exact if_pos rfl

/-- A write that does not go to `i₀` leaves position `i₀` alone. -/
private theorem writeStep_of_ne {ι β α : Type} [DecidableEq ι] (g : β → Option ι) (v : β → α) (r : ι → α) (k : β)
    (i₀ : ι) (h : g k ≠ some i₀) : writeStep g v r k i₀ = r i₀ := by
  unfold writeStep
  cases hg : g k with
  | none => rfl
  | some i =>
    have hne : i₀ ≠ i := fun e => h (by rw [hg, e])
    exact if_neg hne

/-- No write of the list goes to `i₀`: position `i₀` keeps the starting value. -/
private theorem foldl_writeStep_miss {ι β α : Type} [DecidableEq ι] (g : β → Option ι) (v : β → α) (i₀ : ι) :
    ∀ (l : List β) (acc : ι → α), (∀ k ∈ l, g k ≠ some i₀) → l.foldl (writeStep g v) acc i₀ = acc i₀ := by
  intro l
  induction l with
  | nil => intro acc _; rfl
  | cons k t ih =>
    intro acc h
    rw [List.foldl_cons, ih _ (fun k' hk' => h k' (List.mem_cons_of_mem _ hk'))]
    exact writeStep_of_ne g v acc k i₀ (h k (by simp))

/-- Exactly one write of the list, `k₀`, goes to `i₀`: position `i₀` ends with that write's value, wherever in the
    list the write stands (the writes after it leave `i₀` alone). -/
private theorem foldl_writeStep_hit {ι β α : Type} [DecidableEq ι] (g : β → Option ι) (v : β → α) (i₀ : ι) (k₀ : β)
    (hk₀ : g k₀ = some i₀) (acc : ι → α) :
    ∀ (l : List β), k₀ ∈ l → (∀ k ∈ l, g k = some i₀ → k = k₀) → l.foldl (writeStep g v) acc i₀ = v k₀ := by
  intro l
  induction l using List.reverseRecOn with
  | nil => intro h; exact absurd h List.not_mem_nil
  | append_singleton t k ih =>
    intro hmem huniq
    rw [List.foldl_append, List.foldl_cons, List.foldl_nil]
    by_cases hk : g k = some i₀
    · have hkk : k = k₀ := huniq k (by simp) hk
      rw [writeStep_of_eq g v _ k i₀ hk, hkk]
    · rw [writeStep_of_ne g v _ k i₀ hk]
      have hk₀t : k₀ ∈ t := by
        rcases List.mem_append.1 hmem with h | h
        · exact h
        · have hkk : k₀ = k := List.mem_singleton.1 h
          exact absurd (hkk ▸ hk₀) hk
      exact ih hk₀t (fun k' hk' => huniq k' (List.mem_append_left _ hk'))

/-- The host scatter whose body returns the update is the fold of writes over the update positions in row-major
    order: position `k` writes the update's element there to the operand index it lands on. -/
private theorem scatter_set_eq_fold {s si u : Shape} {α : Type} {w : Nat} (d : ScatterDims s si u) (x : s.Idx → α)
    (idx : IVec si w) (upd : u.Idx → α) :
    Host.scatter d (fun _ b => b) x idx upd
      = (List.finRange u.numel).foldl
          (writeStep (fun k => d.resultIdx? (u.rowMajor.symm k) idx) (fun k => upd (u.rowMajor.symm k))) x := by
  unfold Host.scatter
  congr 1
  funext r k
  unfold writeStep
  beta_reduce
  cases d.resultIdx? (u.rowMajor.symm k) idx with
  | none => rfl
  | some i => rfl

/-- The scatter at an operand index exactly one update index `j₀` lands on: the update's element at `j₀`. -/
private theorem scatter_set_hit {s si u : Shape} {α : Type} {w : Nat} (d : ScatterDims s si u) (x : s.Idx → α)
    (idx : IVec si w) (upd : u.Idx → α) (i₀ : s.Idx) (j₀ : u.Idx) (h₀ : d.resultIdx? j₀ idx = some i₀)
    (huniq : ∀ j : u.Idx, d.resultIdx? j idx = some i₀ → j = j₀) :
    Host.scatter d (fun _ b => b) x idx upd i₀ = upd j₀ := by
  rw [scatter_set_eq_fold]
  refine (foldl_writeStep_hit _ _ i₀ (u.rowMajor j₀) ?_ x _ (List.mem_finRange _) ?_).trans ?_
  · show d.resultIdx? (u.rowMajor.symm (u.rowMajor j₀)) idx = some i₀
    rw [Equiv.symm_apply_apply]
    exact h₀
  · intro k _ hk
    have hj : u.rowMajor.symm k = j₀ := huniq _ hk
    rw [← hj, Equiv.apply_symm_apply]
  · show upd (u.rowMajor.symm (u.rowMajor j₀)) = upd j₀
    rw [Equiv.symm_apply_apply]

/-- The scatter at an operand index no update index lands on: the operand's element. -/
private theorem scatter_set_miss {s si u : Shape} {α : Type} {w : Nat} (d : ScatterDims s si u) (x : s.Idx → α)
    (idx : IVec si w) (upd : u.Idx → α) (i₀ : s.Idx) (hnone : ∀ j : u.Idx, d.resultIdx? j idx ≠ some i₀) :
    Host.scatter d (fun _ b => b) x idx upd i₀ = x i₀ := by
  rw [scatter_set_eq_fold]
  exact foldl_writeStep_miss _ _ i₀ _ x (fun k _ => hnone _)

/-! ## Rows written at a column of row numbers -/

/-- An operand row that update row `e` lands on, no other update row landing there, holds update row `e`. -/
theorem scatterSet_rows_hit {α : Type} {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → α) (idx : IVec ⟨2, ![n, 1]⟩ w) (upd : (⟨2, ![n, D]⟩ : Shape).Idx → α)
    (e : Fin n) (i : Fin K) (j : Fin D) (he : lands idx e i.val)
    (huniq : ∀ e' : Fin n, lands idx e' i.val → e' = e) :
    Host.scatter d (fun _ b => b) x idx upd (ix2 i j) = upd (ix2 e j) := by
  refine scatter_set_hit d x idx upd (ix2 i j) (ix2 e j) ?_ ?_
  · exact (resultIdx?_rows_iff d huw hiw hsd hivd idx (ix2 e j) i j).2 ⟨he, rfl⟩
  · -- an update index landing on (i, j) has its row landing on row i, so is row e, and has column j
    intro u hu
    have h := (resultIdx?_rows_iff d huw hiw hsd hivd idx u i j).1 hu
    exact (eq_ix2 u).trans (congrArg₂ ix2 (huniq _ h.1) h.2)

/-- An operand row no update row lands on keeps its contents. -/
theorem scatterSet_rows_miss {α : Type} {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → α) (idx : IVec ⟨2, ![n, 1]⟩ w) (upd : (⟨2, ![n, D]⟩ : Shape).Idx → α)
    (i : Fin K) (j : Fin D) (hnone : ∀ e : Fin n, ¬ lands idx e i.val) :
    Host.scatter d (fun _ b => b) x idx upd (ix2 i j) = x (ix2 i j) := by
  refine scatter_set_miss d x idx upd (ix2 i j) ?_
  intro u hu
  exact hnone _ ((resultIdx?_rows_iff d huw hiw hsd hivd idx u i j).1 hu).1

/-- The same for a vector of updates written into a vector. -/
theorem scatterSet_row1_hit {α : Type} {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → α) (idx : IVec ⟨2, ![n, 1]⟩ w) (upd : (⟨1, ![n]⟩ : Shape).Idx → α)
    (e : Fin n) (i : Fin K) (he : lands idx e i.val) (huniq : ∀ e' : Fin n, lands idx e' i.val → e' = e) :
    Host.scatter d (fun _ b => b) x idx upd (ix1 i) = upd (ix1 e) := by
  refine scatter_set_hit d x idx upd (ix1 i) (ix1 e) ?_ ?_
  · exact (resultIdx?_row1_iff d huw hiw hsd hivd idx (ix1 e) i).2 he
  · intro u hu
    have h := (resultIdx?_row1_iff d huw hiw hsd hivd idx u i).1 hu
    exact (eq_ix1 u).trans (congrArg ix1 (huniq _ h))

theorem scatterSet_row1_miss {α : Type} {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → α) (idx : IVec ⟨2, ![n, 1]⟩ w) (upd : (⟨1, ![n]⟩ : Shape).Idx → α)
    (i : Fin K) (hnone : ∀ e : Fin n, ¬ lands idx e i.val) :
    Host.scatter d (fun _ b => b) x idx upd (ix1 i) = x (ix1 i) := by
  refine scatter_set_miss d x idx upd (ix1 i) ?_
  intro u hu
  exact hnone _ ((resultIdx?_row1_iff d huw hiw hsd hivd idx u i).1 hu)

end Idealize.ShloMosaic.RowOps
-- ==== Proof.KLayout.lean ====
/-
  Where the edges end up. The sorted stages read every per-edge input through one sorting bijection of the edges; the
  padded row of each sorted edge is then (start of its relation's slab) + (its rank inside its relation), an injective
  placement below 720000. So every edge e has a padded row pos e, all different, which holds e's source row and e's
  destination id; every other padded row is zero; and the tile pos e lies in carries e's relation.
-/
import proofs.«407377_j54400055771236_3_alg».proof.Proof.KStages
import proofs.«407377_j54400055771236_3_alg».proof.Proof.KInts
import proofs.«407377_j54400055771236_3_alg».proof.Proof.Spec
import proofs.«407377_j54400055771236_3_alg».proof.Proof.LibGroups
import proofs.«407377_j54400055771236_3_alg».proof.Proof.LibArgsort
import proofs.«407377_j54400055771236_3_alg».proof.Proof.LibGatherScatter
import proofs.«407377_j54400055771236_3_alg».proof.Proof.LibScatterSet

open scoped BigOperators

noncomputable section

namespace Cert.KernelIdeal.KLayout

open Cert.KernelIdeal Cert.KernelIdeal.Gen Cert.KernelIdeal.KStages Cert.KernelIdeal.KInts Cert.Spec
open Idealize.ShloMosaic Idealize.ShloMosaic.ValueIdx Idealize.ShloMosaic.Groups Idealize.ShloMosaic.RowOps

variable {F : FTy → Type} [FloatOps F]

section WrappedWords

open Idealize.ShloMosaic.StableHlo.Predicate

/-- Row i of a wrapped column is the normalised word of entry i. -/
private theorem wrapCol_apply (ext : BitVec 32) (v : IVec S640000 32) (i : Fin 640000) :
    wrapCol ext v (ixP i) = wrapWord ext (v (ix1 i)) := by
  unfold wrapCol wrapWord
  rw [bcast_col1, ofFin_eq_ix1]
  show Scalar.select (IntOp.cmpi .slt (v (ix1 i)) (broadcastInDim S640000 ![] bcast_S_S640000 (constantI S_ 32 0#32) (ix1 i)))
      (IntOp.addi (v (ix1 i)) (broadcastInDim S640000 ![] bcast_S_S640000 (constantI S_ 32 ext) (ix1 i))) (v (ix1 i)) = _
  rw [bcast_scalar _ h_S_, bcast_scalar _ h_S_]
  show (if IntOp.cmpi .slt (v (ix1 i)) 0#32 = 1 then v (ix1 i) + ext else v (ix1 i)) = _
  have hc : (IntOp.cmpi .slt (v (ix1 i)) 0#32 = 1) ↔ ((v (ix1 i)).slt 0#32 = true) := by
    unfold IntOp.cmpi
    exact ofBool_eq_one_iff _
  by_cases h : (v (ix1 i)).slt 0#32 = true
  · rw [if_pos (hc.mpr h), if_pos h]
  · rw [if_neg (fun h' => h (hc.mp h')), if_neg h]

/-- A word below 2³¹ is not negative, so normalising leaves it alone. -/
private theorem wrapWord_small (ext w : BitVec 32) (hw : w.toNat < 2 ^ 31) : wrapWord ext w = w := by
  unfold wrapWord
  rw [if_neg]
  intro h
  rw [BitVec.slt_iff_toInt_lt, toInt_eq_toNat_of_lt hw, BitVec.toInt_zero] at h
  omega

/-- A wrapped column whose entry i is below 2³¹ lands, at row i, on that entry's value. -/
private theorem wrapCol_lands (ext : BitVec 32) (v : IVec S640000 32) (i : Fin 640000) (hv : (v (ix1 i)).toNat < 2 ^ 31) :
    lands (wrapCol ext v) i (v (ix1 i)).toNat := by
  unfold lands
  rw [wrapCol_apply, wrapWord_small _ _ hv]
  exact toInt_eq_toNat_of_lt hv

/-- A row lands on one place only. -/
private theorem lands_unique {v : IVec S640000x1 32} {i : Fin 640000} {a b : Nat} (ha : lands v i a) (hb : lands v i b) :
    a = b := by
  unfold lands at ha hb
  rw [ha] at hb
  exact_mod_cast hb

/-- Signed monotonicity of the sorted relation words is monotonicity of their values, the words being small. -/
private theorem lab_mono (ety : IVec S640000 32) (hty : ∀ e : Fin 640000, (ety (ix1 e)).toNat < 8)
    (σ : Fin 640000 → Fin 640000)
    (hmonoI : ∀ i j : Fin 640000, i ≤ j → (ety (ix1 (σ i))).toInt ≤ (ety (ix1 (σ j))).toInt) :
    ∀ i j : Fin 640000, i ≤ j → lab ety (σ i) ≤ lab ety (σ j) := by
  intro i j hij
  have h := hmonoI i j hij
  rw [toInt_eq_toNat_of_lt (by have := hty (σ i); omega), toInt_eq_toNat_of_lt (by have := hty (σ j); omega)] at h
  unfold lab
  exact_mod_cast h

end WrappedWords

section RunningTotals

open Idealize.ShloMosaic.StableHlo.Predicate

/-- Running totals that agree termwise below R agree up to R. -/
private theorem starts_congr (c c' : Nat → Nat) (R r : Nat) (hr : r ≤ R) (h : ∀ j, j < R → c j = c' j) :
    starts c r = starts c' r := by
  unfold starts
  exact Finset.sum_congr rfl (fun j hj => h j (by have := Finset.mem_range.mp hj; omega))

/-- A running total of natural numbers never decreases. -/
private theorem starts_mono' (c : Nat → Nat) {r r' : Nat} (h : r ≤ r') : starts c r ≤ starts c r' := by
  unfold starts
  exact Finset.sum_le_sum_of_subset (Finset.range_mono h)

/-- The padded sizes exceed the sizes by at most T − 1 each. -/
private theorem starts_padded_le' (T : Nat) (c : Nat → Nat) (R : Nat) :
    starts (fun r => padded T (c r)) R ≤ starts c R + R * (T - 1) := by
  induction R with
  | zero => simp [starts]
  | succ R ih =>
    have e1 : starts (fun r => padded T (c r)) (R + 1) = starts (fun r => padded T (c r)) R + padded T (c R) := by
      unfold starts; exact Finset.sum_range_succ _ _
    have e2 : starts c (R + 1) = starts c R + c R := by
      unfold starts; exact Finset.sum_range_succ _ _
    have e3 : (R + 1) * (T - 1) = R * (T - 1) + (T - 1) := Nat.add_one_mul _ _
    have e4 : padded T (c R) ≤ c R + (T - 1) := by
      unfold padded
      have := Nat.div_mul_le_self (c R + T - 1) T
      omega
    omega

/-- The slab starts stay below 719993: 640000 edges and at most 9999 rows of padding for each of 8 relations. -/
private theorem pstarts_le (ety : IVec S640000 32) (m : Nat) (hm : m ≤ 8) :
    starts (fun r => padded 10000 (cnt (lab ety) r)) m ≤ 719992 := by
  have h1 := starts_mono' (fun r => padded 10000 (cnt (lab ety) r)) hm
  have h2 := starts_padded_le' 10000 (cnt (lab ety)) 8
  have h3 := cnt_sum_le (lab ety) 8
  omega

private theorem natTab_counts (ety : IVec S640000 32) (j : Nat) (hj : j < 8) :
    natTab (counts ety) j = cnt (lab ety) j := by
  unfold natTab
  rw [dif_pos hj]
  exact counts_toNat ety ⟨j, hj⟩

private theorem natTab_pcounts (ety : IVec S640000 32) (j : Nat) (hj : j < 8) :
    natTab (pcounts ety) j = padded 10000 (cnt (lab ety) j) := by
  unfold natTab
  rw [dif_pos hj]
  exact pcounts_toNat ety ⟨j, hj⟩

/-- Where relation r's group starts among the sorted edges, as a word. -/
private theorem exCounts_toNat (ety : IVec S640000 32) (r : Fin 8) :
    (exStarts (counts ety) (ix1 r)).toNat = starts (cnt (lab ety)) r.val := by
  have hc : ∀ m, m ≤ 8 → starts (natTab (counts ety)) m = starts (cnt (lab ety)) m :=
    fun m hm => starts_congr _ _ 8 m hm (natTab_counts ety)
  have hx : starts (natTab (counts ety)) 8 < 2 ^ 31 := by
    rw [hc 8 (le_refl _)]
    have := cnt_sum_le (lab ety) 8
    omega
  rw [exStarts_toNat (counts ety) hx r]
  exact hc r.val (by have := r.isLt; omega)

/-- Where relation r's slab starts among the padded rows, as a word. -/
private theorem exPcounts_toNat (ety : IVec S640000 32) (r : Fin 8) :
    (exStarts (pcounts ety) (ix1 r)).toNat = starts (fun r' => padded 10000 (cnt (lab ety) r')) r.val := by
  have hc : ∀ m, m ≤ 8 → starts (natTab (pcounts ety)) m = starts (fun r' => padded 10000 (cnt (lab ety) r')) m :=
    fun m hm => starts_congr _ _ 8 m hm (natTab_pcounts ety)
  have hx : starts (natTab (pcounts ety)) 8 < 2 ^ 31 := by
    rw [hc 8 (le_refl _)]
    have := pstarts_le ety 8 (le_refl _)
    omega
  rw [exStarts_toNat (pcounts ety) hx r]
  exact hc r.val (by have := r.isLt; omega)

/-- A table of eight words read at the relation of the sorted edge at position i. -/
private theorem atRel_apply (tab : IVec S8 32) (ety : IVec S640000 32) (σ : Fin 640000 → Fin 640000)
    (hs : ∀ i : Fin 640000, sorted ety ety (ix1 i) = ety (ix1 (σ i))) (i : Fin 640000) (r : Fin 8)
    (hr : (ety (ix1 (σ i))).toNat = r.val) : atRel tab ety (ix1 i) = tab (ix1 r) := by
  have hl : lands (wrapCol 8#32 (sorted ety ety)) i r.val := by
    have := wrapCol_lands 8#32 (sorted ety ety) i (by rw [hs, hr]; have := r.isLt; omega)
    rwa [hs, hr] at this
  unfold atRel
  rw [gather_row1 _ rfl rfl rfl rfl tab _ i (by norm_num), clampRow_of_lands _ _ i r hl]

end RunningTotals

section Placement

open Idealize.ShloMosaic.StableHlo.Predicate

/-- Every slot is below 720000. -/
private theorem dest_lt_rows (ety : IVec S640000 32) (hty : ∀ e : Fin 640000, (ety (ix1 e)).toNat < 8)
    (σ : Fin 640000 → Fin 640000) (hσ : Function.Bijective σ)
    (hmono : ∀ i j : Fin 640000, i ≤ j → lab ety (σ i) ≤ lab ety (σ j)) (i : Fin 640000) :
    dest 10000 (lab ety) σ i < 720000 := by
  obtain ⟨h1, h2⟩ := dest_lt 8 10000 (by norm_num) (lab ety) hty σ hσ hmono i
  omega

/-- The slot word of sorted position i is the slot: the group start is at or below i, so the difference does not wrap,
    and the slab start plus the rank stays far below 2³². -/
private theorem destW_toNat (ety : IVec S640000 32) (hty : ∀ e : Fin 640000, (ety (ix1 e)).toNat < 8)
    (σ : Fin 640000 → Fin 640000) (hσ : Function.Bijective σ)
    (hs : ∀ i : Fin 640000, sorted ety ety (ix1 i) = ety (ix1 (σ i)))
    (hmono : ∀ i j : Fin 640000, i ≤ j → lab ety (σ i) ≤ lab ety (σ j)) (i : Fin 640000) :
    (destW ety (ix1 i)).toNat = dest 10000 (lab ety) σ i := by
  have hr : lab ety (σ i) < 8 := hty (σ i)
  have e1 := atRel_apply (exStarts (pcounts ety)) ety σ hs i ⟨lab ety (σ i), hr⟩ rfl
  have e2 := atRel_apply (exStarts (counts ety)) ety σ hs i ⟨lab ety (σ i), hr⟩ rfl
  have n1 : (exStarts (pcounts ety) (ix1 (⟨lab ety (σ i), hr⟩ : Fin 8))).toNat
      = starts (fun r' => padded 10000 (cnt (lab ety) r')) (lab ety (σ i)) := exPcounts_toNat ety ⟨lab ety (σ i), hr⟩
  have n2 : (exStarts (counts ety) (ix1 (⟨lab ety (σ i), hr⟩ : Fin 8))).toNat
      = starts (cnt (lab ety)) (lab ety (σ i)) := exCounts_toNat ety ⟨lab ety (σ i), hr⟩
  obtain ⟨g1, _⟩ := group_pos (lab ety) σ hσ hmono i
  have b1 := pstarts_le ety (lab ety (σ i)) (by omega)
  have hi := i.isLt
  have hw : destW ety (ix1 i) = exStarts (pcounts ety) (ix1 (⟨lab ety (σ i), hr⟩ : Fin 8))
      + (BitVec.ofNat 32 i.val - exStarts (counts ety) (ix1 (⟨lab ety (σ i), hr⟩ : Fin 8))) := by
    rw [← e1, ← e2]
    rfl
  rw [hw, BitVec.toNat_add, BitVec.toNat_sub, BitVec.toNat_ofNat, n1, n2]
  unfold dest
  omega

/-- So the wrapped slot column lands, at row i, exactly on the slot of position i. -/
private theorem destW_lands (ety : IVec S640000 32) (hty : ∀ e : Fin 640000, (ety (ix1 e)).toNat < 8)
    (σ : Fin 640000 → Fin 640000) (hσ : Function.Bijective σ)
    (hs : ∀ i : Fin 640000, sorted ety ety (ix1 i) = ety (ix1 (σ i)))
    (hmono : ∀ i j : Fin 640000, i ≤ j → lab ety (σ i) ≤ lab ety (σ j)) (i : Fin 640000) :
    lands (wrapCol 720000#32 (destW ety)) i (dest 10000 (lab ety) σ i) := by
  have h := destW_toNat ety hty σ hσ hs hmono i
  have hlt := dest_lt_rows ety hty σ hσ hmono i
  have := wrapCol_lands 720000#32 (destW ety) i (by rw [h]; omega)
  rwa [h] at this

/-- The gathered row at sorted position i is the feature row the source word of edge σ i names. -/
private theorem xg_apply (featb : Vec F S50000x128 .bf16) (ety src : IVec S640000 32) (σ : Fin 640000 → Fin 640000)
    (hs : ∀ i : Fin 640000, sorted ety src (ix1 i) = src (ix1 (σ i))) (i : Fin 640000) (k : Fin 128) :
    xg featb ety src (ix2 i k) = featb (ix2 (rowOf (src (ix1 (σ i)))) k) := by
  have hrow : clampRow 50000 (by norm_num) (wrapCol 50000#32 (sorted ety src)) i = rowOf (src (ix1 (σ i))) := by
    apply Fin.ext
    show min ((wrapCol 50000#32 (sorted ety src)) (ixP i)).toInt.toNat (50000 - 1)
      = min (wrapWord 50000#32 (src (ix1 (σ i)))).toInt.toNat 49999
    rw [wrapCol_apply, hs]
  unfold xg
  rw [gather_rows _ rfl rfl rfl rfl rfl rfl featb _ i k (by norm_num), hrow]

/-- The tile's label looks at the first R slab starts only. -/
private theorem relOf_congr (R T : Nat) (ps ps' : Nat → Nat) (h : ∀ j, j < R → ps j = ps' j) (b : Nat) :
    Groups.relOf R T ps b = Groups.relOf R T ps' b := by
  unfold Groups.relOf
  congr 2
  refine Finset.filter_congr ?_
  intro j hj
  rw [h j (Finset.mem_range.mp hj)]

/-- The slab starts as a table of natural numbers. -/
private theorem natTab_exPcounts (ety : IVec S640000 32) (j : Nat) (hj : j < 8) :
    natTab (exStarts (pcounts ety)) j = starts (fun r' => padded 10000 (cnt (lab ety) r')) j := by
  unfold natTab
  rw [dif_pos hj]
  exact exPcounts_toNat ety ⟨j, hj⟩

end Placement

/-- The sorted stages read their input through one bijection of the edges, along which the relation words never
    decrease. -/
theorem sorted_facts (ety : IVec S640000 32) :
    ∃ σ : Fin 640000 → Fin 640000, Function.Bijective σ ∧
      (∀ (x : IVec S640000 32) (i : Fin 640000), sorted ety x (ix1 i) = x (ix1 (σ i))) ∧
      (∀ i j : Fin 640000, i ≤ j → (ety (ix1 (σ i))).toInt ≤ (ety (ix1 (σ j))).toInt) := by
  obtain ⟨σ, hσ, hperm, _, hmono⟩ :=
    Argsort.argsort_perm (n := 640000) (by norm_num) comparator_i32_i32_d0 (fun _ _ => rfl) ety
  refine ⟨σ, hσ, ?_, hmono⟩
  intro x i
  -- the permutation word at i is the position σ i, a small word: the wrapped column lands on σ i
  have hp : perm ety (ix1 i) = BitVec.ofNat 32 (σ i).val := hperm i
  have hlt : (σ i).val < 640000 := (σ i).isLt
  have hn : (perm ety (ix1 i)).toNat = (σ i).val := by
    rw [hp, BitVec.toNat_ofNat]
    exact Nat.mod_eq_of_lt (by omega)
  have hl : lands (wrapCol 640000#32 (perm ety)) i (σ i).val := by
    have := wrapCol_lands 640000#32 (perm ety) i (by rw [hn]; omega)
    rwa [hn] at this
  unfold sorted
  rw [gather_row1 _ rfl rfl rfl rfl x _ i (by norm_num), clampRow_of_lands _ _ i (σ i) hl]

/-- THE LAYOUT. With every relation word in [0, 8): an injective row `pos e` for every edge, holding the edge's source
    row and destination id, in the tile of the edge's relation; all other rows of the padded features are zero. -/
theorem layout (featb : Vec F S50000x128 .bf16) (ety src dst : IVec S640000 32)
    (hty : ∀ e : Fin 640000, (ety (ix1 e)).toNat < 8) :
    ∃ pos : Fin 640000 → Fin 720000, Function.Injective pos ∧
      (∀ (e : Fin 640000) (k : Fin 128), xpad featb ety src (ix2 (pos e) k) = featb (ix2 (rowOf (src (ix1 e))) k)) ∧
      (∀ p : Fin 720000, (∀ e, pos e ≠ p) → ∀ k : Fin 128,
          xpad featb ety src (ix2 p k) = constant (F := F) S_ .bf16 0x0000#16 (fun a => a.elim0)) ∧
      (∀ e : Fin 640000, dpad ety dst (ix1 (pos e)) = dst (ix1 e)) ∧
      (∀ e : Fin 640000,
          (brel (exStarts (pcounts ety)) (ix1 (⟨(pos e).val / 10000, by have := (pos e).isLt; omega⟩ : Fin 72))).toNat
            = (ety (ix1 e)).toNat) := by
  obtain ⟨σ, hσ, hs, hmonoI⟩ := sorted_facts ety
  have hmono := lab_mono ety hty σ hmonoI
  have hlands : ∀ i : Fin 640000, lands (wrapCol 720000#32 (destW ety)) i (dest 10000 (lab ety) σ i) :=
    fun i => destW_lands ety hty σ hσ (hs ety) hmono i
  have hD : ∀ i : Fin 640000, dest 10000 (lab ety) σ i < 720000 := fun i => dest_lt_rows ety hty σ hσ hmono i
  have hinj : Function.Injective (dest 10000 (lab ety) σ) := dest_inj 10000 (by norm_num) (lab ety) σ hσ hmono
  -- τ, the inverse of σ: the sorted position of an edge
  have hτ : ∀ e : Fin 640000, σ (Function.surjInv hσ.2 e) = e := Function.surjInv_eq hσ.2
  have hτ' : ∀ i : Fin 640000, Function.surjInv hσ.2 (σ i) = i := fun i => hσ.1 (hτ (σ i))
  -- an update row landing where position i's does is position i's
  have huniq : ∀ i e' : Fin 640000, lands (wrapCol 720000#32 (destW ety)) e' (dest 10000 (lab ety) σ i) → e' = i :=
    fun i e' h' => hinj (lands_unique (hlands e') h')
  refine ⟨fun e => ⟨dest 10000 (lab ety) σ (Function.surjInv hσ.2 e), hD _⟩, ?_, ?_, ?_, ?_, ?_⟩
  · -- different edges have different sorted positions, and those different slots
    intro e e' h
    have h1 : dest 10000 (lab ety) σ (Function.surjInv hσ.2 e) = dest 10000 (lab ety) σ (Function.surjInv hσ.2 e') :=
      congrArg Fin.val h
    have h2 := hinj h1
    rw [← hτ e, ← hτ e', h2]
  · -- the row of edge e holds the gathered row of its sorted position
    intro e k
    refine (scatterSet_rows_hit scatter_S720000x128_S640000x1_S640000x128_1_0_0_1 rfl rfl rfl rfl _ _ _
      (Function.surjInv hσ.2 e) (⟨dest 10000 (lab ety) σ (Function.surjInv hσ.2 e), hD _⟩ : Fin 720000) k
      (hlands _) (huniq _)).trans ?_
    rw [xg_apply featb ety src σ (hs src) (Function.surjInv hσ.2 e) k, hτ]
  · -- a row that is no edge's row is no position's slot, so nothing is written there
    intro p hp k
    have hnone : ∀ i : Fin 640000, ¬ lands (wrapCol 720000#32 (destW ety)) i p.val := by
      intro i h
      have h1 : dest 10000 (lab ety) σ i = p.val := lands_unique (hlands i) h
      apply hp (σ i)
      apply Fin.ext
      show dest 10000 (lab ety) σ (Function.surjInv hσ.2 (σ i)) = p.val
      rw [hτ' i]
      exact h1
    refine (scatterSet_rows_miss scatter_S720000x128_S640000x1_S640000x128_1_0_0_1 rfl rfl rfl rfl _ _ _ p k hnone).trans ?_
    rfl
  · intro e
    refine (scatterSet_row1_hit scatter_S720000_S640000x1_S640000_n_0_0_1 rfl rfl rfl rfl _ _ _
      (Function.surjInv hσ.2 e) (⟨dest 10000 (lab ety) σ (Function.surjInv hσ.2 e), hD _⟩ : Fin 720000)
      (hlands _) (huniq _)).trans ?_
    rw [hs dst, hτ]
  · -- the tile of the slot: the slab starts are the running totals of the padded sizes
    intro e
    have hps : ∀ r : Fin 8, (exStarts (pcounts ety) (ix1 r)).toNat < 2 ^ 31 := by
      intro r
      rw [exPcounts_toNat]
      have := pstarts_le ety r.val (by have := r.isLt; omega)
      omega
    rw [brel_toNat (exStarts (pcounts ety)) hps (exStarts_zero _)]
    show Groups.relOf 8 10000 (natTab (exStarts (pcounts ety))) (dest 10000 (lab ety) σ (Function.surjInv hσ.2 e) / 10000) = _
    rw [relOf_congr 8 10000 _ _ (natTab_exPcounts ety),
      relOf_dest 8 10000 (by norm_num) (lab ety) hty σ hσ hmono (Function.surjInv hσ.2 e), hτ]
    rfl

/-- Every tile's relation word is below 8, whatever the inputs. -/
theorem brel_ok (ety : IVec S640000 32) (b : Fin 72) : (brel (exStarts (pcounts ety)) (ix1 b)).toNat < 8 :=
  brel_lt _ (exStarts_zero _) b

end Cert.KernelIdeal.KLayout

end
-- ==== Proof.OkBits.lean ====
/-
  The same side condition for the kernel as printed, at the word level: the table is computed by integer operations
  alone, so its words are the same function of the relation ids, and each is below 8.
-/
import proofs.«407377_j54400055771236_3_alg».proof.Proof.Gen.Kernel.Frame
import proofs.«407377_j54400055771236_3_alg».proof.Proof.KStages
import proofs.«407377_j54400055771236_3_alg».proof.Proof.KLayout
import Idealize.ShloMosaic.Lib.Affine

set_option maxRecDepth 16384

noncomputable section

namespace Cert.Kernel.OkOfPre

open Cert.Kernel Cert.Kernel.Gen
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ)

/-- The two-piece concatenation of a one-vector and a seven-vector, with its shape fact fixed: the same function of the
    two pieces whatever proof of the fact a term carries. -/
private def cat17 (a : IVec S1 32) (b : IVec S7 32) : IVec S8 32 :=
  concatenate S8 0 [⟨S1, a⟩, ⟨S7, b⟩] concatenates_S1_S7_S8_d0

private theorem cat17_eq (a : IVec S1 32) (b : IVec S7 32) (h : Shape.Concatenates [S1, S7] S8 0) :
    concatenate S8 0 [⟨S1, a⟩, ⟨S7, b⟩] h = cat17 a b := rfl

/-- Contents carried to a typed reference's buffer and back are the contents: the two transports are casts along one
    equation of buffer types and its inverse. -/
private theorem ofBuf_toBuf' {sig : RefSig} {Val : EltTy → Type} {T : BufTy} (x : TRef sig T) (v : T.Contents Val) :
    x.ofBuf (x.toBuf v) = v := by
  obtain ⟨r, rfl, _, _⟩ := x
  rfl

/-- Contents read off a typed reference's buffer and carried back are the contents. -/
private theorem toBuf_ofBuf' {sig : RefSig} {Val : EltTy → Type} {T : BufTy} (x : TRef sig T) (v : x.ref.ty.Contents Val) :
    x.toBuf (x.ofBuf v) = v := by
  obtain ⟨r, rfl, _, _⟩ := x
  rfl

/-- At a reference whose buffer type is the value's type on the nose, carrying contents to the buffer changes nothing:
    the cast is along an equation of a type with itself. -/
private theorem toBuf_lit {sig : RefSig} {Val : EltTy → Type} (r : Ref sig .tc) (h : r.ty = r.ty) (hd : r.space ≠ .host)
    (hs : r.isScoped = false) (v : r.ty.Contents Val) : (TRef.of r h hd hs : TRef sig r.ty).toBuf v = v := rfl

/-- Nor does reading them back. -/
private theorem ofBuf_lit {sig : RefSig} {Val : EltTy → Type} (r : Ref sig .tc) (h : r.ty = r.ty) (hd : r.space ≠ .host)
    (hs : r.isScoped = false) (v : r.ty.Contents Val) : (TRef.of r h hd hs : TRef sig r.ty).ofBuf v = v := rfl

set_option maxHeartbeats 4000000 in
set_option maxRecDepth 65536 in
/-- The tiles' relation table is the last integer stage. -/
theorem V_main_v97 (c : Dev nD) :
    (V m c main_v97 : S72.Idx → BitVec 32)
      = Cert.KernelIdeal.KStages.brel (Cert.KernelIdeal.KStages.exStarts
          (Cert.KernelIdeal.KStages.pcounts (m ((c : Thread nD τ).loc main_arg2)))) := by
  -- the host operations before the region, as one literal list
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  simp only [cat17_eq]
  -- each buffer read back as its operation's function of the buffers it reads
  after_results_simp
  -- a called function's operations carry contents to and from their typed references' buffers: in pairs these cancel,
  simp only [ofBuf_toBuf', toBuf_ofBuf']
  -- and where a plain operation meets a called function's, the single transport is a cast of a type to itself
  erw [toBuf_lit main_v43, toBuf_lit main_v36, ofBuf_lit main_v38, ofBuf_lit main_v35, ofBuf_lit main_c_8]
  have hm : m (c, Proc.tc.devRef main_arg2) = m ((c : Thread nD τ).loc main_arg2) := rfl
  rw [hm]
  -- what is left is the stage functions' composition, operation for operation
  unfold Cert.KernelIdeal.KStages.brel Cert.KernelIdeal.KStages.exStarts Cert.KernelIdeal.KStages.pcounts
    Cert.KernelIdeal.KStages.cums Cert.KernelIdeal.KStages.floorDiv10000 Cert.KernelIdeal.KStages.counts
  rfl

/-- Every word of the table is below 8. -/
theorem tbl_lt (x : S72.Idx) : (tbl m 0 x).toNat < 8 := by
  have h : (tbl m 0 : S72.Idx → BitVec 32) = _ := V_main_v97 m 0
  rw [h, eq_ix1 x]
  exact Cert.KernelIdeal.KLayout.brel_ok _ _

/-- The side condition of the table, for every launch memory. -/
theorem ok : Ok m := by
  intro i
  obtain ⟨w, hw, e⟩ : ∃ w : BitVec 32, w.toNat < 8 ∧ cc0_transform_1 k0_off1_inb numel1_S1 (tbl m) i = ![w.toNat, 0, 0] :=
    ⟨_, tbl_lt m _, rfl⟩
  refine ⟨fun a => ?_, .inr (Affine.block_words_dvd (of_decide_eq_true rfl) (by decide))⟩
  rw [e]
  fin_cases a <;> simp [S1x128x128, S8x128x128] <;> omega

end Cert.Kernel.OkOfPre

end
-- ==== Proof.LibTypedRef.lean ====
/-
  Typed references: contents carried to a typed reference's buffer and read back at the value's type are the
  contents. The two transports are casts along one equation of buffer types and its inverse, so they cancel for any
  typed reference, whatever the equation's proof. Simplifying with this lemma removes every such pair from the
  composed term of a called function's operations without opening a single cast.
-/
import Idealize.ShloMosaic.Lib.StableHlo

namespace Idealize.ShloMosaic.StableHlo.TRef

/-- Contents carried to a typed reference's buffer and back are the contents. -/
theorem ofBuf_toBuf {sig : RefSig} {Val : EltTy → Type} {T : BufTy} (x : TRef sig T) (v : T.Contents Val) :
    x.ofBuf (x.toBuf v) = v := by
  obtain ⟨r, rfl, _, _⟩ := x
  rfl

/-- Contents read off a typed reference's buffer and carried back are the contents. -/
theorem toBuf_ofBuf {sig : RefSig} {Val : EltTy → Type} {T : BufTy} (x : TRef sig T) (v : x.ref.ty.Contents Val) :
    x.toBuf (x.ofBuf v) = v := by
  obtain ⟨r, rfl, _, _⟩ := x
  rfl

end Idealize.ShloMosaic.StableHlo.TRef
-- ==== Proof.KStagesEq.lean ====
/-
  The buffers the grouped matmul and the operations after it read are the stages of the host computation: reading the
  operations before the call back, one after another, from the launch contents of the arguments. The operations of the
  called functions (the sort, the floor division, the running totals) carry their values to and from their buffers'
  types; those transports are casts of a type to itself, hence identities, and are removed before the two sides are
  compared. A concatenation's proof argument depends on its list of pieces; it is named as a function of the two pieces
  so that the pieces can be read back.
-/
import proofs.«407377_j54400055771236_3_alg».proof.Proof.Gen.KernelIdeal.Frame
import proofs.«407377_j54400055771236_3_alg».proof.Proof.KStages
import proofs.«407377_j54400055771236_3_alg».proof.Proof.LibTypedRef

set_option maxRecDepth 16384

noncomputable section

namespace Cert.KernelIdeal.KStagesEq

open Cert.KernelIdeal Cert.KernelIdeal.Gen Cert.KernelIdeal.KStages
open Idealize.ShloMosaic Idealize.ShloMosaic.TcCoe Idealize.SL.Sem Idealize.ShloMosaic.StableHlo

/-- A one-word piece in front of a seven-word piece, as a function of the two pieces alone. -/
private def cat17 (a : IVec S1 32) (b : IVec S7 32) : IVec S8 32 :=
  concatenate S8 0 [⟨S1, a⟩, ⟨S7, b⟩] concatenates_S1_S7_S8_d0

private theorem cat17_eq (a : IVec S1 32) (b : IVec S7 32) (h : Shape.Concatenates [S1, S7] S8 0) :
    concatenate S8 0 [⟨S1, a⟩, ⟨S7, b⟩] h = cat17 a b := rfl

variable {F : FTy → Type} [FloatOps F]

/-! The single transports, buffer by buffer, at the buffer's literal type: each is a cast of a type to itself. They occur
    where a called function's operation writes a buffer that an operation of the main function reads, or the reverse. -/
private theorem t_v2 (p q r) (v : (⟨S640000, .i32⟩ : BufTy).Contents (Elt F)) :
    (TRef.of main_v2 p q r : TRef sig ⟨S640000, .i32⟩).toBuf v = v := rfl
private theorem o_arg2 (p q r) (v : (⟨S640000, .i32⟩ : BufTy).Contents (Elt F)) :
    (TRef.of main_arg2 p q r : TRef sig ⟨S640000, .i32⟩).ofBuf v = v := rfl
private theorem t_v36 (p q r) (v : (⟨S8, .i32⟩ : BufTy).Contents (Elt F)) :
    (TRef.of main_v36 p q r : TRef sig ⟨S8, .i32⟩).toBuf v = v := rfl
private theorem o_v35 (p q r) (v : (⟨S8, .i32⟩ : BufTy).Contents (Elt F)) :
    (TRef.of main_v35 p q r : TRef sig ⟨S8, .i32⟩).ofBuf v = v := rfl
private theorem o_c8 (p q r) (v : (⟨S_, .i32⟩ : BufTy).Contents (Elt F)) :
    (TRef.of main_c_8 p q r : TRef sig ⟨S_, .i32⟩).ofBuf v = v := rfl
private theorem t_v40 (p q r) (v : (⟨S8, .i32⟩ : BufTy).Contents (Elt F)) :
    (TRef.of main_v40 p q r : TRef sig ⟨S8, .i32⟩).toBuf v = v := rfl
private theorem o_v31 (p q r) (v : (⟨S8, .i32⟩ : BufTy).Contents (Elt F)) :
    (TRef.of main_v31 p q r : TRef sig ⟨S8, .i32⟩).ofBuf v = v := rfl
private theorem t_v43 (p q r) (v : (⟨S8, .i32⟩ : BufTy).Contents (Elt F)) :
    (TRef.of main_v43 p q r : TRef sig ⟨S8, .i32⟩).toBuf v = v := rfl
private theorem o_v38 (p q r) (v : (⟨S8, .i32⟩ : BufTy).Contents (Elt F)) :
    (TRef.of main_v38 p q r : TRef sig ⟨S8, .i32⟩).ofBuf v = v := rfl

variable (m : (ℓ : Loc nD τ sig) → Buf (Elt F) ℓ)

set_option maxHeartbeats 4000000 in
set_option maxRecDepth 65536 in
/-- The tiles' relation table is the last integer stage. -/
theorem V_main_v97 (c : Dev nD) :
    (V m c main_v97 : S72.Idx → BitVec 32) = brel (exStarts (pcounts (m ((c : Thread nD τ).loc main_arg2)))) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  simp only [cat17_eq]
  after_results_simp
  simp only [TRef.ofBuf_toBuf, TRef.toBuf_ofBuf, t_v2, o_arg2, t_v36, o_v35, o_c8, t_v40, o_v31, t_v43, o_v38]
  have hm2 : m (c, Proc.tc.devRef main_arg2) = m ((c : Thread nD τ).loc main_arg2) := rfl
  rw [hm2]
  unfold brel exStarts pcounts cums floorDiv10000 counts
  rfl

set_option maxHeartbeats 4000000 in
set_option maxRecDepth 65536 in
/-- The relation weights in the matmul's format. -/
theorem V_main_v1 (c : Dev nD) :
    (V m c main_v1 : Vec F S8x128x128 .bf16) = truncf .bf16 (m ((c : Thread nD τ).loc main_arg1)) bitsLt_bf16_f32 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp

set_option maxHeartbeats 4000000 in
set_option maxRecDepth 65536 in
/-- The padded feature rows. -/
theorem V_main_v77 (c : Dev nD) :
    (V m c main_v77 : Vec F S720000x128 .bf16)
      = xpad (truncf .bf16 (m ((c : Thread nD τ).loc main_arg0)) bitsLt_bf16_f32)
          (m ((c : Thread nD τ).loc main_arg2)) (m ((c : Thread nD τ).loc main_arg3)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  simp only [cat17_eq]
  after_results_simp
  simp only [TRef.ofBuf_toBuf, TRef.toBuf_ofBuf, t_v2, o_arg2, t_v36, o_v35, o_c8, t_v40, o_v31, t_v43, o_v38]
  have hm0 : m (c, Proc.tc.devRef main_arg0) = m ((c : Thread nD τ).loc main_arg0) := rfl
  have hm2 : m (c, Proc.tc.devRef main_arg2) = m ((c : Thread nD τ).loc main_arg2) := rfl
  have hm3 : m (c, Proc.tc.devRef main_arg3) = m ((c : Thread nD τ).loc main_arg3) := rfl
  rw [hm0, hm2, hm3]
  unfold xpad xg destW atRel sorted wrapCol perm exStarts pcounts cums floorDiv10000 counts
  rfl

set_option maxHeartbeats 4000000 in
set_option maxRecDepth 65536 in
/-- The padded destination ids. -/
theorem V_main_v85 (c : Dev nD) :
    (V m c main_v85 : S720000.Idx → BitVec 32)
      = dpad (m ((c : Thread nD τ).loc main_arg2)) (m ((c : Thread nD τ).loc main_arg4)) := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  simp only [cat17_eq]
  after_results_simp
  simp only [TRef.ofBuf_toBuf, TRef.toBuf_ofBuf, t_v2, o_arg2, t_v36, o_v35, o_c8, t_v40, o_v31, t_v43, o_v38]
  have hm2 : m (c, Proc.tc.devRef main_arg2) = m ((c : Thread nD τ).loc main_arg2) := rfl
  have hm4 : m (c, Proc.tc.devRef main_arg4) = m ((c : Thread nD τ).loc main_arg4) := rfl
  rw [hm2, hm4]
  unfold dpad destW atRel sorted wrapCol perm exStarts pcounts cums floorDiv10000 counts
  rfl

end Cert.KernelIdeal.KStagesEq

end
-- ==== Proof.OkIdeal.lean ====
/-
  The grouped matmul's side condition on its table holds for every input: a tile's relation word is the number of slab
  starts at or before the tile's first row, less one; the first slab starts at row zero, so the number is between one
  and eight, and the word names one of the eight weight matrices. The one-matrix block it selects is whole rows of the
  16-bit weights, an even number of them.
-/
import proofs.«407377_j54400055771236_3_alg».proof.Proof.KStagesEq
import proofs.«407377_j54400055771236_3_alg».proof.Proof.KLayout
import Idealize.ShloMosaic.Lib.Affine

set_option maxRecDepth 16384

noncomputable section

namespace Cert.KernelIdeal.OkOfPre

open Cert.KernelIdeal Cert.KernelIdeal.Gen Cert.KernelIdeal.KStages
open Idealize.ShloMosaic Idealize.ShloMosaic.TcCoe Idealize.SL.Sem Idealize.ShloMosaic.ValueIdx

variable {F : FTy → Type} [FloatOps F]
variable (m : (ℓ : Loc nD τ sig) → Buf (Elt F) ℓ)

/-- Every word of the table is below 8. -/
theorem tbl_lt (x : S72.Idx) : (tbl m 0 x).toNat < 8 := by
  have h : (tbl m 0 : S72.Idx → BitVec 32) = brel (exStarts (pcounts (m (((0 : Dev nD) : Thread nD τ).loc main_arg2)))) :=
    Cert.KernelIdeal.KStagesEq.V_main_v97 m 0
  rw [h, eq_ix1 x]
  exact Cert.KernelIdeal.KLayout.brel_ok _ _

/-- The side condition of the table, for every launch memory. -/
theorem ok : Ok m := by
  intro i
  obtain ⟨w, hw, e⟩ : ∃ w : BitVec 32, w.toNat < 8 ∧ cc0_transform_1 k0_off1_inb numel1_S1 (tbl m) i = ![w.toNat, 0, 0] :=
    ⟨_, tbl_lt m _, rfl⟩
  refine ⟨fun a => ?_, .inr (Affine.block_words_dvd (of_decide_eq_true rfl) (by decide))⟩
  rw [e]
  fin_cases a <;> simp [S1x128x128, S8x128x128] <;> omega

end Cert.KernelIdeal.OkOfPre

end
-- ==== Proof.KernelValue.lean ====
/-
  What the idealized kernel's run leaves. The grouped matmul writes, tile by tile, each block of 10000 padded rows times
  the one weight matrix its tile's table word names; the rows of the whole message array are therefore each padded row
  times the matrix of its tile. The operations after the call add those rows into their destination rows and add the
  node features.
-/
import proofs.«407377_j54400055771236_3_alg».proof.Proof.Gen.KernelIdeal.Frame
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.KValue

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The padded feature rows, the relation weights, the tiles' relation table and the padded destination ids as the
    grouped matmul finds them, each at its literal type. -/
abbrev xpK (c : Dev nD) : S720000x128.Idx → EReal := V m c main_v77
abbrev wbK (c : Dev nD) : S8x128x128.Idx → EReal := V m c main_v1
abbrev tblK (c : Dev nD) : S72.Idx → BitVec 32 := V m c main_v97
abbrev dpK (c : Dev nD) : S720000.Idx → BitVec 32 := V m c main_v85

/-- The message array the run leaves: the output window's array after every write-back. -/
private abbrev msgsK (hO : Ok m) (c : Dev nD) : FVec Ideal S720000x128 .f32 := (dats m hO 0 c).arrAt 2 (cfgM m hO).N

/-- After the eight operations that follow the call, the result buffer holds the node features times one plus the
    message array summed into the destination rows: each operation read at its own result, the call's output array
    where the run left it, the features and the destination ids where the call found them. -/
private theorem tail_eq (hO : Ok m) (c : Dev nD) :
    Pipeline.afterTail pcfgs (fun _ => adm m hO) (dats m hO) 0 (V0 m) [hostOps1] c main_v104
      = addf (mulf (broadcastInDim S50000x128 ![] bcast_S_S50000x128 (constant S_ .f32 0x3F800000#32))
                  (m ((c.tc : Thread nD τ).loc main_arg0)))
                (Host.scatterAdd scatter_S50000x128_S720000x1_S720000x128_1_0_0_1
                  (broadcastInDim S50000x128 ![] bcast_S_S50000x128 (constant S_ .f32 0x00000000#32))
                  (broadcastInDim S720000x1 ![0] bcast_S720000_S720000x1_0 (dpK m c))
                  (msgsK m hO c)) := by
  unfold Pipeline.afterTail
  show StableHlo.after hostOps1 _ (Proc.devRef .tc main_v104) = _
  after_results
  rw [Pipeline.withArrays_of_ne _ c (V0 m c) _ main_arg0 (by exact (by decide : ∀ w, Pipeline.arrRef spec0 w ≠ main_arg0)),
    Pipeline.withArrays_of_ne _ c (V0 m c) _ main_v85 (by exact (by decide : ∀ w, Pipeline.arrRef spec0 w ≠ main_v85)),
    Pipeline.withArrays_arr spec0 (launch0 (F := Ideal)).win.arr_inj c _ _ 2]
  rw [show V0 m c (Proc.devRef .tc main_arg0) = m ((c.tc : Thread nD τ).loc main_arg0) from V_main_arg0 m c]

/-- The zero offsets of a whole-block access, as the constant function. -/
private theorem hz3 : (![0, 0, 0] : Fin 3 → Nat) = fun _ => 0 := funext fun a => by fin_cases a <;> rfl
private theorem hz2 : (![0, 0] : Fin 2 → Nat) = fun _ => 0 := funext fun a => by fin_cases a <;> rfl

/-- The body stores one piece, over the whole output block: the product of the row block and the weight block. -/
private theorem out_eq {F : FTy → Type} [FloatOps F] (c : Dev nD) (i : grid0.Coords) (arg2 : Memref sig .tc .vmem S10000x128 .bf16) (harg2 : arg2.IsWhole) (arg3 : Memref sig .tc .vmem S1x128x128 .bf16) (harg3 : arg3.IsWhole) (arg4 : Memref sig .tc .vmem S10000x128 .f32) (harg4 : arg4.IsWhole)
    (x0 : Vec F S10000x128 .bf16) (x1 : Vec F S1x128x128 .bf16) (xt0 : TbBuf0 (F := F) c tbM0_0) :
    out0_A_2 c i arg2 harg2 arg3 harg3 arg4 harg4 x0 x1 xt0 = k0_pay1 x0 x1 := by
  unfold out0_A_2
  rw [View.read_writes_eq_canon _ _ _ (cover0_A_2 c i arg2 harg2 arg3 harg3 arg4 harg4 x0 x1 xt0)]
  unfold kernelRun0_A
  dsimp only
  sl_unfold_words
  rw [View.canon_unit_zero hz2]
  simp only [View.readAt_eq_ld, harg2.read_unread, harg3.read_unread, View.ld_unit_zero (S := S10000x128) hz2, View.ld_unit_zero (S := S1x128x128) hz3]

/-- The product's index functions, axis by axis: the left operand is read at (row, k), the right at (k, column). -/
private theorem lhsK_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
private theorem lhsK_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
private theorem rhsK_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
private theorem rhsK_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The one weight matrix of a block, as the 128 × 128 matrix the product takes. -/
private theorem wcast_apply (x1 : Vec Ideal S1x128x128 .bf16) (k j : Fin 128) :
    shapeCast S128x128 x1 shapeCasts_S1x128x128_S128x128 (ix2 k j) = x1 (ix3 (0 : Fin 1) k j) :=
  shapeCast_apply x1 shapeCasts_S1x128x128_S128x128 (ix2 k j) (ix3 (0 : Fin 1) k j)
    (by rewrite [Shape.rowMajor_val_three, Shape.rowMajor_val_two]; have h0 : k.val < 128 := k.isLt; have h1 : j.val < 128 := j.isLt; show (0 * 128 + k.val) * 128 + j.val = k.val * 128 + j.val; omega)

/-- The body's payload at row y, column j: the row of the row block times the column of the weight block. -/
private theorem pay_apply (x0 : Vec Ideal S10000x128 .bf16) (x1 : Vec Ideal S1x128x128 .bf16) (y : Fin 10000) (j : Fin 128) :
    k0_pay1 (F := Ideal) x0 x1 (ix2 y j) = ∑ k : Fin 128, x0 (ix2 y k) * x1 (ix3 (0 : Fin 1) k j) := by
  unfold k0_pay1
  refine (Ideal.matmul_constant_zero_apply dot_S10000x128_S128x128_S10000x128_1_0_0_1_n_n none _ _ (ix2 y j)).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 y j) ((ValueIdx.contrEquiv1 dot_S10000x128_S128x128_S10000x128_1_0_0_1_n_n 128 rfl rfl).symm k) = ix2 y k := funext fun a => Fin.ext (by
    match a with
    | ⟨0, _⟩ => exact lhsK_0 _ _
    | ⟨1, _⟩ => exact (lhsK_1 _ _).trans hk)
  have er : dot_S10000x128_S128x128_S10000x128_1_0_0_1_n_n.rhsIdx (ix2 y j) ((ValueIdx.contrEquiv1 dot_S10000x128_S128x128_S10000x128_1_0_0_1_n_n 128 rfl rfl).symm k) = ix2 k j := funext fun a => Fin.ext (by
    match a with
    | ⟨0, _⟩ => exact (rhsK_0 _ _).trans hk
    | ⟨1, _⟩ => exact rhsK_1 _ _)
  rw [el, er, shapeCast_self, wcast_apply]

/-- The grid has 72 points. -/
private theorem lt72 (t : Fin grid0.N) : t.val < 72 := t.isLt.trans_eq N_0

/-- The grid has one axis: point t has coordinate t, and the index maps of the row windows send it to block (t, 0). -/
private theorem coords_word : ∀ t : Fin grid0.N, BitVec.toNat (Scalar.indexCast (BitVec.ofNat 32 (grid0.coords t 0).val)) = t.val := by decide +kernel
private theorem rows_in : ∀ t : Fin grid0.N, cc0_transform_0 (grid0.coords t) 0 = t.val ∧ cc0_transform_0 (grid0.coords t) 1 = 0 := by decide +kernel
private theorem rows_out : ∀ t : Fin grid0.N, cc0_transform_2 (grid0.coords t) 0 = t.val ∧ cc0_transform_2 (grid0.coords t) 1 = 0 := by decide +kernel

/-- The weight window's index map at point t, at any contents of the table: block (word t, 0, 0). -/
private theorem weight_block (pf : pre0.Contents (Elt Ideal)) (t : Fin grid0.N) :
    cc0_transform_1 k0_off1_inb numel1_S1 pf (grid0.coords t) = ![(pf 0 (ix1 (⟨t.val, lt72 t⟩ : Fin 72))).toNat, 0, 0] := by
  unfold cc0_transform_1
  dsimp only [Pipeline.Prefetch.Contents.at]
  refine congrArg (fun z => ![BitVec.toNat (pf 0 z), 0, 0]) ?_
  funext a
  apply Fin.ext
  match a with
  | ⟨0, _⟩ =>
    show BitVec.toNat (Scalar.indexCast (BitVec.ofNat 32 (grid0.coords t 0).val)) + 1 * 0 = t.val
    rw [coords_word t]; omega

/-- Under the pipeline's side condition every table word names one of the eight matrices. -/
private theorem word_lt (a : (pcfg0 (F := Ideal)).Adm) (t : Fin grid0.N) : (a.1 0 (ix1 (⟨t.val, lt72 t⟩ : Fin 72))).toNat < 8 := by
  obtain ⟨h, -⟩ := a.2 (grid0.coords t)
  have h0 := h 0
  rw [weight_block a.1 t] at h0
  have h1 : ((a.1 0 (ix1 (⟨t.val, lt72 t⟩ : Fin 72))).toNat + 1) * 1 ≤ 8 := h0
  omega

/-- A block of the padded rows holds, at (y, k), the array's row t·10000 + y. -/
private theorem rows_read (a : (pcfg0 (F := Ideal)).Adm) (A : S720000x128.Idx → EReal) (t : Fin (cfg0 a).N) (y : Fin 10000) (k : Fin 128)
    (p : Fin 720000) (hp : p.val = t.val * 10000 + y.val) :
    (((cfg0 a).win 0).blk t).view.read (Elt Ideal) A (ix2 y k) = A (ix2 p k) := by
  show A _ = A _
  refine congrArg A ?_
  funext ax
  apply Fin.ext
  match ax with
  | ⟨0, _⟩ => show cc0_transform_0 (grid0.coords t) 0 * 10000 + 1 * y.val = p.val; rw [(rows_in t).1, hp]; omega
  | ⟨1, _⟩ => show cc0_transform_0 (grid0.coords t) 1 * 128 + 1 * k.val = k.val; rw [(rows_in t).2]; omega

/-- The output block at point t sits at the same rows. -/
private theorem rows_written (a : (pcfg0 (F := Ideal)).Adm) (A : S720000x128.Idx → EReal) (t : Fin (cfg0 a).N) (y : Fin 10000) (j : Fin 128)
    (p : Fin 720000) (hp : p.val = t.val * 10000 + y.val) :
    (((cfg0 a).win 2).blk t).view.read (Elt Ideal) A (ix2 y j) = A (ix2 p j) := by
  show A _ = A _
  refine congrArg A ?_
  funext ax
  apply Fin.ext
  match ax with
  | ⟨0, _⟩ => show cc0_transform_2 (grid0.coords t) 0 * 10000 + 1 * y.val = p.val; rw [(rows_out t).1, hp]; omega
  | ⟨1, _⟩ => show cc0_transform_2 (grid0.coords t) 1 * 128 + 1 * j.val = j.val; rw [(rows_out t).2]; omega

/-- The weight block at point t is the one matrix the table word at t names. -/
private theorem weights_read (a : (pcfg0 (F := Ideal)).Adm) (A : S8x128x128.Idx → EReal) (t : Fin (cfg0 a).N) (k j : Fin 128) (r : Fin 8)
    (hr : (a.1 0 (ix1 (⟨t.val, lt72 t⟩ : Fin 72))).toNat = r.val) :
    (((cfg0 a).win 1).blk t).view.read (Elt Ideal) A (ix3 (0 : Fin 1) k j) = A (ix3 r k j) := by
  show A _ = A _
  refine congrArg A ?_
  have hw := weight_block a.1 t
  funext ax
  apply Fin.ext
  match ax with
  | ⟨0, _⟩ =>
    show cc0_transform_1 k0_off1_inb numel1_S1 a.1 (grid0.coords t) 0 * 1 + 1 * 0 = r.val
    rw [hw]
    show (a.1 0 (ix1 (⟨t.val, lt72 t⟩ : Fin 72))).toNat * 1 + 1 * 0 = r.val
    omega
  | ⟨1, _⟩ =>
    show cc0_transform_1 k0_off1_inb numel1_S1 a.1 (grid0.coords t) 1 * 128 + 1 * k.val = k.val
    rw [hw]
    show 0 * 128 + 1 * k.val = k.val
    omega
  | ⟨2, _⟩ =>
    show cc0_transform_1 k0_off1_inb numel1_S1 a.1 (grid0.coords t) 2 * 128 + 1 * j.val = j.val
    rw [hw]
    show 0 * 128 + 1 * j.val = j.val
    omega

/-- The three blocks at point t of this run: the structural lemmas at the tables' contents the run reads. -/
private theorem iblk_rows (hO : Ok m) (c : Dev nD) (t : Fin (cfgM m hO).N) (y : Fin 10000) (k : Fin 128) (p : Fin 720000)
    (hp : p.val = t.val * 10000 + y.val) :
    (iblk m hO c 0 t : Vec Ideal S10000x128 .bf16) (ix2 y k) = xpK m c (ix2 p k) := by
  unfold iblk
  exact rows_read (adm m hO) (V m c main_v77) t y k p hp

/-- The weight block at point t of this run is the matrix its table word names. -/
private theorem iblk_weights (hO : Ok m) (c : Dev nD) (t : Fin (cfgM m hO).N) (k j : Fin 128) (r : Fin 8)
    (hr : (tbl m 0 (ix1 (⟨t.val, lt72 t⟩ : Fin 72))).toNat = r.val) :
    (iblk m hO c 1 t : Vec Ideal S1x128x128 .bf16) (ix3 (0 : Fin 1) k j) = wbK m c (ix3 r k j) := by
  unfold iblk
  exact weights_read (adm m hO) (V m c main_v1) t k j r hr

/-- The matrix a padded row is multiplied by: the one its tile's table word names (kept among the eight). -/
private def relK (c : Dev nD) (p : Fin 720000) : Fin 8 :=
  ⟨min (tblK m c (ix1 (⟨p.val / 10000, by have := p.isLt; omega⟩ : Fin 72))).toNat 7, Nat.lt_succ_of_le (Nat.min_le_right _ _)⟩

/-- The message array as one function of the arrays the call finds: row p is padded row p times its tile's matrix. -/
private def msgF (c : Dev nD) : S720000x128.Idx → EReal := fun i =>
  ∑ k : Fin 128, xpK m c (ix2 (i 0 : Fin 720000) k) * wbK m c (ix3 (relK m c (i 0)) k (i 1 : Fin 128))

/-- The message array at row p, column j. -/
private theorem msgF_apply (c : Dev nD) (p : Fin 720000) (j : Fin 128) :
    msgF m c (ix2 p j) = ∑ k : Fin 128, xpK m c (ix2 p k) * wbK m c (ix3 (relK m c p) k j) := rfl

/-- Under the side condition the word of p's tile is below eight, so keeping it among the eight changes nothing. -/
private theorem relK_val (hO : Ok m) (c : Dev nD) (p : Fin 720000) (t : Fin grid0.N) (ht : p.val / 10000 = t.val) :
    (tbl m 0 (ix1 (⟨t.val, lt72 t⟩ : Fin 72))).toNat = (relK m c p).val := by
  have hw : (tbl m 0 (ix1 (⟨t.val, lt72 t⟩ : Fin 72))).toNat < 8 := word_lt (adm m hO) t
  have e : (⟨p.val / 10000, by have := p.isLt; omega⟩ : Fin 72) = ⟨t.val, lt72 t⟩ := Fin.ext ht
  unfold relK
  show _ = min (tblK m c (ix1 (⟨p.val / 10000, _⟩ : Fin 72))).toNat 7
  rw [e, show tblK m c = tbl m 0 from V_pre m c 0]
  generalize (tbl m 0 (ix1 (⟨t.val, lt72 t⟩ : Fin 72))).toNat = w at hw ⊢
  omega

/-- What point t writes back is block t of the message array. -/
private theorem flushed_eq (hO : Ok m) (c : Dev nD) (t : Fin (cfgM m hO).N) :
    (dats m hO 0 c).flushed 2 t = (((cfgM m hO).win 2).blk t).view.read (Elt Ideal) (msgF m c) := by
  show ((cfgM m hO).win 2).cut (grid0.coords t) ((dats m hO 0 c).after 2 t) = _
  rw [after0_2]
  unfold outsAt0
  refine funext fun (y : S10000x128.Idx) => ?_
  obtain ⟨y0, y1, rfl⟩ : ∃ (y0 : Fin 10000) (y1 : Fin 128), y = ix2 y0 y1 := ⟨y 0, y 1, eq_ix2 y⟩
  have ht := lt72 t
  have hy := y0.isLt
  rw [rows_written (adm m hO) (msgF m c) t y0 y1 ⟨t.val * 10000 + y0.val, by omega⟩ rfl, msgF_apply]
  show out0_A_2 c (grid0.coords t) (ms0_0 m hO t) (hs0_0 m hO t) (ms0_1 m hO t) (hs0_1 m hO t) (ms0_2 m hO t) (hs0_2 m hO t) (iblk m hO c 0 t) (iblk m hO c 1 t) (tbl m 0) (ix2 y0 y1) = _
  refine (congrFun (out_eq (F := Ideal) c (grid0.coords t) (ms0_0 m hO t) (hs0_0 m hO t) (ms0_1 m hO t) (hs0_1 m hO t) (ms0_2 m hO t) (hs0_2 m hO t) (iblk m hO c 0 t) (iblk m hO c 1 t) (tbl m 0)) (ix2 y0 y1)).trans ?_
  refine (pay_apply (iblk m hO c 0 t) (iblk m hO c 1 t) y0 y1).trans ?_
  refine Finset.sum_congr rfl fun k _ => ?_
  refine congrArg₂ (· * ·) (iblk_rows m hO c t y0 k ⟨t.val * 10000 + y0.val, by omega⟩ rfl)
    (iblk_weights m hO c t k y1 (relK m c ⟨t.val * 10000 + y0.val, by omega⟩)
      (relK_val m hO c ⟨t.val * 10000 + y0.val, by omega⟩ t (by show (t.val * 10000 + y0.val) / 10000 = t.val; omega)))

/-- Every row of the array is in the block of the point its tile is. -/
private theorem covered (a : (pcfg0 (F := Ideal)).Adm) (i : S720000x128.Idx) :
    ∃ t : Fin (cfg0 a).N, ((cfg0 a).win 2).flush t = true ∧ i ∈ (((cfg0 a).win 2).blk t).view.set := by
  have h0 : (i 0).val < 720000 := (i 0).isLt
  have h1 : (i 1).val < 128 := (i 1).isLt
  have hN : grid0.N = 72 := N_0
  have hlt : (i 0).val / 10000 < grid0.N := by omega
  obtain ⟨t, ht⟩ : ∃ t : Fin grid0.N, t.val = (i 0).val / 10000 := ⟨⟨_, hlt⟩, rfl⟩
  refine ⟨t, flush0_2 a t, ?_⟩
  refine (Finset.ext_iff.mp (View.set_slice_whole main_v98 (((cfg0 a).win 2).rect t)) i).mpr ?_
  refine Rect.mem_set_unit.mpr ?_
  obtain ⟨e0, e1⟩ := rows_out t
  intro ax
  match ax with
  | ⟨0, _⟩ =>
    show cc0_transform_2 (grid0.coords t) 0 * 10000 ≤ (i 0).val ∧ (i 0).val < cc0_transform_2 (grid0.coords t) 0 * 10000 + 10000
    rw [e0]; omega
  | ⟨1, _⟩ =>
    show cc0_transform_2 (grid0.coords t) 1 * 128 ≤ (i 1).val ∧ (i 1).val < cc0_transform_2 (grid0.coords t) 1 * 128 + 128
    rw [e1]; omega

/-- So the array the run leaves is the message array. -/
private theorem msgs_eq (hO : Ok m) (c : Dev nD) : msgsK m hO c = msgF m c :=
  (dats m hO 0 c).arrAt_eq_of_cover 2 (msgF m c) (fun t _ => flushed_eq m hO c t) (covered (adm m hO))

/-- The run of the idealized kernel, with the message array named: the result is the node features times one plus the
    messages summed into their destination rows, and message row p is padded row p times the weight matrix of p's tile. -/
theorem kernel_value (hO : Ok m) :
    ∃ msgs : Dev nD → FVec Ideal S720000x128 .f32,
      θ_run defs (onTc (τ := τ) (main (F := Ideal))) ⟨m, fun _ => 0, ρ⟩ (fun r => ∀ c : Dev nD,
          r.2.mem ((c.tc : Thread nD τ).loc main_v104)
            = addf (mulf (broadcastInDim S50000x128 ![] bcast_S_S50000x128 (constant S_ .f32 0x3F800000#32))
                  (m ((c.tc : Thread nD τ).loc main_arg0)))
                (Host.scatterAdd scatter_S50000x128_S720000x1_S720000x128_1_0_0_1
                  (broadcastInDim S50000x128 ![] bcast_S_S50000x128 (constant S_ .f32 0x00000000#32))
                  (broadcastInDim S720000x1 ![0] bcast_S720000_S720000x1_0 (dpK m c))
                  (msgs c))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4))
      ∧ ∀ (c : Dev nD) (p : Fin 720000) (j : Fin 128) (r : Fin 8),
          (tblK m c (ix1 (⟨p.val / 10000, by have := p.isLt; omega⟩ : Fin 72))).toNat = r.val →
          msgs c (ix2 p j)
            = ∑ k : Fin 128, xpK m c (ix2 p k) * wbK m c (ix3 r k j) := by
  refine ⟨fun c => msgsK m hO c, ?_, fun c p j r hr => ?_⟩
  · exact (θ_run defs _ _).mono (fun _ h c =>
      ⟨((h c).2 main_v104 (by decide : main_v104 ∈ Pipeline.restRefs sig spec0)).trans (tail_eq m hO c),
        ((h c).2 main_arg0 (by decide : main_arg0 ∈ Pipeline.restRefs sig spec0)).trans (W_main_arg0 m hO (dats m hO) c),
        ((h c).2 main_arg1 (by decide : main_arg1 ∈ Pipeline.restRefs sig spec0)).trans (W_main_arg1 m hO (dats m hO) c),
        ((h c).2 main_arg2 (by decide : main_arg2 ∈ Pipeline.restRefs sig spec0)).trans (W_main_arg2 m hO (dats m hO) c),
        ((h c).2 main_arg3 (by decide : main_arg3 ∈ Pipeline.restRefs sig spec0)).trans (W_main_arg3 m hO (dats m hO) c),
        ((h c).2 main_arg4 (by decide : main_arg4 ∈ Pipeline.restRefs sig spec0)).trans (W_main_arg4 m hO (dats m hO) c)⟩)
      (run_main m ρ hO)
  · show msgsK m hO c (ix2 p j) = _
    rw [msgs_eq, msgF_apply]
    have e : relK m c p = r := Fin.ext (by
      have hr8 := r.isLt
      unfold relK
      show min (tblK m c (ix1 (⟨p.val / 10000, _⟩ : Fin 72))).toNat 7 = r.val
      rw [hr]; omega)
    rw [e]

end Cert.KernelIdeal.KValue

end
-- ==== Proof.RefValue.lean ====
/-
  The reference's value. Eight relation passes, each a masked copy of the gathered source rows times one relation's
  weight matrix, are accumulated from zero: an edge's accumulated message is its source row times the matrix of ITS
  relation, since in every other pass its row is masked to zero and a zero row times a matrix is zero. The messages are
  then summed into their destination rows and added to the node features times one.
-/
import proofs.«407377_j54400055771236_3_alg».proof.Defs
import proofs.«407377_j54400055771236_3_alg».proof.Proof.Gen.ReferenceIdeal.Read
import proofs.«407377_j54400055771236_3_alg».proof.Proof.Spec
import proofs.«407377_j54400055771236_3_alg».proof.Proof.LibGatherScatter

open scoped BigOperators

noncomputable section

namespace Cert.ReferenceIdeal.RefValue

open Cert.ReferenceIdeal Cert.ReferenceIdeal.Gen Cert.Spec
open Idealize.ShloMosaic Idealize.ShloMosaic.TcCoe Idealize.SL.Sem Idealize.ShloMosaic.ValueIdx

/-- The accumulated messages, one row per edge: the last of the eight sums. -/
def msgR (feat : FVec Ideal S50000x128 .f32) (W : FVec Ideal S8x128x128 .f32) (ety src : IVec S640000 32) :
    FVec Ideal S640000x128 .f32 :=
  Cert.ReferenceIdeal.Read.val_main_v71 (F := Ideal) feat W ety src

/-- The reference run's result term: the node features times one plus the messages summed into their destination rows. -/
theorem res_eq (m : (ℓ : Loc nD τ sig) → Buf (Elt Ideal) ℓ) (c : Dev nD) :
    Cert.ReferenceIdeal.Value.res_main_v77 (F := Ideal) m c
      = addf (mulf (broadcastInDim S50000x128 ![] bcast_S_S50000x128 (constant S_ .f32 0x3F800000#32))
            (m ((c.tc : Thread nD τ).loc main_arg0)))
          (Host.scatterAdd scatter_S50000x128_S640000x1_S640000x128_1_0_0_1
            (broadcastInDim S50000x128 ![] bcast_S_S50000x128 (constant S_ .f32 0x00000000#32))
            (broadcastInDim S640000x1 ![0] bcast_S640000_S640000x1_0 (m ((c.tc : Thread nD τ).loc main_arg4)))
            (msgR (m ((c.tc : Thread nD τ).loc main_arg0)) (m ((c.tc : Thread nD τ).loc main_arg1))
              (m ((c.tc : Thread nD τ).loc main_arg2)) (m ((c.tc : Thread nD τ).loc main_arg3)))) := by
  rw [Read.val_main_v77_eq]
  unfold Read.val_main_v77 Read.val_main_v76 Read.val_main_v75 Read.val_main_v74 Read.val_main_v73 Read.val_main_v72
    Read.val_main_cst_17 Read.val_main_cst_18 msgR
  rfl

/-- A masked row times a column: the whole dot product when the relation word is the pass's, zero otherwise. -/
private theorem sum_select_mul (w c : BitVec 32) (x y : Fin 128 → EReal) :
    (∑ k : Fin 128, Scalar.select (IntOp.cmpi .eq w c) (x k) 0 * y k) = if w = c then ∑ k : Fin 128, x k * y k else 0 := by
  by_cases h : w = c
  · have h1 : IntOp.cmpi .eq w c = 1#1 := StableHlo.Predicate.cmpi_eq_iff.mpr h
    simp only [h1, select_one, if_pos h]
  · have h0 : IntOp.cmpi .eq w c = 0#1 := eq_zero_of_ne_one (fun h' => h (StableHlo.Predicate.cmpi_eq_iff.mp h'))
    simp only [h0, select_zero, zero_mul, Finset.sum_const_zero, if_neg h]

/-- The gathered source rows. -/
private abbrev gath (feat : FVec Ideal S50000x128 .f32) (src : IVec S640000 32) : FVec Ideal S640000x128 .f32 :=
  Read.val_main_v6 (F := Ideal) feat src

/-- Relation r's dot product for edge e, column j. -/
private abbrev relDot (feat : FVec Ideal S50000x128 .f32) (W : FVec Ideal S8x128x128 .f32) (src : IVec S640000 32)
    (r : Fin 8) (e : Fin 640000) (j : Fin 128) : EReal :=
  ∑ k : Fin 128, gath feat src (ix2 e k) * W (ix3 r k j)

/-- Pass 0 at (e, j): relation 0's dot product if the edge's relation word is 0, zero otherwise. -/
private theorem pass0 (feat : FVec Ideal S50000x128 .f32) (W : FVec Ideal S8x128x128 .f32) (ety src : IVec S640000 32)
    (e : Fin 640000) (j : Fin 128) :
    Read.val_main_v14 (F := Ideal) feat W ety src (ix2 e j)
      = if ety (ix1 e) = 0#32 then relDot feat W src 0 e j else 0 := by
  rw [Read.val_main_v14_apply, ← sum_select_mul]
  refine Finset.sum_congr rfl fun k _ => ?_
  have hl : Read.lidx_main_v14 (ix2 e j) k = ix2 e k :=
    funext fun a => Fin.ext (by match a with | ⟨0, _⟩ => rfl | ⟨1, _⟩ => rfl)
  have hm : Read.idx_main_v10 (Read.idx_main_call0_v1 (ix2 e k)) = ix1 e :=
    funext fun a => Fin.ext (by match a with | ⟨0, _⟩ => rfl)
  have hw : Read.idx_main_v12 (Read.idx_main_v13 (Read.ridx_main_v14 (ix2 e j) k)) = ix3 (0 : Fin 8) k j :=
    funext fun a => Fin.ext (by
      have hk := k.isLt
      have hj := j.isLt
      match a with
      | ⟨0, _⟩ => rfl
      | ⟨1, _⟩ => show (k.val * 128 + j.val) / 128 % 128 = k.val; omega
      | ⟨2, _⟩ => show (k.val * 128 + j.val) % 128 = j.val; omega)
  rw [hl, Read.val_main_v11_apply, Read.val_main_call0_v1_apply, Read.val_main_v10_apply, Read.val_main_v9_apply,
    Read.val_main_v8_apply, Read.val_main_c_1_apply, Read.val_main_call0_v2_apply, Read.val_main_call0_v0_apply,
    Read.val_main_cst_2_apply, Read.val_main_v13_apply, Read.val_main_v12_apply, hm, hw, Ideal.ofBits_def,
    Ideal.ofBits_zero_f32]

/-- Pass 1 at (e, j): relation 1's dot product if the edge's relation word is 1, zero otherwise. -/
private theorem pass1 (feat : FVec Ideal S50000x128 .f32) (W : FVec Ideal S8x128x128 .f32) (ety src : IVec S640000 32)
    (e : Fin 640000) (j : Fin 128) :
    Read.val_main_v22 (F := Ideal) feat W ety src (ix2 e j)
      = if ety (ix1 e) = 1#32 then relDot feat W src 1 e j else 0 := by
  rw [Read.val_main_v22_apply, ← sum_select_mul]
  refine Finset.sum_congr rfl fun k _ => ?_
  have hl : Read.lidx_main_v22 (ix2 e j) k = ix2 e k :=
    funext fun a => Fin.ext (by match a with | ⟨0, _⟩ => rfl | ⟨1, _⟩ => rfl)
  have hm : Read.idx_main_v18 (Read.idx_main_call1_v1 (ix2 e k)) = ix1 e :=
    funext fun a => Fin.ext (by match a with | ⟨0, _⟩ => rfl)
  have hw : Read.idx_main_v20 (Read.idx_main_v21 (Read.ridx_main_v22 (ix2 e j) k)) = ix3 (1 : Fin 8) k j :=
    funext fun a => Fin.ext (by
      have hk := k.isLt
      have hj := j.isLt
      match a with
      | ⟨0, _⟩ => rfl
      | ⟨1, _⟩ => show (k.val * 128 + j.val) / 128 % 128 = k.val; omega
      | ⟨2, _⟩ => show (k.val * 128 + j.val) % 128 = j.val; omega)
  rw [hl, Read.val_main_v19_apply, Read.val_main_call1_v1_apply, Read.val_main_v18_apply, Read.val_main_v17_apply,
    Read.val_main_v16_apply, Read.val_main_c_3_apply, Read.val_main_call1_v2_apply, Read.val_main_call1_v0_apply,
    Read.val_main_cst_4_apply, Read.val_main_v21_apply, Read.val_main_v20_apply, hm, hw, Ideal.ofBits_def,
    Ideal.ofBits_zero_f32]

/-- Pass 2 at (e, j): relation 2's dot product if the edge's relation word is 2, zero otherwise. -/
private theorem pass2 (feat : FVec Ideal S50000x128 .f32) (W : FVec Ideal S8x128x128 .f32) (ety src : IVec S640000 32)
    (e : Fin 640000) (j : Fin 128) :
    Read.val_main_v30 (F := Ideal) feat W ety src (ix2 e j)
      = if ety (ix1 e) = 2#32 then relDot feat W src 2 e j else 0 := by
  rw [Read.val_main_v30_apply, ← sum_select_mul]
  refine Finset.sum_congr rfl fun k _ => ?_
  have hl : Read.lidx_main_v30 (ix2 e j) k = ix2 e k :=
    funext fun a => Fin.ext (by match a with | ⟨0, _⟩ => rfl | ⟨1, _⟩ => rfl)
  have hm : Read.idx_main_v26 (Read.idx_main_call2_v1 (ix2 e k)) = ix1 e :=
    funext fun a => Fin.ext (by match a with | ⟨0, _⟩ => rfl)
  have hw : Read.idx_main_v28 (Read.idx_main_v29 (Read.ridx_main_v30 (ix2 e j) k)) = ix3 (2 : Fin 8) k j :=
    funext fun a => Fin.ext (by
      have hk := k.isLt
      have hj := j.isLt
      match a with
      | ⟨0, _⟩ => rfl
      | ⟨1, _⟩ => show (k.val * 128 + j.val) / 128 % 128 = k.val; omega
      | ⟨2, _⟩ => show (k.val * 128 + j.val) % 128 = j.val; omega)
  rw [hl, Read.val_main_v27_apply, Read.val_main_call2_v1_apply, Read.val_main_v26_apply, Read.val_main_v25_apply,
    Read.val_main_v24_apply, Read.val_main_c_5_apply, Read.val_main_call2_v2_apply, Read.val_main_call2_v0_apply,
    Read.val_main_cst_6_apply, Read.val_main_v29_apply, Read.val_main_v28_apply, hm, hw, Ideal.ofBits_def,
    Ideal.ofBits_zero_f32]

/-- Pass 3 at (e, j): relation 3's dot product if the edge's relation word is 3, zero otherwise. -/
private theorem pass3 (feat : FVec Ideal S50000x128 .f32) (W : FVec Ideal S8x128x128 .f32) (ety src : IVec S640000 32)
    (e : Fin 640000) (j : Fin 128) :
    Read.val_main_v38 (F := Ideal) feat W ety src (ix2 e j)
      = if ety (ix1 e) = 3#32 then relDot feat W src 3 e j else 0 := by
  rw [Read.val_main_v38_apply, ← sum_select_mul]
  refine Finset.sum_congr rfl fun k _ => ?_
  have hl : Read.lidx_main_v38 (ix2 e j) k = ix2 e k :=
    funext fun a => Fin.ext (by match a with | ⟨0, _⟩ => rfl | ⟨1, _⟩ => rfl)
  have hm : Read.idx_main_v34 (Read.idx_main_call3_v1 (ix2 e k)) = ix1 e :=
    funext fun a => Fin.ext (by match a with | ⟨0, _⟩ => rfl)
  have hw : Read.idx_main_v36 (Read.idx_main_v37 (Read.ridx_main_v38 (ix2 e j) k)) = ix3 (3 : Fin 8) k j :=
    funext fun a => Fin.ext (by
      have hk := k.isLt
      have hj := j.isLt
      match a with
      | ⟨0, _⟩ => rfl
      | ⟨1, _⟩ => show (k.val * 128 + j.val) / 128 % 128 = k.val; omega
      | ⟨2, _⟩ => show (k.val * 128 + j.val) % 128 = j.val; omega)
  rw [hl, Read.val_main_v35_apply, Read.val_main_call3_v1_apply, Read.val_main_v34_apply, Read.val_main_v33_apply,
    Read.val_main_v32_apply, Read.val_main_c_7_apply, Read.val_main_call3_v2_apply, Read.val_main_call3_v0_apply,
    Read.val_main_cst_8_apply, Read.val_main_v37_apply, Read.val_main_v36_apply, hm, hw, Ideal.ofBits_def,
    Ideal.ofBits_zero_f32]

/-- Pass 4 at (e, j): relation 4's dot product if the edge's relation word is 4, zero otherwise. -/
private theorem pass4 (feat : FVec Ideal S50000x128 .f32) (W : FVec Ideal S8x128x128 .f32) (ety src : IVec S640000 32)
    (e : Fin 640000) (j : Fin 128) :
    Read.val_main_v46 (F := Ideal) feat W ety src (ix2 e j)
      = if ety (ix1 e) = 4#32 then relDot feat W src 4 e j else 0 := by
  rw [Read.val_main_v46_apply, ← sum_select_mul]
  refine Finset.sum_congr rfl fun k _ => ?_
  have hl : Read.lidx_main_v46 (ix2 e j) k = ix2 e k :=
    funext fun a => Fin.ext (by match a with | ⟨0, _⟩ => rfl | ⟨1, _⟩ => rfl)
  have hm : Read.idx_main_v42 (Read.idx_main_call4_v1 (ix2 e k)) = ix1 e :=
    funext fun a => Fin.ext (by match a with | ⟨0, _⟩ => rfl)
  have hw : Read.idx_main_v44 (Read.idx_main_v45 (Read.ridx_main_v46 (ix2 e j) k)) = ix3 (4 : Fin 8) k j :=
    funext fun a => Fin.ext (by
      have hk := k.isLt
      have hj := j.isLt
      match a with
      | ⟨0, _⟩ => rfl
      | ⟨1, _⟩ => show (k.val * 128 + j.val) / 128 % 128 = k.val; omega
      | ⟨2, _⟩ => show (k.val * 128 + j.val) % 128 = j.val; omega)
  rw [hl, Read.val_main_v43_apply, Read.val_main_call4_v1_apply, Read.val_main_v42_apply, Read.val_main_v41_apply,
    Read.val_main_v40_apply, Read.val_main_c_9_apply, Read.val_main_call4_v2_apply, Read.val_main_call4_v0_apply,
    Read.val_main_cst_10_apply, Read.val_main_v45_apply, Read.val_main_v44_apply, hm, hw, Ideal.ofBits_def,
    Ideal.ofBits_zero_f32]

/-- Pass 5 at (e, j): relation 5's dot product if the edge's relation word is 5, zero otherwise. -/
private theorem pass5 (feat : FVec Ideal S50000x128 .f32) (W : FVec Ideal S8x128x128 .f32) (ety src : IVec S640000 32)
    (e : Fin 640000) (j : Fin 128) :
    Read.val_main_v54 (F := Ideal) feat W ety src (ix2 e j)
      = if ety (ix1 e) = 5#32 then relDot feat W src 5 e j else 0 := by
  rw [Read.val_main_v54_apply, ← sum_select_mul]
  refine Finset.sum_congr rfl fun k _ => ?_
  have hl : Read.lidx_main_v54 (ix2 e j) k = ix2 e k :=
    funext fun a => Fin.ext (by match a with | ⟨0, _⟩ => rfl | ⟨1, _⟩ => rfl)
  have hm : Read.idx_main_v50 (Read.idx_main_call5_v1 (ix2 e k)) = ix1 e :=
    funext fun a => Fin.ext (by match a with | ⟨0, _⟩ => rfl)
  have hw : Read.idx_main_v52 (Read.idx_main_v53 (Read.ridx_main_v54 (ix2 e j) k)) = ix3 (5 : Fin 8) k j :=
    funext fun a => Fin.ext (by
      have hk := k.isLt
      have hj := j.isLt
      match a with
      | ⟨0, _⟩ => rfl
      | ⟨1, _⟩ => show (k.val * 128 + j.val) / 128 % 128 = k.val; omega
      | ⟨2, _⟩ => show (k.val * 128 + j.val) % 128 = j.val; omega)
  rw [hl, Read.val_main_v51_apply, Read.val_main_call5_v1_apply, Read.val_main_v50_apply, Read.val_main_v49_apply,
    Read.val_main_v48_apply, Read.val_main_c_11_apply, Read.val_main_call5_v2_apply, Read.val_main_call5_v0_apply,
    Read.val_main_cst_12_apply, Read.val_main_v53_apply, Read.val_main_v52_apply, hm, hw, Ideal.ofBits_def,
    Ideal.ofBits_zero_f32]

/-- Pass 6 at (e, j): relation 6's dot product if the edge's relation word is 6, zero otherwise. -/
private theorem pass6 (feat : FVec Ideal S50000x128 .f32) (W : FVec Ideal S8x128x128 .f32) (ety src : IVec S640000 32)
    (e : Fin 640000) (j : Fin 128) :
    Read.val_main_v62 (F := Ideal) feat W ety src (ix2 e j)
      = if ety (ix1 e) = 6#32 then relDot feat W src 6 e j else 0 := by
  rw [Read.val_main_v62_apply, ← sum_select_mul]
  refine Finset.sum_congr rfl fun k _ => ?_
  have hl : Read.lidx_main_v62 (ix2 e j) k = ix2 e k :=
    funext fun a => Fin.ext (by match a with | ⟨0, _⟩ => rfl | ⟨1, _⟩ => rfl)
  have hm : Read.idx_main_v58 (Read.idx_main_call6_v1 (ix2 e k)) = ix1 e :=
    funext fun a => Fin.ext (by match a with | ⟨0, _⟩ => rfl)
  have hw : Read.idx_main_v60 (Read.idx_main_v61 (Read.ridx_main_v62 (ix2 e j) k)) = ix3 (6 : Fin 8) k j :=
    funext fun a => Fin.ext (by
      have hk := k.isLt
      have hj := j.isLt
      match a with
      | ⟨0, _⟩ => rfl
      | ⟨1, _⟩ => show (k.val * 128 + j.val) / 128 % 128 = k.val; omega
      | ⟨2, _⟩ => show (k.val * 128 + j.val) % 128 = j.val; omega)
  rw [hl, Read.val_main_v59_apply, Read.val_main_call6_v1_apply, Read.val_main_v58_apply, Read.val_main_v57_apply,
    Read.val_main_v56_apply, Read.val_main_c_13_apply, Read.val_main_call6_v2_apply, Read.val_main_call6_v0_apply,
    Read.val_main_cst_14_apply, Read.val_main_v61_apply, Read.val_main_v60_apply, hm, hw, Ideal.ofBits_def,
    Ideal.ofBits_zero_f32]

/-- Pass 7 at (e, j): relation 7's dot product if the edge's relation word is 7, zero otherwise. -/
private theorem pass7 (feat : FVec Ideal S50000x128 .f32) (W : FVec Ideal S8x128x128 .f32) (ety src : IVec S640000 32)
    (e : Fin 640000) (j : Fin 128) :
    Read.val_main_v70 (F := Ideal) feat W ety src (ix2 e j)
      = if ety (ix1 e) = 7#32 then relDot feat W src 7 e j else 0 := by
  rw [Read.val_main_v70_apply, ← sum_select_mul]
  refine Finset.sum_congr rfl fun k _ => ?_
  have hl : Read.lidx_main_v70 (ix2 e j) k = ix2 e k :=
    funext fun a => Fin.ext (by match a with | ⟨0, _⟩ => rfl | ⟨1, _⟩ => rfl)
  have hm : Read.idx_main_v66 (Read.idx_main_call7_v1 (ix2 e k)) = ix1 e :=
    funext fun a => Fin.ext (by match a with | ⟨0, _⟩ => rfl)
  have hw : Read.idx_main_v68 (Read.idx_main_v69 (Read.ridx_main_v70 (ix2 e j) k)) = ix3 (7 : Fin 8) k j :=
    funext fun a => Fin.ext (by
      have hk := k.isLt
      have hj := j.isLt
      match a with
      | ⟨0, _⟩ => rfl
      | ⟨1, _⟩ => show (k.val * 128 + j.val) / 128 % 128 = k.val; omega
      | ⟨2, _⟩ => show (k.val * 128 + j.val) % 128 = j.val; omega)
  rw [hl, Read.val_main_v67_apply, Read.val_main_call7_v1_apply, Read.val_main_v66_apply, Read.val_main_v65_apply,
    Read.val_main_v64_apply, Read.val_main_c_15_apply, Read.val_main_call7_v2_apply, Read.val_main_call7_v0_apply,
    Read.val_main_cst_16_apply, Read.val_main_v69_apply, Read.val_main_v68_apply, hm, hw, Ideal.ofBits_def,
    Ideal.ofBits_zero_f32]

/-- The wrapped source word of edge e, as the reference computes it column-wise. -/
private theorem wrapped_apply (src : IVec S640000 32) (e : Fin 640000) :
    Read.val_main_v5 (F := Ideal) src (StableHlo.Predicate.ixP e) = wrapWord 50000#32 (src (ix1 e)) := by
  have hi : Read.idx_main_v5 (StableHlo.Predicate.ixP e) = ix1 e :=
    funext fun a => Fin.ext (by match a with | ⟨0, _⟩ => rfl)
  rw [Read.val_main_v5_apply, Read.val_main_v4_apply, Read.val_main_v1_apply, Read.val_main_v0_apply,
    Read.val_main_c_apply, Read.val_main_v3_apply, Read.val_main_v2_apply, Read.val_main_c_0_apply, hi]
  unfold wrapWord Scalar.select IntOp.cmpi IntOp.addi
  generalize (src (ix1 e)).slt 0#32 = b
  cases b <;> rfl

/-- The gathered row of edge e is the node-feature row its source word names. -/
private theorem gath_apply (feat : FVec Ideal S50000x128 .f32) (src : IVec S640000 32) (e : Fin 640000) (k : Fin 128) :
    gath feat src (ix2 e k) = feat (ix2 (rowOf (src (ix1 e))) k) := by
  show Host.gather gather_S50000x128_S640000x1_S640000x128_1_0_n_n_0_1_1128 feat (Read.val_main_v5 (F := Ideal) src) (ix2 e k) = _
  rw [RowOps.gather_rows gather_S50000x128_S640000x1_S640000x128_1_0_n_n_0_1_1128 rfl rfl rfl rfl rfl rfl feat
    (Read.val_main_v5 (F := Ideal) src) e k (by omega)]
  congr 2
  apply Fin.ext
  show min (Read.val_main_v5 (F := Ideal) src (StableHlo.Predicate.ixP e)).toInt.toNat (50000 - 1)
    = min (wrapWord 50000#32 (src (ix1 e))).toInt.toNat 49999
  rw [wrapped_apply]

/-- A 32-bit word equals the small literal r exactly when it reads as r. -/
private theorem word_eq_iff (w : BitVec 32) (r : Nat) (hr : r < 2 ^ 32) : w = BitVec.ofNat 32 r ↔ w.toNat = r := by
  constructor
  · intro h; rw [h, BitVec.toNat_ofNat, Nat.mod_eq_of_lt hr]
  · intro h; apply BitVec.eq_of_toNat_eq; rw [BitVec.toNat_ofNat, h, Nat.mod_eq_of_lt hr]

/-- The eight passes accumulated from zero, at (e, j). -/
private theorem msgR_sum (feat : FVec Ideal S50000x128 .f32) (W : FVec Ideal S8x128x128 .f32) (ety src : IVec S640000 32)
    (e : Fin 640000) (j : Fin 128) :
    msgR feat W ety src (ix2 e j)
      = ((((((((0 + (if ety (ix1 e) = 0#32 then relDot feat W src 0 e j else 0))
          + (if ety (ix1 e) = 1#32 then relDot feat W src 1 e j else 0))
          + (if ety (ix1 e) = 2#32 then relDot feat W src 2 e j else 0))
          + (if ety (ix1 e) = 3#32 then relDot feat W src 3 e j else 0))
          + (if ety (ix1 e) = 4#32 then relDot feat W src 4 e j else 0))
          + (if ety (ix1 e) = 5#32 then relDot feat W src 5 e j else 0))
          + (if ety (ix1 e) = 6#32 then relDot feat W src 6 e j else 0))
          + (if ety (ix1 e) = 7#32 then relDot feat W src 7 e j else 0)) := by
  unfold msgR
  rw [Read.val_main_v71_apply, Read.val_main_v63_apply, Read.val_main_v55_apply, Read.val_main_v47_apply,
    Read.val_main_v39_apply, Read.val_main_v31_apply, Read.val_main_v23_apply, Read.val_main_v15_apply,
    Read.val_main_v7_apply, Read.val_main_cst_apply, pass0, pass1, pass2, pass3, pass4, pass5, pass6, pass7,
    Ideal.ofBits_def, Ideal.ofBits_zero_f32]
  simp only [Ideal.addf_def]

/-- With the relation word in [0, 8), only the edge's own relation's pass survives. -/
private theorem msgR_rel (feat : FVec Ideal S50000x128 .f32) (W : FVec Ideal S8x128x128 .f32) (ety src : IVec S640000 32)
    (e : Fin 640000) (j : Fin 128) (hlt : (ety (ix1 e)).toNat < 8) :
    msgR feat W ety src (ix2 e j) = relDot feat W src (relOf (ety (ix1 e))) e j := by
  rw [msgR_sum]
  obtain ⟨t, ht⟩ : ∃ t, (ety (ix1 e)).toNat = t := ⟨_, rfl⟩
  have hr : relOf (ety (ix1 e)) = ⟨t, by omega⟩ := Fin.ext (by rw [relOf_val hlt]; exact ht)
  rw [hr]
  simp only [word_eq_iff _ 0 (by decide), word_eq_iff _ 1 (by decide), word_eq_iff _ 2 (by decide),
    word_eq_iff _ 3 (by decide), word_eq_iff _ 4 (by decide), word_eq_iff _ 5 (by decide),
    word_eq_iff _ 6 (by decide), word_eq_iff _ 7 (by decide), ht]
  rw [ht] at hlt
  interval_cases t <;> simp <;> rfl

/-- With every relation word in [0, 8), edge e's accumulated message is its source row times its relation's matrix. -/
theorem msgR_apply (feat : FVec Ideal S50000x128 .f32) (W : FVec Ideal S8x128x128 .f32) (ety src : IVec S640000 32)
    (hty : ∀ e : Fin 640000, (ety (ix1 e)).toNat < 8) (e : Fin 640000) (j : Fin 128) :
    msgR feat W ety src (ix2 e j) = edgeMsg feat W ety src e j := by
  rw [msgR_rel feat W ety src e j (hty e)]
  unfold edgeMsg
  exact Finset.sum_congr rfl fun k _ => by rw [gath_apply]

end Cert.ReferenceIdeal.RefValue

end
-- ==== Proof.Bridge.lean ====
/-
  TWO SCATTER-ADDS OF THE SAME MESSAGES. One sums 640000 message rows into the rows their index words name. The other
  sums 720000 rows, of which 640000 are those same message rows, placed injectively and carrying the same index words,
  and all the others are zero rows. Both leave the same array: the sum over the padded rows splits into the placed rows,
  which are the edges' rows term by term, and the rest, which add zero wherever their index words point.
-/
import proofs.«407377_j54400055771236_3_alg».proof.Proof.LibGatherScatter
import Idealize.ShloMosaic.PureOps.Ideal.Laws

open scoped BigOperators

noncomputable section

namespace Cert.Bridge

open Idealize.ShloMosaic Idealize.ShloMosaic.ValueIdx Idealize.ShloMosaic.StableHlo.Predicate Idealize.ShloMosaic.RowOps

/-- The sums over the rows landing on operand row i agree. -/
theorem sum_lands_eq {P E D w : Nat} (idxP : IVec ⟨2, ![P, 1]⟩ w) (idxE : IVec ⟨2, ![E, 1]⟩ w)
    (updP : (⟨2, ![P, D]⟩ : Shape).Idx → EReal) (updE : (⟨2, ![E, D]⟩ : Shape).Idx → EReal)
    (pos : Fin E → Fin P) (hinj : Function.Injective pos)
    (hidx : ∀ e : Fin E, idxP (ixP (pos e)) = idxE (ixP e))
    (hupd : ∀ (e : Fin E) (j : Fin D), updP (ix2 (pos e) j) = updE (ix2 e j))
    (hzero : ∀ p : Fin P, (∀ e, pos e ≠ p) → ∀ j : Fin D, updP (ix2 p j) = 0)
    (i : Nat) (j : Fin D) :
    ∑ p ∈ Finset.univ.filter (fun p : Fin P => lands idxP p i), updP (ix2 p j)
      = ∑ e ∈ Finset.univ.filter (fun e : Fin E => lands idxE e i), updE (ix2 e j) := by
  -- a padded row of the form `pos e` lands where edge row `e` lands: the two carry the same index word
  have hl : ∀ e : Fin E, lands idxP (pos e) i ↔ lands idxE e i := fun e => by
    unfold lands
    rw [hidx e]
  -- the placed rows that land on `i` are among the padded rows that land on `i`
  have hsub : (Finset.univ.filter (fun e : Fin E => lands idxE e i)).image pos
      ⊆ Finset.univ.filter (fun p : Fin P => lands idxP p i) := by
    intro p hp
    obtain ⟨e, he, rfl⟩ := Finset.mem_image.1 hp
    exact Finset.mem_filter.2 ⟨Finset.mem_univ _, (hl e).2 (Finset.mem_filter.1 he).2⟩
  -- a padded row landing on `i` that is not a placed row landing on `i` is no placed row at all: a zero row
  have hrest : ∀ p ∈ Finset.univ.filter (fun p : Fin P => lands idxP p i),
      p ∉ (Finset.univ.filter (fun e : Fin E => lands idxE e i)).image pos → updP (ix2 p j) = 0 := by
    intro p hp hnot
    refine hzero p (fun e hpe => hnot ?_) j
    subst hpe
    exact Finset.mem_image.2 ⟨e, Finset.mem_filter.2 ⟨Finset.mem_univ _, (hl e).1 (Finset.mem_filter.1 hp).2⟩, rfl⟩
  rw [← Finset.sum_subset hsub hrest, Finset.sum_image hinj.injOn]
  exact Finset.sum_congr rfl (fun e _ => hupd e j)

/-- The two scatter-adds, into the same operand, leave the same array. -/
theorem scatterAdd_padded_eq {K P E D w : Nat}
    (dP : ScatterDims ⟨2, ![K, D]⟩ ⟨2, ![P, 1]⟩ ⟨2, ![P, D]⟩)
    (huwP : dP.updateWindowDims = [1]) (hiwP : dP.insertedWindowDims = [0]) (hsdP : dP.scatterDimsToOperandDims = [0])
    (hivdP : dP.indexVectorDim = 1)
    (dE : ScatterDims ⟨2, ![K, D]⟩ ⟨2, ![E, 1]⟩ ⟨2, ![E, D]⟩)
    (huwE : dE.updateWindowDims = [1]) (hiwE : dE.insertedWindowDims = [0]) (hsdE : dE.scatterDimsToOperandDims = [0])
    (hivdE : dE.indexVectorDim = 1)
    (x : (⟨2, ![K, D]⟩ : Shape).Idx → EReal) (idxP : IVec ⟨2, ![P, 1]⟩ w) (idxE : IVec ⟨2, ![E, 1]⟩ w)
    (updP : (⟨2, ![P, D]⟩ : Shape).Idx → EReal) (updE : (⟨2, ![E, D]⟩ : Shape).Idx → EReal)
    (pos : Fin E → Fin P) (hinj : Function.Injective pos)
    (hidx : ∀ e : Fin E, idxP (ixP (pos e)) = idxE (ixP e))
    (hupd : ∀ (e : Fin E) (j : Fin D), updP (ix2 (pos e) j) = updE (ix2 e j))
    (hzero : ∀ p : Fin P, (∀ e, pos e ≠ p) → ∀ j : Fin D, updP (ix2 p j) = 0) :
    Ideal.hostScatterAdd dP x idxP updP = Ideal.hostScatterAdd dE x idxE updE := by
  funext i
  obtain ⟨a, b, rfl⟩ : ∃ (a : Fin K) (b : Fin D), i = ix2 a b := ⟨i 0, i 1, eq_ix2 i⟩
  refine (scatterAdd_rows dP huwP hiwP hsdP hivdP x idxP updP a b).trans ?_
  refine Eq.trans ?_ (scatterAdd_rows dE huwE hiwE hsdE hivdE x idxE updE a b).symm
  exact congrArg (x (ix2 a b) + ·) (sum_lands_eq idxP idxE updP updE pos hinj hidx hupd hzero a.val b)

end Cert.Bridge

end
-- ==== Proof.PreDecode.lean ====
/-
  What the precondition says of the relation ids. Its last conjunct is the all-reduction of (0 ≤ id) ∧ (id < 8), signed,
  over the 640000 edges; when the whole precondition is true every edge's word therefore lies in [0, 8) signed, so its
  value as a natural number is below 8.
-/
import proofs.«407377_j54400055771236_3_alg».proof.Defs
import proofs.«407377_j54400055771236_3_alg».proof.Proof.Gen.Pre_finite_inputs
import Idealize.ShloMosaic.Lib.ReduceAll
import Idealize.ShloMosaic.Lib.Affine
import Idealize.ShloMosaic.Lib.ValueIdx
import Idealize.ShloMosaic.Lib.StableHlo.Predicate

noncomputable section

namespace Cert.PreDecode

open Idealize.ShloMosaic Idealize.ShloMosaic.TcCoe Idealize.SL.Sem Idealize.ShloMosaic.ValueIdx

/-- A 32-bit word that reads signed in [0, 8) is below 8 as a natural number: a word that is not negative reads signed
    as its own value. -/
private theorem toNat_lt_eight (x : BitVec 32) (h0 : (0#32).toInt ≤ x.toInt) (h8 : x.toInt < (8#32).toInt) :
    x.toNat < 8 := by
  have c0 : (0#32).toInt = 0 := by decide
  have c8 : (8#32).toInt = 8 := by decide
  rw [c0] at h0
  rw [c8] at h8
  have hx := BitVec.toInt_eq_toNat_cond x
  have hlt := x.isLt
  split at hx <;> omega

/-- The printed precondition, true, puts every relation word in [0, 8). -/
theorem fn_ety_lt {F : FTy → Type} [FloatOps F]
    (feat : FVec F Cert.Pre_finite_inputs.S50000x128 .f32) (W : FVec F Cert.Pre_finite_inputs.S8x128x128 .f32)
    (ety src dst : IVec Cert.Pre_finite_inputs.S640000 32)
    (h : Cert.Pre_finite_inputs.fn (F := F) feat W ety src dst = fun _ => 1#1)
    (e : Fin 640000) : (ety (ix1 e)).toNat < 8 := by
  -- the precondition read at the one index of its rank-0 result
  have e0 : Cert.Pre_finite_inputs.fn (F := F) feat W ety src dst (fun a => a.elim0) = 1#1 := congrFun h _
  -- its last conjunct: the all-reduction of (0 ≤ id) ∧ (id < 8) over the edges
  have h14 := (IntOp.andi_eq_one.1 e0).2
  haveI : Subsingleton Cert.Pre_finite_inputs.S_.Idx := ⟨fun a b => funext fun d => d.elim0⟩
  -- so the conjunction holds at edge `e`
  have h13 := Host.reduce_andi_all _ _ _ _ _ h14 (ix1 e)
  obtain ⟨hge, hlt⟩ := IntOp.andi_eq_one.1 h13
  -- the two signed comparisons, against the constants 0 and 8 broadcast along the edges
  have hge' : (0#32).toInt ≤ (ety (ix1 e)).toInt := IntOp.cmpi_sge.1 hge
  have hlt' : (ety (ix1 e)).toInt < (8#32).toInt := IntOp.cmpi_slt.1 hlt
  exact toNat_lt_eight (ety (ix1 e)) hge' hlt'

/-- The idealized kernel's precondition puts every relation word of its third argument in [0, 8). -/
theorem ety_lt (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (e : Fin 640000) :
    ((m ((c.tc : Thread Cert.KernelIdeal.nD Cert.KernelIdeal.τ).loc Cert.KernelIdeal.main_arg2) :
        Cert.KernelIdeal.S640000.Idx → BitVec 32) (ix1 e)).toNat < 8 :=
  fn_ety_lt _ _ _ _ _ (h c) e

end Cert.PreDecode

end
-- ==== Proof.Assemble.lean ====
/-
  The two idealized programs end with equal results. Both add, to the node features times one, a sum of message rows
  into destination rows. The kernel's 720000 padded rows are the 640000 edges' rows placed injectively — row pos e holds
  edge e's source row, its tile carries e's relation, so its message is e's message; its destination id is e's — and
  zero rows, whose messages are zero whatever matrix their tile selects. The reference's rows are the edges' messages.
  So the two scatter-adds leave the same array.
-/
import proofs.«407377_j54400055771236_3_alg».proof.Defs
import proofs.«407377_j54400055771236_3_alg».proof.Proof.Gen.Pre_finite_inputs
import proofs.«407377_j54400055771236_3_alg».proof.Proof.Gen.ReferenceIdeal.Run
import proofs.«407377_j54400055771236_3_alg».proof.Proof.KStagesEq
import proofs.«407377_j54400055771236_3_alg».proof.Proof.KLayout
import proofs.«407377_j54400055771236_3_alg».proof.Proof.KernelValue
import proofs.«407377_j54400055771236_3_alg».proof.Proof.RefValue
import proofs.«407377_j54400055771236_3_alg».proof.Proof.Bridge
import proofs.«407377_j54400055771236_3_alg».proof.Proof.PreDecode
import proofs.«407377_j54400055771236_3_alg».proof.Proof.OkIdeal
import proofs.«407377_j54400055771236_3_alg».proof.Proof.Spec

set_option maxRecDepth 16384

open scoped BigOperators

noncomputable section

namespace Cert.Assemble

open Idealize.ShloMosaic Idealize.ShloMosaic.TcCoe Idealize.SL.Sem Idealize.ShloMosaic.ValueIdx
open Idealize.ShloMosaic.StableHlo.Predicate Idealize.ShloMosaic.RowOps
open Cert.Spec

section Rows

open Cert.KernelIdeal Cert.KernelIdeal.Gen Cert.KernelIdeal.KStages

/-- At the ideal instance a change of float format is the identity. -/
private theorem truncf_ideal {s : Shape} (x : FVec Ideal s .f32) (h : FTy.bits .bf16 < FTy.bits .f32) :
    truncf .bf16 x h = x := rfl

/-- The bf16 pattern of zero is the extended real zero. -/
private theorem zero_bf16 : constant (F := Ideal) S_ .bf16 0x0000#16 (fun a => a.elim0) = (0 : EReal) := by
  show Ideal.ofBits .bf16 0x0000#16 = 0
  simp [Ideal.ofBits, Ideal.ieee]

/-- THE TWO SUMS. The kernel's 720000 message rows, summed into the rows the padded destination ids name, leave what
    the reference's 640000 message rows leave, summed into the rows the destination ids name: the padded rows are the
    edges' rows placed injectively, with the edges' destination ids and the edges' messages, and zero rows, whose
    messages are zero. -/
theorem scatter_eq (feat : FVec Ideal S50000x128 .f32) (W : FVec Ideal S8x128x128 .f32) (ety src dst : IVec S640000 32)
    (hty : ∀ e : Fin 640000, (ety (ix1 e)).toNat < 8) (x : FVec Ideal S50000x128 .f32)
    (msgs : FVec Ideal S720000x128 .f32)
    (hmsgs : ∀ (p : Fin 720000) (j : Fin 128) (r : Fin 8),
        (brel (exStarts (pcounts ety)) (ix1 (⟨p.val / 10000, by have := p.isLt; omega⟩ : Fin 72))).toNat = r.val →
        msgs (ix2 p j) = ∑ k : Fin 128, xpad (F := Ideal) feat ety src (ix2 p k) * W (ix3 r k j)) :
    Ideal.hostScatterAdd scatter_S50000x128_S720000x1_S720000x128_1_0_0_1 x
        (broadcastInDim S720000x1 ![0] bcast_S720000_S720000x1_0 (dpad ety dst)) msgs
      = Ideal.hostScatterAdd Cert.ReferenceIdeal.scatter_S50000x128_S640000x1_S640000x128_1_0_0_1 x
        (broadcastInDim Cert.ReferenceIdeal.S640000x1 ![0] Cert.ReferenceIdeal.Gen.bcast_S640000_S640000x1_0 dst)
        (Cert.ReferenceIdeal.RefValue.msgR feat W ety src) := by
  obtain ⟨pos, hinj, hx, hz, hd, hb⟩ := Cert.KernelIdeal.KLayout.layout (F := Ideal) feat ety src dst hty
  refine Cert.Bridge.scatterAdd_padded_eq _ rfl rfl rfl rfl _ rfl rfl rfl rfl x _ _ _ _ pos hinj ?_ ?_ ?_
  · -- the padded row of edge e carries e's destination id
    intro e
    rw [bcast_col1, bcast_col1, ofFin_eq_ix1, ofFin_eq_ix1]
    exact hd e
  · -- its tile carries e's relation and it holds e's source row: its message is e's
    intro e j
    rw [hmsgs (pos e) j (relOf (ety (ix1 e))) ((hb e).trans (relOf_val (hty e)).symm),
      Cert.ReferenceIdeal.RefValue.msgR_apply feat W ety src hty e j]
    unfold edgeMsg
    exact Finset.sum_congr rfl (fun k _ => by rw [hx e k])
  · -- a row that is no edge's is zero, and a zero row times any matrix is zero
    intro p hp j
    rw [hmsgs p j ⟨_, Cert.KernelIdeal.KLayout.brel_ok ety _⟩ rfl]
    refine Finset.sum_eq_zero (fun k _ => ?_)
    rw [hz p hp k, zero_bf16, zero_mul]

end Rows

section Glue

open Cert.KernelIdeal Cert.KernelIdeal.Gen Cert.KernelIdeal.KStages

/-- The same, with the kernel's four buffers named and said to be the stages: the form the run's facts arrive in. -/
theorem scatter_glue (feat : FVec Ideal S50000x128 .f32) (W : FVec Ideal S8x128x128 .f32) (ety src dst : IVec S640000 32)
    (hty : ∀ e : Fin 640000, (ety (ix1 e)).toNat < 8) (x : FVec Ideal S50000x128 .f32)
    (msgs : FVec Ideal S720000x128 .f32)
    (xp : S720000x128.Idx → EReal) (wb : S8x128x128.Idx → EReal) (tbl : S72.Idx → BitVec 32) (dp : S720000.Idx → BitVec 32)
    (hxp : xp = xpad (F := Ideal) (truncf .bf16 feat bitsLt_bf16_f32) ety src)
    (hwb : wb = truncf .bf16 W bitsLt_bf16_f32)
    (htbl : tbl = brel (exStarts (pcounts ety)))
    (hdp : dp = dpad ety dst)
    (hmsgs : ∀ (p : Fin 720000) (j : Fin 128) (r : Fin 8),
        (tbl (ix1 (⟨p.val / 10000, by have := p.isLt; omega⟩ : Fin 72))).toNat = r.val →
        msgs (ix2 p j) = ∑ k : Fin 128, xp (ix2 p k) * wb (ix3 r k j)) :
    Host.scatterAdd (F := Ideal) Cert.ReferenceIdeal.scatter_S50000x128_S640000x1_S640000x128_1_0_0_1 x
        (broadcastInDim Cert.ReferenceIdeal.S640000x1 ![0] Cert.ReferenceIdeal.Gen.bcast_S640000_S640000x1_0 dst)
        (Cert.ReferenceIdeal.RefValue.msgR feat W ety src)
      = Host.scatterAdd (F := Ideal) scatter_S50000x128_S720000x1_S720000x128_1_0_0_1 x
        (broadcastInDim S720000x1 ![0] bcast_S720000_S720000x1_0 dp) msgs := by
  have hm : ∀ (p : Fin 720000) (j : Fin 128) (r : Fin 8),
      (brel (exStarts (pcounts ety)) (ix1 (⟨p.val / 10000, by have := p.isLt; omega⟩ : Fin 72))).toNat = r.val →
      msgs (ix2 p j) = ∑ k : Fin 128, xpad (F := Ideal) feat ety src (ix2 p k) * W (ix3 r k j) := by
    intro p j r hr
    rw [hmsgs p j r (by rw [htbl]; exact hr), hxp, hwb, truncf_ideal, truncf_ideal]
  rw [hdp]
  exact (scatter_eq feat W ety src dst hty x msgs hm).symm

end Glue

/-- The idealized kernel and the idealized reference, from memories agreeing on the arguments, both run and end with
    equal results. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  have hO := Cert.KernelIdeal.OkOfPre.ok m
  obtain ⟨msgs, hrun, hmsgs⟩ := Cert.KernelIdeal.KValue.kernel_value m ρ hO
  refine ⟨_, hrun, ?_⟩
  refine (θ_run Cert.ReferenceIdeal.defs _ _).mono (fun _ h c => ⟨(h c).1.trans ?_, (h c).2⟩)
    (Cert.ReferenceIdeal.Value.run (F := Ideal) m' ρ')
  -- the reference's result term, at arguments that are the kernel's
  rw [Cert.ReferenceIdeal.RefValue.res_eq, (hagree c).1, (hagree c).2.1, (hagree c).2.2.1, (hagree c).2.2.2.1,
    (hagree c).2.2.2.2]
  -- both add the node features times one; the two sums of messages agree
  refine congrArg (addf _) ?_
  exact scatter_glue _ _ _ _ _ (fun e => Cert.PreDecode.ety_lt m hpre c e) _ (msgs c) _ _ _ _
    (Cert.KernelIdeal.KStagesEq.V_main_v77 m c) (Cert.KernelIdeal.KStagesEq.V_main_v1 m c)
    (Cert.KernelIdeal.KStagesEq.V_main_v97 m c) (Cert.KernelIdeal.KStagesEq.V_main_v85 m c) (hmsgs c)

end Cert.Assemble

end
-- ==== Proof.lean ====
/-
  A relational graph convolution layer: out = feat + Σ over edges e into each node of feat[src e] · W[etype e].
  The reference masks the gathered source rows once per relation and multiplies by that relation's matrix, eight times,
  and sums the edges' messages into their destination rows. The kernel sorts the edges by relation, places each
  relation's edges in a slab of whole tiles of 10000 rows (zero rows fill the slabs), multiplies every tile by the one
  matrix of the slab it lies in, and sums the padded rows' messages into their destination rows. With every relation id in
  [0, 8) — the precondition states it — the placed rows are exactly the edges' rows, with the edges' messages and
  destinations, and the zero rows add nothing: the two results are equal over the extended reals, with no use of the
  inputs' finiteness (0 · w = 0 for every extended real w). The frames: the grouped matmul's table of tile relations
  always names one of the eight matrices, whatever the inputs; the reference is a host program whose run is read back.
  No rewrite was applied to idealize the kernel, so the idealization claim is empty.
-/
import proofs.«407377_j54400055771236_3_alg».proof.Defs
import proofs.«407377_j54400055771236_3_alg».proof.Proof.Gen.Kernel
import proofs.«407377_j54400055771236_3_alg».proof.Proof.Gen.Kernel.Skeleton
import proofs.«407377_j54400055771236_3_alg».proof.Proof.Gen.Kernel.Launch
import proofs.«407377_j54400055771236_3_alg».proof.Proof.Gen.Kernel.Points
import proofs.«407377_j54400055771236_3_alg».proof.Proof.Gen.Kernel.Frame
import proofs.«407377_j54400055771236_3_alg».proof.Proof.Gen.KernelIdeal
import proofs.«407377_j54400055771236_3_alg».proof.Proof.Gen.KernelIdeal.Skeleton
import proofs.«407377_j54400055771236_3_alg».proof.Proof.Gen.KernelIdeal.Launch
import proofs.«407377_j54400055771236_3_alg».proof.Proof.Gen.KernelIdeal.Points
import proofs.«407377_j54400055771236_3_alg».proof.Proof.Gen.KernelIdeal.Frame
import proofs.«407377_j54400055771236_3_alg».proof.Proof.Gen.ReferenceIdeal
import proofs.«407377_j54400055771236_3_alg».proof.Proof.Gen.ReferenceIdeal.Run
import proofs.«407377_j54400055771236_3_alg».proof.Proof.Gen.Pre_finite_inputs
import proofs.«407377_j54400055771236_3_alg».proof.Proof.OkBits
import proofs.«407377_j54400055771236_3_alg».proof.Proof.OkIdeal
import proofs.«407377_j54400055771236_3_alg».proof.Proof.Assemble
import Idealize.ShloMosaic.Adequacy
import Idealize.ShloMosaic.Init

noncomputable section

namespace Cert.Proof

open Idealize.ShloMosaic Idealize.SL.Sem

/-- The kernel as printed runs and leaves its arguments unchanged: its table of tile relations is admissible. -/
theorem frame_kernel :
    Cert.frame_Kernel (hKernel := Cert.Kernel.Gen.facts) (hPre_finite_inputs := Cert.Pre_finite_inputs.Gen.facts) :=
  fun m ρ _ => Cert.Kernel.Gen.frame m ρ (Cert.Kernel.OkOfPre.ok m)

/-- So does the idealized kernel. -/
theorem frame_kernelIdeal :
    Cert.frame_KernelIdeal (hKernelIdeal := Cert.KernelIdeal.Gen.facts)
      (hPre_finite_inputs := Cert.Pre_finite_inputs.Gen.facts) :=
  fun m ρ _ => Cert.KernelIdeal.Gen.frame m ρ (Cert.KernelIdeal.OkOfPre.ok m)

/-- The reference is a host program: its run, with the result dropped. -/
theorem frame_referenceIdeal :
    Cert.frame_ReferenceIdeal (hReferenceIdeal := Cert.ReferenceIdeal.Gen.facts)
      (hPre_finite_inputs := Cert.Pre_finite_inputs.Gen.facts) :=
  fun m ρ _ => (θ_run Cert.ReferenceIdeal.defs _ _).mono (fun _ h c => (h c).2)
    (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, Cert.Assemble.algebraic⟩

end Cert.Proof

end
